-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1024 : Shape := ⟨2, ![10000, 1024]⟩
abbrev S2x80000 : Shape := ⟨2, ![2, 80000]⟩
abbrev S80000 : Shape := ⟨1, ![80000]⟩
abbrev S8x1024x1024 : Shape := ⟨3, ![8, 1024, 1024]⟩
abbrev S1024x1024 : Shape := ⟨2, ![1024, 1024]⟩
abbrev S1024 : Shape := ⟨1, ![1024]⟩
abbrev S2048x1024 : Shape := ⟨2, ![2048, 1024]⟩
abbrev S_ : Shape := ⟨0, ![]⟩
abbrev S1x80000 : Shape := ⟨2, ![1, 80000]⟩

class Facts : Prop where
  bcast_S_S10000x1024 : S_.BroadcastsInDim S10000x1024 (![] : Fin 0 → Fin S10000x1024.rank)
  reducesTo_S10000x1024_S_d0_1 : S10000x1024.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  slices_S2x80000_S1x80000_1_0 : S2x80000.Slices ![1, 0] S1x80000
  shapeCasts_S1x80000_S80000 : S1x80000.ShapeCasts S80000
  bcast_S_S80000 : S_.BroadcastsInDim S80000 (![] : Fin 0 → Fin S80000.rank)
  reducesTo_S80000_S_d0 : S80000.ReducesTo [0] S_

variable [Facts]

def fn_part2 {F : FTy → Type} [FloatOps F] (main_arg2 : IVec S80000 32) (main_v28 : IVec S_ 1) (main_v32 : IVec S80000 1) (main_v34 : IVec S80000 32) : IVec S_ 1 :=
  let main_c_11 : IVec S_ 32 := constantI S_ 32 10000#32
  let main_v35 : IVec S80000 32 := broadcastInDim S80000 ![] bcast_S_S80000 main_c_11
  let main_v36 : IVec S80000 1 := cmpi .slt main_v34 main_v35
  let main_v37 : IVec S80000 1 := andi main_v32 main_v36
  let main_c_12 : IVec S_ 1 := constantI S_ 1 1#1
  let main_v38 : IVec S_ 1 := (fun x v => Host.reduce IntOp.andi x v reducesTo_S80000_S_d0 h_S_) main_v37 main_c_12
  let main_v39 : IVec S_ 1 := andi main_v28 main_v38
  let main_c_13 : IVec S_ 32 := constantI S_ 32 0#32
  let main_v40 : IVec S80000 32 := broadcastInDim S80000 ![] bcast_S_S80000 main_c_13
  let main_v41 : IVec S80000 1 := cmpi .sge main_arg2 main_v40
  let main_c_14 : IVec S_ 32 := constantI S_ 32 8#32
  let main_v42 : IVec S80000 32 := broadcastInDim S80000 ![] bcast_S_S80000 main_c_14
  let main_v43 : IVec S80000 1 := cmpi .slt main_arg2 main_v42
  let main_v44 : IVec S80000 1 := andi main_v41 main_v43
  let main_c_15 : IVec S_ 1 := constantI S_ 1 1#1
  let main_v45 : IVec S_ 1 := (fun x v => Host.reduce IntOp.andi x v reducesTo_S80000_S_d0 h_S_) main_v44 main_c_15
  let main_v46 : IVec S_ 1 := andi main_v39 main_v45
  main_v46

def fn_part1 {F : FTy → Type} [FloatOps F] (main_arg1 : IVec S2x80000 32) (main_arg2 : IVec S80000 32) (main_arg6 : FVec F S2048x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S2048x1024 .f32 := Host.absf main_arg6
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : IVec S1x80000 32 := (extractStridedSlice S1x80000 ![1, 0] · slices_S2x80000_S1x80000_1_0) main_arg1
  let main_v30 : IVec S80000 32 := shapeCast S80000 main_v29 shapeCasts_S1x80000_S80000
  let main_c_10 : IVec S_ 32 := constantI S_ 32 0#32
  let main_v31 : IVec S80000 32 := broadcastInDim S80000 ![] bcast_S_S80000 main_c_10
  let main_v32 : IVec S80000 1 := cmpi .sge main_v30 main_v31
  let main_v33 : IVec S1x80000 32 := (extractStridedSlice S1x80000 ![1, 0] · slices_S2x80000_S1x80000_1_0) main_arg1
  let main_v34 : IVec S80000 32 := shapeCast S80000 main_v33 shapeCasts_S1x80000_S80000
  fn_part2 (F := F) main_arg2 main_v28 main_v32 main_v34

def fn {F : FTy → Type} [FloatOps F] (main_arg0 : FVec F S10000x1024 .f32) (main_arg1 : IVec S2x80000 32) (main_arg2 : IVec S80000 32) (main_arg3 : FVec F S8x1024x1024 .f32) (main_arg4 : FVec F S1024x1024 .f32) (main_arg5 : FVec F S1024 .f32) (main_arg6 : FVec F S2048x1024 .f32) (main_arg7 : FVec F S1024 .f32) : IVec S_ 1 :=
  let main_v0 : FVec F S10000x1024 .f32 := Host.absf main_arg0
  let main_cst : FVec F S_ .f32 := constant S_ .f32 0x7F800000#32
  let main_v1 : FVec F S10000x1024 .f32 := broadcastInDim S10000x1024 ![] bcast_S_S10000x1024 main_cst
  let main_v2 : IVec S10000x1024 1 := cmpf .olt main_v0 main_v1
  let main_c : IVec S_ 1 := constantI S_ 1 1#1
  let main_v3 : IVec S_ 1 := (fun x v => Host.reduce IntOp.andi x v reducesTo_S10000x1024_S_d0_1 h_S_) main_v2 main_c
  let main_v4 : FVec F S8x1024x1024 .f32 := Host.absf main_arg3
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg2 main_arg6 main_arg7 main_v13 main_v16
-- ==== Kernel.lean ====
abbrev S10000x1024 : Shape := ⟨2, ![10000, 1024]⟩
abbrev S2x80000 : Shape := ⟨2, ![2, 80000]⟩
abbrev S80000 : Shape := ⟨1, ![80000]⟩
abbrev S8x1024x1024 : Shape := ⟨3, ![8, 1024, 1024]⟩
abbrev S1024x1024 : Shape := ⟨2, ![1024, 1024]⟩
abbrev S1024 : Shape := ⟨1, ![1024]⟩
abbrev S2048x1024 : Shape := ⟨2, ![2048, 1024]⟩
abbrev S1x80000 : Shape := ⟨2, ![1, 80000]⟩
abbrev S_ : Shape := ⟨0, ![]⟩
abbrev S80000x1 : Shape := ⟨2, ![80000, 1]⟩
abbrev S80000x1024 : Shape := ⟨2, ![80000, 1024]⟩
abbrev S80000x1025 : Shape := ⟨2, ![80000, 1025]⟩
abbrev S10000x8192 : Shape := ⟨2, ![10000, 8192]⟩
abbrev S8192x1024 : Shape := ⟨2, ![8192, 1024]⟩
abbrev S1x1024 : Shape := ⟨2, ![1, 1024]⟩
abbrev S256x8192 : Shape := ⟨2, ![256, 8192]⟩
abbrev S256x1024 : Shape := ⟨2, ![256, 1024]⟩

abbrev nBuf : Space → Nat
  | .hbm => 56
  | .vmem => 12
  | .smem => 0
  | _ => 0

abbrev bufTy : (tb : Table) → Fin (tcTables nBuf tb) → BufTy
  | .hbm, ⟨0, _⟩ => ⟨S10000x1024, .f32⟩
  | .hbm, ⟨1, _⟩ => ⟨S2x80000, .i32⟩
  | .hbm, ⟨2, _⟩ => ⟨S80000, .i32⟩
  | .hbm, ⟨3, _⟩ => ⟨S8x1024x1024, .f32⟩
  | .hbm, ⟨4, _⟩ => ⟨S1024x1024, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S1x80000, .i32⟩
  | .hbm, ⟨9, _⟩ => ⟨S80000, .i32⟩
  | .hbm, ⟨10, _⟩ => ⟨S1x80000, .i32⟩
  | .hbm, ⟨11, _⟩ => ⟨S80000, .i32⟩
  | .hbm, ⟨12, _⟩ => ⟨S_, .i32⟩
  | .hbm, ⟨13, _⟩ => ⟨S80000, .i32⟩
  | .hbm, ⟨14, _⟩ => ⟨S80000, .i1⟩
  | .hbm, ⟨15, _⟩ => ⟨S_, .i32⟩
  | .hbm, ⟨16, _⟩ => ⟨S80000, .i32⟩
  | .hbm, ⟨17, _⟩ => ⟨S80000, .i32⟩
  | .hbm, ⟨18, _⟩ => ⟨S80000, .i32⟩
  | .hbm, ⟨19, _⟩ => ⟨S80000x1, .i32⟩
  | .hbm, ⟨20, _⟩ => ⟨S80000x1024, .f32⟩
  | .hbm, ⟨21, _⟩ => ⟨S_, .f32⟩
  | .hbm, ⟨22, _⟩ => ⟨S80000x1, .f32⟩
  | .hbm, ⟨23, _⟩ => ⟨S80000x1025, .f32⟩
  | .hbm, ⟨24, _⟩ => ⟨S_, .i32⟩
  | .hbm, ⟨25, _⟩ => ⟨S80000, .i32⟩
  | .hbm, ⟨26, _⟩ => ⟨S80000, .i32⟩
  | .hbm, ⟨27, _⟩ => ⟨S80000, .i32⟩
  | .hbm, ⟨28, _⟩ => ⟨S_, .f32⟩
  | .hbm, ⟨29, _⟩ => ⟨S80000x1025, .f32⟩
  | .hbm, ⟨30, _⟩ => ⟨S80000x1, .i32⟩
  | .hbm, ⟨31, _⟩ => ⟨S80000x1025, .f32⟩
  | .hbm, ⟨32, _⟩ => ⟨S80000x1024, .f32⟩
  | .hbm, ⟨33, _⟩ => ⟨S80000x1, .f32⟩
  | .hbm, ⟨34, _⟩ => ⟨S80000, .f32⟩
  | .hbm, ⟨35, _⟩ => ⟨S_, .f32⟩
  | .hbm, ⟨36, _⟩ => ⟨S80000, .f32⟩
  | .hbm, ⟨37, _⟩ => ⟨S80000, .f32⟩
  | .hbm, ⟨38, _⟩ => ⟨S_, .f32⟩
  | .hbm, ⟨39, _⟩ => ⟨S80000, .f32⟩
  | .hbm, ⟨40, _⟩ => ⟨S80000, .f32⟩
  | .hbm, ⟨41, _⟩ => ⟨S80000x1, .f32⟩
  | .hbm, ⟨42, _⟩ => ⟨S80000x1024, .f32⟩
  | .hbm, ⟨43, _⟩ => ⟨S80000x1024, .f32⟩
  | .hbm, ⟨44, _⟩ => ⟨S80000x1024, .bf16⟩
  | .hbm, ⟨45, _⟩ => ⟨S10000x8192, .bf16⟩
  | .hbm, ⟨46, _⟩ => ⟨S8192x1024, .f32⟩
  | .hbm, ⟨47, _⟩ => ⟨S8192x1024, .bf16⟩
  | .hbm, ⟨48, _⟩ => ⟨S1024x1024, .bf16⟩
  | .hbm, ⟨49, _⟩ => ⟨S1024x1024, .f32⟩
  | .hbm, ⟨50, _⟩ => ⟨S1024x1024, .bf16⟩
  | .hbm, ⟨51, _⟩ => ⟨S1024x1024, .f32⟩
  | .hbm, ⟨52, _⟩ => ⟨S1024x1024, .bf16⟩
  | .hbm, ⟨53, _⟩ => ⟨S1x1024, .f32⟩
  | .hbm, ⟨54, _⟩ => ⟨S1x1024, .f32⟩
  | .hbm, ⟨55, _⟩ => ⟨S10000x1024, .f32⟩
  | .local _ .vmem, ⟨0, _⟩ => ⟨S256x8192, .bf16⟩
  | .local _ .vmem, ⟨1, _⟩ => ⟨S256x8192, .bf16⟩
  | .local _ .vmem, ⟨2, _⟩ => ⟨S8192x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S10000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x80000_S1x80000_0_0 : S2x80000.Slices ![0, 0] S1x80000
  shapeCasts_S1x80000_S80000 : S1x80000.ShapeCasts S80000
  slices_S2x80000_S1x80000_1_0 : S2x80000.Slices ![1, 0] S1x80000
  bcast_S_S80000 : S_.BroadcastsInDim S80000 (![] : Fin 0 → Fin S80000.rank)
  bcast_S80000_S80000x1_0 : S80000.BroadcastsInDim S80000x1 (![0] : Fin 1 → Fin S80000x1.rank)
  bcast_S_S80000x1 : S_.BroadcastsInDim S80000x1 (![] : Fin 0 → Fin S80000x1.rank)
  concatenates_S80000x1024_S80000x1_S80000x1025_d1 : Shape.Concatenates [S80000x1024, S80000x1] S80000x1025 1
  bcast_S_S80000x1025 : S_.BroadcastsInDim S80000x1025 (![] : Fin 0 → Fin S80000x1025.rank)
  slices_S80000x1025_S80000x1024_0_0 : S80000x1025.Slices ![0, 0] S80000x1024
  slices_S80000x1025_S80000x1_0_1024 : S80000x1025.Slices ![0, 1024] S80000x1
  shapeCasts_S80000x1_S80000 : S80000x1.ShapeCasts S80000
  bcast_S80000x1_S80000x1024_0_1 : S80000x1.BroadcastsInDim S80000x1024 (![0, 1] : Fin 2 → Fin S80000x1024.rank)
  bitsLt_bf16_f32 : FTy.bits .bf16 < FTy.bits .f32
  shapeCasts_S80000x1024_S10000x8192 : S80000x1024.ShapeCasts S10000x8192
  shapeCasts_S8x1024x1024_S8192x1024 : S8x1024x1024.ShapeCasts S8192x1024
  slices_S2048x1024_S1024x1024_0_0 : S2048x1024.Slices ![0, 0] S1024x1024
  slices_S2048x1024_S1024x1024_1024_0 : S2048x1024.Slices ![1024, 0] S1024x1024
  shapeCasts_S1024_S1x1024 : S1024.ShapeCasts S1x1024
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192x1024_S8192x1024_0_0 : ∀ a, (![0, 0] : Fin 2 → Nat) a + S8192x1024.size a ≤ S8192x1024.size a
  h_S8192x1024 : 0 < S8192x1024.numel
  shapeCasts_S8192x1024_S8192x1024 : S8192x1024.ShapeCasts S8192x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  gather_S10000x1024_S80000x1_S80000x1024_1_0_n_n_0_1_11024_wf : GatherDims.WF S10000x1024 S80000x1 S80000x1024 [1] [0] [] [0] [] 1 ![1, 1024]
  scatter_S80000x1025_S80000x1_S80000x1025_1_0_0_1_wf : ScatterDims.WF S80000x1025 S80000x1 S80000x1025 [1] [0] [0] 1
  dot_S256x8192_S8192x1024_S256x1024_1_0_0_1_n_n_wf : DotDims.WF S256x8192 S8192x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x8192.size a < S10000x8192.size a
  hwx0_0 : ∀ i : grid0.Coords, EltTy.bits .bf16 = 32 ∨ (Rect.unit (s := S10000x8192) (fun a => cc0_transform_0 i a * S256x8192.size a) (fun a => (Pipeline.Clip.of (cc0_transform_0 i a) (S256x8192.size a) (S10000x8192.size a)).extent (S256x8192.size a)) fun a => Pipeline.Clip.inb (Pipeline.Clip.ok_of (hstart0_0 i a))).WholeWords (EltTy.packing .bf16)
  hwxs0_0 : ∀ i : grid0.Coords, EltTy.bits .bf16 = 32 ∨ (Rect.unit (s := S256x8192) (fun _ => 0) (fun a => (Pipeline.Clip.of (cc0_transform_0 i a) (S256x8192.size a) (S10000x8192.size a)).extent (S256x8192.size a)) fun a => (Nat.zero_add _).trans_le (Pipeline.Clip.extent_le (Pipeline.Clip.ok_of (hstart0_0 i a)))).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .bf16 = 32 ∨ (Rect.block (s := S8192x1024) S8192x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x1024.size a < S10000x1024.size a
  hwx0_2 : ∀ i : grid0.Coords, EltTy.bits .f32 = 32 ∨ (Rect.unit (s := S10000x1024) (fun a => cc0_transform_2 i a * S256x1024.size a) (fun a => (Pipeline.Clip.of (cc0_transform_2 i a) (S256x1024.size a) (S10000x1024.size a)).extent (S256x1024.size a)) fun a => Pipeline.Clip.inb (Pipeline.Clip.ok_of (hstart0_2 i a))).WholeWords (EltTy.packing .f32)
  hwxs0_2 : ∀ i : grid0.Coords, EltTy.bits .f32 = 32 ∨ (Rect.unit (s := S256x1024) (fun _ => 0) (fun a => (Pipeline.Clip.of (cc0_transform_2 i a) (S256x1024.size a) (S10000x1024.size a)).extent (S256x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S256x1024.size a < S10000x1024.size a
  hwx0_8 : ∀ i : grid0.Coords, EltTy.bits .f32 = 32 ∨ (Rect.unit (s := S10000x1024) (fun a => cc0_transform_8 i a * S256x1024.size a) (fun a => (Pipeline.Clip.of (cc0_transform_8 i a) (S256x1024.size a) (S10000x1024.size a)).extent (S256x1024.size a)) fun a => Pipeline.Clip.inb (Pipeline.Clip.ok_of (hstart0_8 i a))).WholeWords (EltTy.packing .f32)
  hwxs0_8 : ∀ i : grid0.Coords, EltTy.bits .f32 = 32 ∨ (Rect.unit (s := S256x1024) (fun _ => 0) (fun a => (Pipeline.Clip.of (cc0_transform_8 i a) (S256x1024.size a) (S10000x1024.size a)).extent (S256x1024.size a)) fun a => (Nat.zero_add _).trans_le (Pipeline.Clip.extent_le (Pipeline.Clip.ok_of (hstart0_8 i a)))).WholeWords (EltTy.packing .f32)

variable [Facts₀]

def gather_S10000x1024_S80000x1_S80000x1024_1_0_n_n_0_1_11024 : GatherDims S10000x1024 S80000x1 S80000x1024 where
  offsetDims := [1]
  collapsedSliceDims := [0]
  operandBatchingDims := []
  startIndicesBatchingDims := []
  startIndexMap := [0]
  indexVectorDim := 1
  sliceSizes := ![1, 1024]
  wf := gather_S10000x1024_S80000x1_S80000x1024_1_0_n_n_0_1_11024_wf
def scatter_S80000x1025_S80000x1_S80000x1025_1_0_0_1 : ScatterDims S80000x1025 S80000x1 S80000x1025 where
  updateWindowDims := [1]
  insertedWindowDims := [0]
  scatterDimsToOperandDims := [0]
  indexVectorDim := 1
  wf := scatter_S80000x1025_S80000x1_S80000x1025_1_0_0_1_wf
def dot_S256x8192_S8192x1024_S256x1024_1_0_0_1_n_n : DotDims S256x8192 S8192x1024 S256x1024 where
  lhsContracting := [1]
  rhsContracting := [0]
  lhsNonContracting := [0]
  rhsNonContracting := [1]
  lhsBatch := []
  rhsBatch := []
  wf := dot_S256x8192_S8192x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpecClip (Memref.whole main_v30) S256x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v32) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg0) S256x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v38) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpecClip (Memref.whole main_v40) S256x1024.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S10000x1024 : Shape := ⟨2, ![10000, 1024]⟩
abbrev S2x80000 : Shape := ⟨2, ![2, 80000]⟩
abbrev S80000 : Shape := ⟨1, ![80000]⟩
abbrev S8x1024x1024 : Shape := ⟨3, ![8, 1024, 1024]⟩
abbrev S1024x1024 : Shape := ⟨2, ![1024, 1024]⟩
abbrev S1024 : Shape := ⟨1, ![1024]⟩
abbrev S2048x1024 : Shape := ⟨2, ![2048, 1024]⟩
abbrev S1x80000 : Shape := ⟨2, ![1, 80000]⟩
abbrev S_ : Shape := ⟨0, ![]⟩
abbrev S80000x1 : Shape := ⟨2, ![80000, 1]⟩
abbrev S80000x1024 : Shape := ⟨2, ![80000, 1024]⟩
abbrev S1x1024 : Shape := ⟨2, ![1, 1024]⟩
abbrev S10000 : Shape := ⟨1, ![10000]⟩
abbrev S10000x1 : Shape := ⟨2, ![10000, 1]⟩
abbrev S1x1024x1024 : Shape := ⟨3, ![1, 1024, 1024]⟩
abbrev S10000x2048 : Shape := ⟨2, ![10000, 2048]⟩

abbrev nBuf : Space → Nat
  | .hbm => 237
  | .vmem => 0
  | .smem => 0
  | _ => 0

abbrev hbmTy0_0 (i : Nat) : BufTy := match i % 128 with
  | 0 => ⟨S10000x1024, .f32⟩
  | 1 => ⟨S2x80000, .i32⟩
  | 2 => ⟨S80000, .i32⟩
  | 3 => ⟨S8x1024x1024, .f32⟩
  | 4 => ⟨S1024x1024, .f32⟩
  | 5 => ⟨S1024, .f32⟩
  | 6 => ⟨S2048x1024, .f32⟩
  | 7 => ⟨S1024, .f32⟩
  | 8 => ⟨S1x80000, .i32⟩
  | 9 => ⟨S80000, .i32⟩
  | 10 => ⟨S1x80000, .i32⟩
  | 11 => ⟨S80000, .i32⟩
  | 12 => ⟨S_, .i32⟩
  | 13 => ⟨S80000, .i32⟩
  | 14 => ⟨S80000, .i1⟩
  | 15 => ⟨S_, .i32⟩
  | 16 => ⟨S80000, .i32⟩
  | 17 => ⟨S80000, .i32⟩
  | 18 => ⟨S80000, .i32⟩
  | 19 => ⟨S80000x1, .i32⟩
  | 20 => ⟨S80000x1024, .f32⟩
  | 21 => ⟨S10000x1024, .f32⟩
  | 22 => ⟨S1x1024, .f32⟩
  | 23 => ⟨S10000x1024, .f32⟩
  | 24 => ⟨S10000x1024, .f32⟩
  | 25 => ⟨S_, .i32⟩
  | 26 => ⟨S80000, .i32⟩
  | 27 => ⟨S80000, .i1⟩
  | 28 => ⟨S80000, .f32⟩
  | 29 => ⟨S80000x1, .f32⟩
  | 30 => ⟨S80000x1024, .f32⟩
  | 31 => ⟨S80000x1024, .f32⟩
  | 32 => ⟨S_, .f32⟩
  | 33 => ⟨S10000x1024, .f32⟩
  | 34 => ⟨S80000x1, .i32⟩
  | 35 => ⟨S10000x1024, .f32⟩
  | 36 => ⟨S_, .f32⟩
  | 37 => ⟨S10000, .f32⟩
  | 38 => ⟨S80000x1, .i32⟩
  | 39 => ⟨S10000, .f32⟩
  | 40 => ⟨S_, .f32⟩
  | 41 => ⟨S10000, .f32⟩
  | 42 => ⟨S10000, .f32⟩
  | 43 => ⟨S10000x1, .f32⟩
  | 44 => ⟨S10000x1024, .f32⟩
  | 45 => ⟨S10000x1024, .f32⟩
  | 46 => ⟨S1x1024x1024, .f32⟩
  | 47 => ⟨S1024x1024, .f32⟩
  | 48 => ⟨S10000x1024, .f32⟩
  | 49 => ⟨S10000x1024, .f32⟩
  | 50 => ⟨S_, .i32⟩
  | 51 => ⟨S80000, .i32⟩
  | 52 => ⟨S80000, .i1⟩
  | 53 => ⟨S80000, .f32⟩
  | 54 => ⟨S80000x1, .f32⟩
  | 55 => ⟨S80000x1024, .f32⟩
  | 56 => ⟨S80000x1024, .f32⟩
  | 57 => ⟨S_, .f32⟩
  | 58 => ⟨S10000x1024, .f32⟩
  | 59 => ⟨S80000x1, .i32⟩
  | 60 => ⟨S10000x1024, .f32⟩
  | 61 => ⟨S_, .f32⟩
  | 62 => ⟨S10000, .f32⟩
  | 63 => ⟨S80000x1, .i32⟩
  | 64 => ⟨S10000, .f32⟩
  | 65 => ⟨S_, .f32⟩
  | 66 => ⟨S10000, .f32⟩
  | 67 => ⟨S10000, .f32⟩
  | 68 => ⟨S10000x1, .f32⟩
  | 69 => ⟨S10000x1024, .f32⟩
  | 70 => ⟨S10000x1024, .f32⟩
  | 71 => ⟨S1x1024x1024, .f32⟩
  | 72 => ⟨S1024x1024, .f32⟩
  | 73 => ⟨S10000x1024, .f32⟩
  | 74 => ⟨S10000x1024, .f32⟩
  | 75 => ⟨S_, .i32⟩
  | 76 => ⟨S80000, .i32⟩
  | 77 => ⟨S80000, .i1⟩
  | 78 => ⟨S80000, .f32⟩
  | 79 => ⟨S80000x1, .f32⟩
  | 80 => ⟨S80000x1024, .f32⟩
  | 81 => ⟨S80000x1024, .f32⟩
  | 82 => ⟨S_, .f32⟩
  | 83 => ⟨S10000x1024, .f32⟩
  | 84 => ⟨S80000x1, .i32⟩
  | 85 => ⟨S10000x1024, .f32⟩
  | 86 => ⟨S_, .f32⟩
  | 87 => ⟨S10000, .f32⟩
  | 88 => ⟨S80000x1, .i32⟩
  | 89 => ⟨S10000, .f32⟩
  | 90 => ⟨S_, .f32⟩
  | 91 => ⟨S10000, .f32⟩
  | 92 => ⟨S10000, .f32⟩
  | 93 => ⟨S10000x1, .f32⟩
  | 94 => ⟨S10000x1024, .f32⟩
  | 95 => ⟨S10000x1024, .f32⟩
  | 96 => ⟨S1x1024x1024, .f32⟩
  | 97 => ⟨S1024x1024, .f32⟩
  | 98 => ⟨S10000x1024, .f32⟩
  | 99 => ⟨S10000x1024, .f32⟩
  | 100 => ⟨S_, .i32⟩
  | 101 => ⟨S80000, .i32⟩
  | 102 => ⟨S80000, .i1⟩
  | 103 => ⟨S80000, .f32⟩
  | 104 => ⟨S80000x1, .f32⟩
  | 105 => ⟨S80000x1024, .f32⟩
  | 106 => ⟨S80000x1024, .f32⟩
  | 107 => ⟨S_, .f32⟩
  | 108 => ⟨S10000x1024, .f32⟩
  | 109 => ⟨S80000x1, .i32⟩
  | 110 => ⟨S10000x1024, .f32⟩
  | 111 => ⟨S_, .f32⟩
  | 112 => ⟨S10000, .f32⟩
  | 113 => ⟨S80000x1, .i32⟩
  | 114 => ⟨S10000, .f32⟩
  | 115 => ⟨S_, .f32⟩
  | 116 => ⟨S10000, .f32⟩
  | 117 => ⟨S10000, .f32⟩
  | 118 => ⟨S10000x1, .f32⟩
  | 119 => ⟨S10000x1024, .f32⟩
  | 120 => ⟨S10000x1024, .f32⟩
  | 121 => ⟨S1x1024x1024, .f32⟩
  | 122 => ⟨S1024x1024, .f32⟩
  | 123 => ⟨S10000x1024, .f32⟩
  | 124 => ⟨S10000x1024, .f32⟩
  | 125 => ⟨S_, .i32⟩
  | 126 => ⟨S80000, .i32⟩
  | 127 => ⟨S80000, .i1⟩
  | _ => ⟨S10000x1024, .f32⟩

abbrev hbmTy0_1 (i : Nat) : BufTy := match i % 128 with
  | 0 => ⟨S80000, .f32⟩
  | 1 => ⟨S80000x1, .f32⟩
  | 2 => ⟨S80000x1024, .f32⟩
  | 3 => ⟨S80000x1024, .f32⟩
  | 4 => ⟨S_, .f32⟩
  | 5 => ⟨S10000x1024, .f32⟩
  | 6 => ⟨S80000x1, .i32⟩
  | 7 => ⟨S10000x1024, .f32⟩
  | 8 => ⟨S_, .f32⟩
  | 9 => ⟨S10000, .f32⟩
  | 10 => ⟨S80000x1, .i32⟩
  | 11 => ⟨S10000, .f32⟩
  | 12 => ⟨S_, .f32⟩
  | 13 => ⟨S10000, .f32⟩
  | 14 => ⟨S10000, .f32⟩
  | 15 => ⟨S10000x1, .f32⟩
  | 16 => ⟨S10000x1024, .f32⟩
  | 17 => ⟨S10000x1024, .f32⟩
  | 18 => ⟨S1x1024x1024, .f32⟩
  | 19 => ⟨S1024x1024, .f32⟩
  | 20 => ⟨S10000x1024, .f32⟩
  | 21 => ⟨S10000x1024, .f32⟩
  | 22 => ⟨S_, .i32⟩
  | 23 => ⟨S80000, .i32⟩
  | 24 => ⟨S80000, .i1⟩
  | 25 => ⟨S80000, .f32⟩
  | 26 => ⟨S80000x1, .f32⟩
  | 27 => ⟨S80000x1024, .f32⟩
  | 28 => ⟨S80000x1024, .f32⟩
  | 29 => ⟨S_, .f32⟩
  | 30 => ⟨S10000x1024, .f32⟩
  | 31 => ⟨S80000x1, .i32⟩
  | 32 => ⟨S10000x1024, .f32⟩
  | 33 => ⟨S_, .f32⟩
  | 34 => ⟨S10000, .f32⟩
  | 35 => ⟨S80000x1, .i32⟩
  | 36 => ⟨S10000, .f32⟩
  | 37 => ⟨S_, .f32⟩
  | 38 => ⟨S10000, .f32⟩
  | 39 => ⟨S10000, .f32⟩
  | 40 => ⟨S10000x1, .f32⟩
  | 41 => ⟨S10000x1024, .f32⟩
  | 42 => ⟨S10000x1024, .f32⟩
  | 43 => ⟨S1x1024x1024, .f32⟩
  | 44 => ⟨S1024x1024, .f32⟩
  | 45 => ⟨S10000x1024, .f32⟩
  | 46 => ⟨S10000x1024, .f32⟩
  | 47 => ⟨S_, .i32⟩
  | 48 => ⟨S80000, .i32⟩
  | 49 => ⟨S80000, .i1⟩
  | 50 => ⟨S80000, .f32⟩
  | 51 => ⟨S80000x1, .f32⟩
  | 52 => ⟨S80000x1024, .f32⟩
  | 53 => ⟨S80000x1024, .f32⟩
  | 54 => ⟨S_, .f32⟩
  | 55 => ⟨S10000x1024, .f32⟩
  | 56 => ⟨S80000x1, .i32⟩
  | 57 => ⟨S10000x1024, .f32⟩
  | 58 => ⟨S_, .f32⟩
  | 59 => ⟨S10000, .f32⟩
  | 60 => ⟨S80000x1, .i32⟩
  | 61 => ⟨S10000, .f32⟩
  | 62 => ⟨S_, .f32⟩
  | 63 => ⟨S10000, .f32⟩
  | 64 => ⟨S10000, .f32⟩
  | 65 => ⟨S10000x1, .f32⟩
  | 66 => ⟨S10000x1024, .f32⟩
  | 67 => ⟨S10000x1024, .f32⟩
  | 68 => ⟨S1x1024x1024, .f32⟩
  | 69 => ⟨S1024x1024, .f32⟩
  | 70 => ⟨S10000x1024, .f32⟩
  | 71 => ⟨S10000x1024, .f32⟩
  | 72 => ⟨S_, .i32⟩
  | 73 => ⟨S80000, .i32⟩
  | 74 => ⟨S80000, .i1⟩
  | 75 => ⟨S80000, .f32⟩
  | 76 => ⟨S80000x1, .f32⟩
  | 77 => ⟨S80000x1024, .f32⟩
  | 78 => ⟨S80000x1024, .f32⟩
  | 79 => ⟨S_, .f32⟩
  | 80 => ⟨S10000x1024, .f32⟩
  | 81 => ⟨S80000x1, .i32⟩
  | 82 => ⟨S10000x1024, .f32⟩
  | 83 => ⟨S_, .f32⟩
  | 84 => ⟨S10000, .f32⟩
  | 85 => ⟨S80000x1, .i32⟩
  | 86 => ⟨S10000, .f32⟩
  | 87 => ⟨S_, .f32⟩
  | 88 => ⟨S10000, .f32⟩
  | 89 => ⟨S10000, .f32⟩
  | 90 => ⟨S10000x1, .f32⟩
  | 91 => ⟨S10000x1024, .f32⟩
  | 92 => ⟨S10000x1024, .f32⟩
  | 93 => ⟨S1x1024x1024, .f32⟩
  | 94 => ⟨S1024x1024, .f32⟩
  | 95 => ⟨S10000x1024, .f32⟩
  | 96 => ⟨S10000x1024, .f32⟩
  | 97 => ⟨S10000x2048, .f32⟩
  | 98 => ⟨S10000x1024, .f32⟩
  | 99 => ⟨S1x1024, .f32⟩
  | 100 => ⟨S10000x1024, .f32⟩
  | 101 => ⟨S10000x1024, .f32⟩
  | 102 => ⟨S10000x1024, .f32⟩
  | 103 => ⟨S10000x1024, .f32⟩
  | 104 => ⟨S_, .f32⟩
  | 105 => ⟨S10000x1024, .f32⟩
  | 106 => ⟨S10000x1024, .f32⟩
  | 107 => ⟨S10000x1024, .f32⟩
  | 108 => ⟨S10000x1024, .f32⟩
  | _ => ⟨S10000x1024, .f32⟩

abbrev hbmTy (i : Nat) : BufTy := match i / 128 with
  | 0 => hbmTy0_0 i
  | 1 => hbmTy0_1 i
  | _ => ⟨S10000x1024, .f32⟩

abbrev bufTy : (tb : Table) → Fin (tcTables nBuf tb) → BufTy
  | .hbm, ⟨i, _⟩ => hbmTy i
  | _, _ => ⟨S10000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_12 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_13 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_14 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_15 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_c_16 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_17 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_18 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_19 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_c_20 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_21 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_22 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_23 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_c_24 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_25 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_cst_26 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_27 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_c_28 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_cst_29 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_cst_30 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_cst_31 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_cst_32 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩

abbrev nD : Nat := 1
abbrev τ : Topo := Topo.v7x

variable {F : FTy → Type} [FloatOps F]

class Facts₀ : Prop where
  slices_S2x80000_S1x80000_0_0 : S2x80000.Slices ![0, 0] S1x80000
  shapeCasts_S1x80000_S80000 : S1x80000.ShapeCasts S80000
  slices_S2x80000_S1x80000_1_0 : S2x80000.Slices ![1, 0] S1x80000
  bcast_S_S80000 : S_.BroadcastsInDim S80000 (![] : Fin 0 → Fin S80000.rank)
  bcast_S80000_S80000x1_0 : S80000.BroadcastsInDim S80000x1 (![0] : Fin 1 → Fin S80000x1.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S80000x1_S80000x1024_0_1 : S80000x1.BroadcastsInDim S80000x1024 (![0, 1] : Fin 2 → Fin S80000x1024.rank)
  bcast_S_S10000x1024 : S_.BroadcastsInDim S10000x1024 (![] : Fin 0 → Fin S10000x1024.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  slices_S8x1024x1024_S1x1024x1024_0_0_0 : S8x1024x1024.Slices ![0, 0, 0] S1x1024x1024
  shapeCasts_S1x1024x1024_S1024x1024 : S1x1024x1024.ShapeCasts S1024x1024
  slices_S8x1024x1024_S1x1024x1024_1_0_0 : S8x1024x1024.Slices ![1, 0, 0] S1x1024x1024
  slices_S8x1024x1024_S1x1024x1024_2_0_0 : S8x1024x1024.Slices ![2, 0, 0] S1x1024x1024
  slices_S8x1024x1024_S1x1024x1024_3_0_0 : S8x1024x1024.Slices ![3, 0, 0] S1x1024x1024
  slices_S8x1024x1024_S1x1024x1024_4_0_0 : S8x1024x1024.Slices ![4, 0, 0] S1x1024x1024
  slices_S8x1024x1024_S1x1024x1024_5_0_0 : S8x1024x1024.Slices ![5, 0, 0] S1x1024x1024
  slices_S8x1024x1024_S1x1024x1024_6_0_0 : S8x1024x1024.Slices ![6, 0, 0] S1x1024x1024
  slices_S8x1024x1024_S1x1024x1024_7_0_0 : S8x1024x1024.Slices ![7, 0, 0] S1x1024x1024
  concatenates_S10000x1024_S10000x1024_S10000x2048_d1 : Shape.Concatenates [S10000x1024, S10000x1024] S10000x2048 1
  gather_S10000x1024_S80000x1_S80000x1024_1_0_n_n_0_1_11024_wf : GatherDims.WF S10000x1024 S80000x1 S80000x1024 [1] [0] [] [0] [] 1 ![1, 1024]
  dot_S10000x1024_S1024x1024_S10000x1024_1_0_0_1_n_n_wf : DotDims.WF S10000x1024 S1024x1024 S10000x1024 [1] [0] [0] [1] [] []
  scatter_S10000x1024_S80000x1_S80000x1024_1_0_0_1_wf : ScatterDims.WF S10000x1024 S80000x1 S80000x1024 [1] [0] [0] 1
  scatter_S10000_S80000x1_S80000_n_0_0_1_wf : ScatterDims.WF S10000 S80000x1 S80000 [] [0] [0] 1
  dot_S10000x2048_S2048x1024_S10000x1024_1_0_0_1_n_n_wf : DotDims.WF S10000x2048 S2048x1024 S10000x1024 [1] [0] [0] [1] [] []

variable [Facts₀]

def gather_S10000x1024_S80000x1_S80000x1024_1_0_n_n_0_1_11024 : GatherDims S10000x1024 S80000x1 S80000x1024 where
  offsetDims := [1]
  collapsedSliceDims := [0]
  operandBatchingDims := []
  startIndicesBatchingDims := []
  startIndexMap := [0]
  indexVectorDim := 1
  sliceSizes := ![1, 1024]
  wf := gather_S10000x1024_S80000x1_S80000x1024_1_0_n_n_0_1_11024_wf
def dot_S10000x1024_S1024x1024_S10000x1024_1_0_0_1_n_n : DotDims S10000x1024 S1024x1024 S10000x1024 where
  lhsContracting := [1]
  rhsContracting := [0]
  lhsNonContracting := [0]
  rhsNonContracting := [1]
  lhsBatch := []
  rhsBatch := []
  wf := dot_S10000x1024_S1024x1024_S10000x1024_1_0_0_1_n_n_wf
def scatter_S10000x1024_S80000x1_S80000x1024_1_0_0_1 : ScatterDims S10000x1024 S80000x1 S80000x1024 where
  updateWindowDims := [1]
  insertedWindowDims := [0]
  scatterDimsToOperandDims := [0]
  indexVectorDim := 1
  wf := scatter_S10000x1024_S80000x1_S80000x1024_1_0_0_1_wf
def scatter_S10000_S80000x1_S80000_n_0_0_1 : ScatterDims S10000 S80000x1 S80000 where
  updateWindowDims := []
  insertedWindowDims := [0]
  scatterDimsToOperandDims := [0]
  indexVectorDim := 1
  wf := scatter_S10000_S80000x1_S80000_n_0_0_1_wf
def dot_S10000x2048_S2048x1024_S10000x1024_1_0_0_1_n_n : DotDims S10000x2048 S2048x1024 S10000x1024 where
  lhsContracting := [1]
  rhsContracting := [0]
  lhsNonContracting := [0]
  rhsNonContracting := [1]
  lhsBatch := []
  rhsBatch := []
  wf := dot_S10000x2048_S2048x1024_S10000x1024_1_0_0_1_n_n_wf

class Facts : Prop extends Facts₀ where

variable [Facts]
-- ==== Proof.Spec.lean ====
/-
  The mathematics both programs compute, as plain functions over the extended reals.

  A graph of 10000 nodes with 1024 features each, 80000 typed edges (8 relation types).  For node `n` and relation `r`
  the MEAN MESSAGE is the sum of the gathered source rows over the edges of type `r` that end in `n`, times the
  reciprocal of their number (of 1 when there is none).  The pre-activation `u` adds to `x·root + bias` every
  relation's mean transformed by that relation's weight; the gate `z` is `[u | x]·w_gate + b_gate`; the result is
  `tanh u · z + x · (1 − z)`.

  One program forms all 8 × 10000 means with ONE scatter keyed by `dst·8 + type` and multiplies them, laid out as a
  10000 × 8192 matrix, against the weights laid out as 8192 × 1024 (`rowsOut`); the other loops over the relations,
  masking the messages by `type = r` and scattering by `dst` (`outRef`).  `rowsOut` and `outRef` are the two forms;
  that they agree (under the layout hypotheses that say which entry of which matrix is which mean or weight) is
  regrouping of finite sums in a commutative monoid: no finiteness of any entry is used.
-/
import Idealize.ShloMosaic.PureOps.Ideal
import Idealize.ShloMosaic.Lib.ValueIdx

noncomputable section

namespace Cert.Spec

open Idealize.ShloMosaic Idealize.ShloMosaic.ValueIdx

/-- node features (and the result) -/
abbrev ShX : Shape := ⟨2, ![10000, 1024]⟩
/-- one gathered source row per edge -/
abbrev ShMsg : Shape := ⟨2, ![80000, 1024]⟩
/-- per-relation weights -/
abbrev ShW : Shape := ⟨3, ![8, 1024, 1024]⟩
abbrev ShSq : Shape := ⟨2, ![1024, 1024]⟩
abbrev ShB : Shape := ⟨1, ![1024]⟩
abbrev ShB2 : Shape := ⟨2, ![1, 1024]⟩
abbrev ShG : Shape := ⟨2, ![2048, 1024]⟩
/-- the means laid out one row per node, relation-major along the row -/
abbrev ShAgg : Shape := ⟨2, ![10000, 8192]⟩
/-- the weights laid out relation-major along the contracted axis -/
abbrev ShWcat : Shape := ⟨2, ![8192, 1024]⟩
abbrev ShEI : Shape := ⟨2, ![2, 80000]⟩
abbrev ShE : Shape := ⟨1, ![80000]⟩

/-- column `r·1024 + d` of the laid-out means, row of the laid-out weights -/
def aggCol (r : Fin 8) (d : Fin 1024) : Fin 8192 := ⟨r.val * 1024 + d.val, by have := r.isLt; have := d.isLt; omega⟩
/-- row `k` of the upper half of the gate weights (the rows that meet `u`) -/
def lo (k : Fin 1024) : Fin 2048 := ⟨k.val, by have := k.isLt; omega⟩
/-- row `1024 + k` of the gate weights (the rows that meet `x`) -/
def hi (k : Fin 1024) : Fin 2048 := ⟨1024 + k.val, by have := k.isLt; omega⟩

/-- the destination node of each edge, read signed off row 1 of the edge list -/
def dstOf (ei : ShEI.Idx → BitVec 32) : Fin 80000 → ℤ := fun e => (ei (ix2 (1 : Fin 2) e)).toInt
/-- the relation type of each edge, read signed -/
def etOf (et : ShE.Idx → BitVec 32) : Fin 80000 → ℤ := fun e => (et (ix1 e)).toInt

/-- every destination is a node and every type one of the 8 relations -/
def Ranges (ei : ShEI.Idx → BitVec 32) (et : ShE.Idx → BitVec 32) : Prop :=
  ∀ e : Fin 80000, (0 ≤ dstOf ei e ∧ dstOf ei e < 10000) ∧ (0 ≤ etOf et e ∧ etOf et e < 8)

/-- the edges of relation `r` that end in node `n` -/
def edges (dst et : Fin 80000 → ℤ) (n : Fin 10000) (r : Fin 8) : Finset (Fin 80000) :=
  Finset.univ.filter fun e => dst e = (n.val : ℤ) ∧ et e = (r.val : ℤ)

/-- feature `d` of the mean message of relation `r` into node `n` -/
def relMean (msgs : ShMsg.Idx → EReal) (dst et : Fin 80000 → ℤ) (n : Fin 10000) (r : Fin 8) (d : Fin 1024) : EReal :=
  (∑ e ∈ edges dst et n r, msgs (ix2 e d)) * (((1 / max ((edges dst et n r).card : ℝ) 1 : ℝ) : ℝ) : EReal)

/-- `tanh u · z + x · (1 − z)`; `one` is the literal both programs carry, never evaluated here -/
def gate (one u z xv : EReal) : EReal := Ideal.tanh u * z + xv * (one - z)

/-! ### The fused form: two products per row over the laid-out matrices

Stated for any number `R` of rows: a block of 256 rows of the arrays computes, row by row, what the whole arrays of
10000 rows do, since nothing in a row's value looks at another row. -/

def uRows {R : Nat} (agg : (⟨2, ![R, 8192]⟩ : Shape).Idx → EReal) (wcat : ShWcat.Idx → EReal)
    (x : (⟨2, ![R, 1024]⟩ : Shape).Idx → EReal) (bias : ShB2.Idx → EReal)
    (root : ShSq.Idx → EReal) (n : Fin R) (j : Fin 1024) : EReal :=
  ((∑ k : Fin 8192, agg (ix2 n k) * wcat (ix2 k j)) + (∑ k : Fin 1024, x (ix2 n k) * root (ix2 k j))) + bias (ix2 (0 : Fin 1) j)

def zRows {R : Nat} (u : Fin R → Fin 1024 → EReal) (x : (⟨2, ![R, 1024]⟩ : Shape).Idx → EReal) (wg1 wg2 : ShSq.Idx → EReal)
    (bg : ShB2.Idx → EReal) (n : Fin R) (j : Fin 1024) : EReal :=
  ((∑ k : Fin 1024, u n k * wg1 (ix2 k j)) + (∑ k : Fin 1024, x (ix2 n k) * wg2 (ix2 k j))) + bg (ix2 (0 : Fin 1) j)

/-- entry `(n, j)` of the result from row `n` of the laid-out means and of `x` -/
def hRows {R : Nat} (one : EReal) (agg : (⟨2, ![R, 8192]⟩ : Shape).Idx → EReal) (wcat : ShWcat.Idx → EReal)
    (x : (⟨2, ![R, 1024]⟩ : Shape).Idx → EReal) (bias : ShB2.Idx → EReal) (root wg1 wg2 : ShSq.Idx → EReal)
    (bg : ShB2.Idx → EReal) (n : Fin R) (j : Fin 1024) : EReal :=
  gate one (uRows agg wcat x bias root n j) (zRows (uRows agg wcat x bias root) x wg1 wg2 bg n j) (x (ix2 n j))

def rowsOut (one : EReal) (agg : ShAgg.Idx → EReal) (wcat : ShWcat.Idx → EReal) (x : ShX.Idx → EReal) (bias : ShB2.Idx → EReal)
    (root wg1 wg2 : ShSq.Idx → EReal) (bg : ShB2.Idx → EReal) : ShX.Idx → EReal := fun i =>
  hRows (R := 10000) one agg wcat x bias root wg1 wg2 bg (i 0) (i 1)

/-! ### The relation-by-relation form -/

def uRef (x : ShX.Idx → EReal) (msgs : ShMsg.Idx → EReal) (dst et : Fin 80000 → ℤ) (w : ShW.Idx → EReal)
    (root : ShSq.Idx → EReal) (bias : ShB.Idx → EReal) (n : Fin 10000) (j : Fin 1024) : EReal :=
  ((∑ k : Fin 1024, x (ix2 n k) * root (ix2 k j)) + bias (ix1 j))
    + ∑ r : Fin 8, ∑ d : Fin 1024, relMean msgs dst et n r d * w (ix3 r d j)

/-- entry `k` of row `n` of `[u | x]` -/
def catUX (u : Fin 10000 → Fin 1024 → EReal) (x : ShX.Idx → EReal) (n : Fin 10000) (k : Fin 2048) : EReal :=
  if h : k.val < 1024 then u n ⟨k.val, h⟩ else x (ix2 n ⟨k.val - 1024, by have := k.isLt; omega⟩)

def zRef (u : Fin 10000 → Fin 1024 → EReal) (x : ShX.Idx → EReal) (wg : ShG.Idx → EReal) (bg : ShB.Idx → EReal)
    (n : Fin 10000) (j : Fin 1024) : EReal :=
  (∑ k : Fin 2048, catUX u x n k * wg (ix2 k j)) + bg (ix1 j)

def outRef (one : EReal) (x : ShX.Idx → EReal) (msgs : ShMsg.Idx → EReal) (dst et : Fin 80000 → ℤ) (w : ShW.Idx → EReal)
    (root : ShSq.Idx → EReal) (bias : ShB.Idx → EReal) (wg : ShG.Idx → EReal) (bg : ShB.Idx → EReal) : ShX.Idx → EReal := fun i =>
  gate one (uRef x msgs dst et w root bias (i 0) (i 1)) (zRef (uRef x msgs dst et w root bias) x wg bg (i 0) (i 1)) (x i)

end Cert.Spec

end
-- ==== Proof.SpecLaws.lean ====
import proofs.«403554_j21449066676409_3_alg».proof.Proof.Spec
import Mathlib.Algebra.BigOperators.Fin
import Mathlib.Algebra.BigOperators.Group.Finset.Basic
import Mathlib.Data.EReal.Basic
import Mathlib.Data.EReal.Operations

noncomputable section

namespace Cert.Spec

open Idealize.ShloMosaic Idealize.ShloMosaic.ValueIdx

/-- a sum of ones counts the set -/
theorem sum_ones_card {ι : Type} (s : Finset ι) : (∑ _e ∈ s, (1 : EReal)) = ((s.card : ℝ) : EReal) := by
  classical
  induction s using Finset.induction_on with
  | empty => simp
  | insert a s ha ih =>
    rw [Finset.sum_insert ha, ih, Finset.card_insert_of_notMem ha, Nat.cast_succ, EReal.coe_add, EReal.coe_one, add_comm]

/-- the embedding of the reals commutes with finite sums -/
theorem coe_sum {ι : Type} (s : Finset ι) (f : ι → ℝ) : ((∑ e ∈ s, f e : ℝ) : EReal) = ∑ e ∈ s, (f e : EReal) := by
  classical
  induction s using Finset.induction_on with
  | empty => simp
  | insert a s ha ih =>
    rw [Finset.sum_insert ha, Finset.sum_insert ha, EReal.coe_add, ih]

/-- the larger of a count and one, taken in the reals or in the extended reals -/
theorem max_card_one (k : ℕ) : max ((k : ℝ) : EReal) (1 : EReal) = ((max (k : ℝ) 1 : ℝ) : EReal) := by
  rw [EReal.coe_strictMono.monotone.map_max, EReal.coe_one]

/-- the combined key `a·8 + b` of a node `a < 10000` and a relation `b < 8` does not wrap, so it determines both -/
theorem key_iff (a b : BitVec 32) (ha : 0 ≤ a.toInt ∧ a.toInt < 10000) (hb : 0 ≤ b.toInt ∧ b.toInt < 8) (n : Fin 10000) (r : Fin 8) :
    (a * 8#32 + b).toInt = (n.val : ℤ) * 8 + (r.val : ℤ) ↔ a.toInt = (n.val : ℤ) ∧ b.toInt = (r.val : ℤ) := by
  have hn := n.isLt
  have hr := r.isLt
  have h8 : (8#32).toInt = 8 := by decide
  have hk : (a * 8#32 + b).toInt = a.toInt * 8 + b.toInt := by
    rw [BitVec.toInt_add, BitVec.toInt_mul, h8,
      Int.bmod_eq_of_le_mul_two (x := a.toInt * 8) (by omega) (by omega),
      Int.bmod_eq_of_le_mul_two (by omega) (by omega)]
  rw [hk]
  omega

/-! ### Regrouping the sums

The contracted axis of length 8192 is the product of the 8 relations and the 1024 features; the axis of length
2048 is two runs of 1024.  A sum over either is the iterated sum over its parts. -/

/-- the pair (relation, feature) is the column `r·1024 + d`; back, the quotient and remainder by 1024 -/
def aggEquiv : Fin 8 × Fin 1024 ≃ Fin 8192 where
  toFun p := aggCol p.1 p.2
  invFun k := (⟨k.val / 1024, by have := k.isLt; omega⟩, ⟨k.val % 1024, by omega⟩)
  left_inv := by
    rintro ⟨r, d⟩
    have hr := r.isLt
    have hd := d.isLt
    refine Prod.ext (Fin.ext ?_) (Fin.ext ?_)
    · show (r.val * 1024 + d.val) / 1024 = r.val
      omega
    · show (r.val * 1024 + d.val) % 1024 = d.val
      omega
  right_inv := by
    intro k
    refine Fin.ext ?_
    show (k.val / 1024) * 1024 + k.val % 1024 = k.val
    omega

/-- a sum over the 8192 columns is the sum over the relations of the sums over the features -/
theorem sum_aggCol (f : Fin 8192 → EReal) :
    ∑ k : Fin 8192, f k = ∑ r : Fin 8, ∑ d : Fin 1024, f (aggCol r d) := by
  rw [← Equiv.sum_comp aggEquiv f, Fintype.sum_prod_type]
  rfl

/-- a sum over the 2048 rows of the gate weights is the sum over the upper half plus the sum over the lower half -/
theorem sum_lo_hi (f : Fin 2048 → EReal) :
    ∑ k : Fin 2048, f k = (∑ k : Fin 1024, f (lo k)) + ∑ k : Fin 1024, f (hi k) :=
  Fin.sum_univ_add (a := 1024) (b := 1024) f

/-- the first 1024 entries of a row of `[u | x]` are `u`'s -/
theorem catUX_lo (u : Fin 10000 → Fin 1024 → EReal) (x : ShX.Idx → EReal) (n : Fin 10000) (k : Fin 1024) :
    catUX u x n (lo k) = u n k := by
  have h : (lo k).val < 1024 := k.isLt
  unfold catUX
  rw [dif_pos h]
  rfl

/-- the last 1024 entries of a row of `[u | x]` are `x`'s -/
theorem catUX_hi (u : Fin 10000 → Fin 1024 → EReal) (x : ShX.Idx → EReal) (n : Fin 10000) (k : Fin 1024) :
    catUX u x n (hi k) = x (ix2 n k) := by
  have h : ¬ (hi k).val < 1024 := by
    show ¬ (1024 + k.val < 1024)
    omega
  have e : ∀ p : (hi k).val - 1024 < 1024, (⟨(hi k).val - 1024, p⟩ : Fin 1024) = k := fun p =>
    Fin.ext (by show 1024 + k.val - 1024 = k.val; omega)
  unfold catUX
  rw [dif_neg h, e]

/-! ### The two forms agree -/

/-- the pre-activation: the product against the laid-out weights is the sum over the relations of each mean
against its weight, and `(A + B) + b = (B + b) + A` -/
theorem uRows_eq (x : ShX.Idx → EReal) (msgs : ShMsg.Idx → EReal) (dst et : Fin 80000 → ℤ) (w : ShW.Idx → EReal)
    (root : ShSq.Idx → EReal) (bias : ShB.Idx → EReal)
    (agg : ShAgg.Idx → EReal) (wcat : ShWcat.Idx → EReal) (bias2 : ShB2.Idx → EReal) (root2 : ShSq.Idx → EReal)
    (hagg : ∀ (n : Fin 10000) (r : Fin 8) (d : Fin 1024), agg (ix2 n (aggCol r d)) = relMean msgs dst et n r d)
    (hwcat : ∀ (r : Fin 8) (d j : Fin 1024), wcat (ix2 (aggCol r d) j) = w (ix3 r d j))
    (hroot : ∀ k j : Fin 1024, root2 (ix2 k j) = root (ix2 k j))
    (hbias : ∀ j : Fin 1024, bias2 (ix2 (0 : Fin 1) j) = bias (ix1 j)) :
    uRows (R := 10000) agg wcat x bias2 root2 = uRef x msgs dst et w root bias := by
  funext n j
  unfold uRows uRef
  rw [sum_aggCol]
  simp only [hagg, hwcat, hroot, hbias]
  rw [add_comm (∑ r : Fin 8, ∑ d : Fin 1024, relMean msgs dst et n r d * w (ix3 r d j)), add_right_comm]

/-- the gate: the product of `[u | x]` against the gate weights is the product of `u` against their upper half
plus the product of `x` against their lower half -/
theorem zRows_eq (u : Fin 10000 → Fin 1024 → EReal) (x : ShX.Idx → EReal) (wg : ShG.Idx → EReal) (bg : ShB.Idx → EReal)
    (wg1 wg2 : ShSq.Idx → EReal) (bg2 : ShB2.Idx → EReal)
    (hwg1 : ∀ k j : Fin 1024, wg1 (ix2 k j) = wg (ix2 (lo k) j))
    (hwg2 : ∀ k j : Fin 1024, wg2 (ix2 k j) = wg (ix2 (hi k) j))
    (hbg : ∀ j : Fin 1024, bg2 (ix2 (0 : Fin 1) j) = bg (ix1 j)) :
    zRows (R := 10000) u x wg1 wg2 bg2 = zRef u x wg bg := by
  funext n j
  unfold zRows zRef
  rw [sum_lo_hi]
  simp only [catUX_lo, catUX_hi, hwg1, hwg2, hbg]

/-- the fused form over the laid-out matrices is the relation-by-relation form -/
theorem rows_eq_ref (one : EReal) (x : ShX.Idx → EReal) (msgs : ShMsg.Idx → EReal) (dst et : Fin 80000 → ℤ) (w : ShW.Idx → EReal)
    (root : ShSq.Idx → EReal) (bias : ShB.Idx → EReal) (wg : ShG.Idx → EReal) (bg : ShB.Idx → EReal)
    (agg : ShAgg.Idx → EReal) (wcat : ShWcat.Idx → EReal) (bias2 : ShB2.Idx → EReal) (root2 wg1 wg2 : ShSq.Idx → EReal) (bg2 : ShB2.Idx → EReal)
    (hagg : ∀ (n : Fin 10000) (r : Fin 8) (d : Fin 1024), agg (ix2 n (aggCol r d)) = relMean msgs dst et n r d)
    (hwcat : ∀ (r : Fin 8) (d j : Fin 1024), wcat (ix2 (aggCol r d) j) = w (ix3 r d j))
    (hroot : ∀ k j : Fin 1024, root2 (ix2 k j) = root (ix2 k j))
    (hwg1 : ∀ k j : Fin 1024, wg1 (ix2 k j) = wg (ix2 (lo k) j))
    (hwg2 : ∀ k j : Fin 1024, wg2 (ix2 k j) = wg (ix2 (hi k) j))
    (hbias : ∀ j : Fin 1024, bias2 (ix2 (0 : Fin 1) j) = bias (ix1 j))
    (hbg : ∀ j : Fin 1024, bg2 (ix2 (0 : Fin 1) j) = bg (ix1 j)) :
    rowsOut one agg wcat x bias2 root2 wg1 wg2 bg2 = outRef one x msgs dst et w root bias wg bg := by
  funext i
  obtain ⟨n, j, rfl⟩ : ∃ (n : Fin 10000) (j : Fin 1024), i = ix2 n j := ⟨i 0, i 1, eq_ix2 i⟩
  have hu : uRows (R := 10000) agg wcat x bias2 root2 = uRef x msgs dst et w root bias :=
    uRows_eq x msgs dst et w root bias agg wcat bias2 root2 hagg hwcat hroot hbias
  have hz : ∀ u : Fin 10000 → Fin 1024 → EReal, zRows (R := 10000) u x wg1 wg2 bg2 = zRef u x wg bg := fun u =>
    zRows_eq u x wg bg wg1 wg2 bg2 hwg1 hwg2 hbg
  show gate one (uRows (R := 10000) agg wcat x bias2 root2 n j)
      (zRows (R := 10000) (uRows (R := 10000) agg wcat x bias2 root2) x wg1 wg2 bg2 n j) (x (ix2 n j))
    = gate one (uRef x msgs dst et w root bias n j) (zRef (uRef x msgs dst et w root bias) x wg bg n j) (x (ix2 n j))
  rw [hu, hz]

end Cert.Spec

end
-- ==== Proof.RefFrame.lean ====
/-
  The reference program's frame: it is a host program with no kernel launch, so its run to the end with every
  argument array unchanged is its run read back operation by operation, with the statement about the result dropped.
-/
import proofs.«403554_j21449066676409_3_alg».proof.Defs
import proofs.«403554_j21449066676409_3_alg».proof.Proof.Gen.ReferenceIdeal
import proofs.«403554_j21449066676409_3_alg».proof.Proof.Gen.ReferenceIdeal.Run
import proofs.«403554_j21449066676409_3_alg».proof.Proof.Gen.Pre_finite_inputs

noncomputable section

namespace Cert.Proof.RefFrame

open Idealize.ShloMosaic Idealize.SL.Sem

/-- Every weakly fair execution of the reference ends, faults nowhere, and leaves its eight argument arrays as
    they were: the run's post without its first conjunct (what the result holds). -/
theorem frame_ri [Cert.Pre_finite_inputs.Facts] : Cert.frame_ReferenceIdeal (hReferenceIdeal := Cert.ReferenceIdeal.Gen.facts) := fun m ρ _ =>
  (θ_run Cert.ReferenceIdeal.defs _ _).mono (fun _ h c => (h c).2) (Cert.ReferenceIdeal.Value.run (F := Ideal) m ρ)

end Cert.Proof.RefFrame

end
-- ==== Proof.PreRange.lean ====
/-
  The two integer conjuncts of the precondition, read back: every destination word of the edge list (row 1) is, signed,
  a node number in [0, 10000), and every relation word a relation in [0, 8).

  The precondition is one bit: a conjunction (bitwise "and" of one-bit words) of eight "all" reductions.  A conjunction
  is 1 exactly when both operands are; an "all" that is 1 met a 1 at every index; a signed comparison that is 1 orders the
  signed readings of its operands; a scalar broadcast reads the scalar everywhere; row 1 of the [2, 80000] edge list,
  flattened to [80000], reads at e the entry (1, e).
-/
import proofs.«403554_j21449066676409_3_alg».proof.Pre_finite_inputs
import proofs.«403554_j21449066676409_3_alg».proof.Proof.Gen.Pre_finite_inputs
import proofs.«403554_j21449066676409_3_alg».proof.Proof.Spec
import Idealize.ShloMosaic.Lib.StableHlo.Predicate
import Idealize.ShloMosaic.Lib.ReduceAll
import Idealize.ShloMosaic.Lib.ValueIdx
import Idealize.ShloMosaic.Lib.Pipeline.Value

noncomputable section

namespace Cert.Proof.PreRange

open Idealize.ShloMosaic Idealize.ShloMosaic.ValueIdx
open Cert.Pre_finite_inputs

/-- the scalar shape has one index -/
instance subsingleton_scalar_idx : Subsingleton S_.Idx := ⟨fun a b => funext fun d => d.elim0⟩

/-- Row 1 of the edge list, flattened: entry e of the flattened row is entry (1, e) of the list (row-major position
    0 · 80000 + e of the [1, 80000] slice, whose row 0 is row 1 of the list). -/
theorem dst_read [Facts] (a1 : IVec S2x80000 32) (e : Fin 80000) :
    shapeCast S80000 ((extractStridedSlice S1x80000 ![1, 0] · Facts.slices_S2x80000_S1x80000_1_0) a1)
        Facts.shapeCasts_S1x80000_S80000 (ix1 e)
      = a1 (ix2 (1 : Fin 2) e) := by
  refine (shapeCast_apply _ _ (ix1 e) (ix2 (0 : Fin 1) e) ?_).trans ?_
  · rw [Shape.rowMajor_val_two, Shape.rowMajor_val_one]
    show 0 * 80000 + e.val = e.val
    omega
  · refine extractStridedSlice_apply _ _ _ _ (ix2 (1 : Fin 2) e) ?_
    intro a
    match a with
    | ⟨0, _⟩ => rfl
    | ⟨1, _⟩ => show e.val = 0 + e.val; omega

/-- The last two conjuncts, at edge e: the upper bound on the destination word (its lower bound is the bit v32 the
    part is handed) and both bounds on the relation word. -/
theorem part2_decode [Facts] (a2 : IVec S80000 32) (v28 : IVec S_ 1) (v32 : IVec S80000 1) (v34 : IVec S80000 32)
    (h : fn_part2 (F := Ideal) a2 v28 v32 v34 ix0 = 1#1) (e : Fin 80000) :
    (v32 (ix1 e) = 1#1 ∧ (v34 (ix1 e)).toInt < 10000) ∧ (0 ≤ (a2 (ix1 e)).toInt ∧ (a2 (ix1 e)).toInt < 8) := by
  dsimp only [fn_part2] at h
  obtain ⟨h39, h45⟩ := IntOp.andi_eq_one.1 h
  obtain ⟨-, h38⟩ := IntOp.andi_eq_one.1 h39
  have hd := Host.reduce_andi_all _ _ _ _ ix0 h38 (ix1 e)
  have ht := Host.reduce_andi_all _ _ _ _ ix0 h45 (ix1 e)
  obtain ⟨hd0, hd1⟩ := IntOp.andi_eq_one.1 hd
  obtain ⟨ht0, ht1⟩ := IntOp.andi_eq_one.1 ht
  have hd1' : (v34 (ix1 e)).toInt < (10000#32 : BitVec 32).toInt := IntOp.cmpi_slt.1 hd1
  have ht0' : (0#32 : BitVec 32).toInt ≤ (a2 (ix1 e)).toInt := IntOp.cmpi_sge.1 ht0
  have ht1' : (a2 (ix1 e)).toInt < (8#32 : BitVec 32).toInt := IntOp.cmpi_slt.1 ht1
  have c10000 : (10000#32 : BitVec 32).toInt = 10000 := by decide
  have c0 : (0#32 : BitVec 32).toInt = 0 := by decide
  have c8 : (8#32 : BitVec 32).toInt = 8 := by decide
  rw [c10000] at hd1'
  rw [c0] at ht0'
  rw [c8] at ht1'
  exact ⟨⟨hd0, hd1'⟩, ht0', ht1'⟩

/-- THE PRECONDITION DECODED: every destination a node, every type a relation. -/
theorem ranges_of_pre [Cert.Pre_finite_inputs.Facts] (a0 : FVec Ideal Cert.Pre_finite_inputs.S10000x1024 .f32) (a1 : IVec Cert.Pre_finite_inputs.S2x80000 32) (a2 : IVec Cert.Pre_finite_inputs.S80000 32) (a3 : FVec Ideal Cert.Pre_finite_inputs.S8x1024x1024 .f32) (a4 : FVec Ideal Cert.Pre_finite_inputs.S1024x1024 .f32) (a5 : FVec Ideal Cert.Pre_finite_inputs.S1024 .f32) (a6 : FVec Ideal Cert.Pre_finite_inputs.S2048x1024 .f32) (a7 : FVec Ideal Cert.Pre_finite_inputs.S1024 .f32)
    (h : Cert.Pre_finite_inputs.fn (F := Ideal) a0 a1 a2 a3 a4 a5 a6 a7 = (fun _ => 1#1)) : Cert.Spec.Ranges a1 a2 := by
  have h0 := congrFun h ix0
  dsimp only [fn, fn_part1] at h0
  intro e
  obtain ⟨⟨h32, hlt⟩, het⟩ := part2_decode _ _ _ _ h0 e
  have hge : (0#32 : BitVec 32).toInt ≤ (shapeCast S80000 ((extractStridedSlice S1x80000 ![1, 0] · Facts.slices_S2x80000_S1x80000_1_0) a1)
        Facts.shapeCasts_S1x80000_S80000 (ix1 e)).toInt := IntOp.cmpi_sge.1 h32
  have c0 : (0#32 : BitVec 32).toInt = 0 := by decide
  rw [c0] at hge
  rw [dst_read] at hge hlt
  exact ⟨⟨hge, hlt⟩, het⟩

end Cert.Proof.PreRange

end
-- ==== Proof.KBody.lean ====
import proofs.«403554_j21449066676409_3_alg».proof.Proof.Gen.KernelIdeal.Frame
import proofs.«403554_j21449066676409_3_alg».proof.Proof.Gen.KernelIdeal.Skeleton
import Idealize.ShloMosaic.Lib.Pipeline.Kit
import Idealize.ShloMosaic.Lib.Pipeline.Frame
import Idealize.ShloMosaic.Lib.Tactic

set_option maxRecDepth 16384

noncomputable section

namespace Cert.KernelIdeal.Hand

open Cert.KernelIdeal Cert.KernelIdeal.Facts₀ Cert.KernelIdeal.Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Reading and writing through a whole memref at zero offsets -/

section Whole

variable {sig' : RefSig} {Val : EltTy → Type} {κ : Kind} {sp : Space} {s : Shape} {e : EltTy} {M : Memref sig' κ sp s e}

/-- A load through a whole memref by the rectangle of its own sizes at zero offsets reads what the memref reads. -/
theorem readAt_zero_of_isWhole (h : M.IsWhole) {off : Fin s.rank → Nat} (hoff : off = fun _ => 0)
    (inb : ∀ a, off a + s.size a ≤ s.size a) (f : M.view.ty.Contents Val) :
    M.view.readAt Val (Rect.unit off s.size inb).toLoadRect f = M.view.read Val f := by
  obtain ⟨b, rfl, rfl, rfl, hm⟩ := h; cases hm
  rw [Memref.readAt_unit_zero Val b hoff inb f]; simp only [Memref.view_whole, View.read_whole]

/-- After an unmasked store of `w` through that rectangle the memref reads `w`. -/
theorem read_write_zero_of_isWhole (h : M.IsWhole) {off : Fin s.rank → Nat} (hoff : off = fun _ => 0)
    (inb : ∀ a, off a + s.size a ≤ s.size a) (f : M.view.ty.Contents Val) (w : s.Idx → Val e) :
    M.view.read Val ((M.access (Rect.unit off s.size inb)).write Val f w Finset.univ) = w := by
  obtain ⟨b, rfl, rfl, rfl, hm⟩ := h; cases hm
  rw [Memref.write_access_unit_zero_univ Val b hoff inb f w]; simp only [Memref.view_whole, View.read_whole]

end Whole

/-! ## The kernel function's triple -/

/-- The kernel function on nine whole memrefs at any contents: eight whole loads, the arithmetic, the dead load of the
    result's memref and the whole unmasked store. The first eight are handed back as found, the ninth reads the
    payload of what the eight read (the root matrix, loaded fourth, is the fifth memref; the bias row, loaded fifth,
    the fourth). -/
theorem run_gen (c : Dev nD) (E : Set ℕ) (i : grid0.Coords)
    (M0 : Memref sig .tc .vmem S256x8192 .bf16) (h0 : M0.IsWhole) (M1 : Memref sig .tc .vmem S8192x1024 .bf16) (h1 : M1.IsWhole)
    (M2 : Memref sig .tc .vmem S256x1024 .f32) (h2 : M2.IsWhole) (M3 : Memref sig .tc .vmem S1x1024 .f32) (h3 : M3.IsWhole)
    (M4 : Memref sig .tc .vmem S1024x1024 .bf16) (h4 : M4.IsWhole) (M5 : Memref sig .tc .vmem S1024x1024 .bf16) (h5 : M5.IsWhole)
    (M6 : Memref sig .tc .vmem S1024x1024 .bf16) (h6 : M6.IsWhole) (M7 : Memref sig .tc .vmem S1x1024 .f32) (h7 : M7.IsWhole)
    (M8 : Memref sig .tc .vmem S256x1024 .f32) (h8 : M8.IsWhole)
    (X0 : S256x8192.Idx → Elt F .bf16) (X1 : S8192x1024.Idx → Elt F .bf16) (X2 : S256x1024.Idx → Elt F .f32)
    (X3 : S1x1024.Idx → Elt F .f32) (X4 X5 X6 : S1024x1024.Idx → Elt F .bf16) (X7 : S1x1024.Idx → Elt F .f32)
    (X8 : S256x1024.Idx → Elt F .f32) (K : PUnit → sProp 𝕄) :
    iprop((owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4 ∗ owns (c : Thread nD τ) M5 fullShare X5
            ∗ owns (c : Thread nD τ) M6 fullShare X6 ∗ owns (c : Thread nD τ) M7 fullShare X7 ∗ owns (c : Thread nD τ) M8 fullShare X8)
          ∗ (iprop(owns (c : Thread nD τ) M0 fullShare X0 ∗ owns (c : Thread nD τ) M1 fullShare X1 ∗ owns (c : Thread nD τ) M2 fullShare X2
                  ∗ owns (c : Thread nD τ) M3 fullShare X3 ∗ owns (c : Thread nD τ) M4 fullShare X4 ∗ owns (c : Thread nD τ) M5 fullShare X5
                  ∗ owns (c : Thread nD τ) M6 fullShare X6 ∗ owns (c : Thread nD τ) M7 fullShare X7
                  ∗ owns (c : Thread nD τ) M8 fullShare (Gen.k0_pay1 X0 X1 X2 X4 X3 X5 X6 X7)) -∗ K ⟨⟩))
      ⊢ wp frame (wpE (defs₀ (F := F)) Variants.none c none) E
          (cc0__gate_kernel i M0 h0 M1 h1 M2 h2 M3 h3 M4 h4 M5 h5 M6 h6 M7 h7 M8 h8) K := by
  have hz : (![0, 0] : Fin 2 → Nat) = fun _ => 0 := funext fun a => by fin_cases a <;> rfl
  rw [Gen.cc0__gate_kernel_eq_skeleton]; unfold Gen.cc0__gate_kernel_skel
  simp only [Prog.lift, Prog.bind_op, Prog.bind_ret]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩⟩, Hk⟩
  sl_steps
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  · iexists _; isplitr
    rotate_left
    · iexact H8
    · ipureintro
      rw [read_write_zero_of_isWhole h8 hz, readAt_zero_of_isWhole h0 hz, readAt_zero_of_isWhole h1 hz,
        readAt_zero_of_isWhole h2 hz, readAt_zero_of_isWhole h3 hz, readAt_zero_of_isWhole h4 hz,
        readAt_zero_of_isWhole h5 hz, readAt_zero_of_isWhole h6 hz, readAt_zero_of_isWhole h7 hz,
        hf0, hf1, hf2, hf3, hf4, hf5, hf6, hf7]

/-- The kernel function at its windows' staging buffers, each at whichever of its window's slots, at any contents. -/
theorem sound_body (c : Dev nD) (E : Set ℕ) (i : grid0.Coords)
    (s0 : Fin 2) (s1 : Fin 1) (s2 : Fin 2) (s3 s4 s5 s6 s7 : Fin 1) (s8 : Fin 2)
    (X0 : S256x8192.Idx → Elt F .bf16) (X1 : S8192x1024.Idx → Elt F .bf16) (X2 : S256x1024.Idx → Elt F .f32)
    (X3 : S1x1024.Idx → Elt F .f32) (X4 X5 X6 : S1024x1024.Idx → Elt F .bf16) (X7 : S1x1024.Idx → Elt F .f32)
    (X8 : S256x1024.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5
            ∗ owns (c : Thread nD τ) (stage0_6 s6) fullShare X6 ∗ owns (c : Thread nD τ) (stage0_7 s7) fullShare X7
            ∗ owns (c : Thread nD τ) (stage0_8 s8) fullShare X8)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare X4 ∗ owns (c : Thread nD τ) (stage0_5 s5) fullShare X5
                  ∗ owns (c : Thread nD τ) (stage0_6 s6) fullShare X6 ∗ owns (c : Thread nD τ) (stage0_7 s7) fullShare X7
                  ∗ owns (c : Thread nD τ) (stage0_8 s8) fullShare (Gen.k0_pay1 X0 X1 X2 X4 X3 X5 X6 X7)) -∗ K ⟨⟩))
      ⊢ wp frame (wpE (defs₀ (F := F)) Variants.none c none) E
          (cc0__gate_kernel i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5) (stage0_6 s6) (hstage0_6 s6)
            (stage0_7 s7) (hstage0_7 s7) (stage0_8 s8) (hstage0_8 s8)) K :=
  run_gen c E i _ _ _ _ _ _ _ _ _ _ _ _ _ _ _ _ _ _ X0 X1 X2 X3 X4 X5 X6 X7 X8 K

/-! ## The pipeline's proof data -/

variable (m : (ℓ : Loc nD τ sig) → Buf (Elt F) ℓ) (ρ : Dev nD → PrngReg)

/-- The output window (8) is forgotten: the frame says nothing of the result, and at the last point the body's
    rows inside the array are not known to be independent of the staging rows past the arrays' end. -/
def forgets0 : Fin 9 → Bool := fun w => w.val == 8

/-- The proof data of the one pipeline on core `c`: the arrays as the region finds them; after the body at point
    `t` every input's staging buffer at its block — for the two inputs whose last block overhangs its array (the
    aggregated messages, window 0, and `x`, window 2) the block's part inside the array filled out past the
    array's end with a word nothing reads —, the output's unnamed; the class invariant; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => win0_0.fill (grid0.coords t) (fun _ => Classical.arbitrary _) (Gen.iblk m c 0 t)
    | ⟨1, _⟩ => Gen.iblk m c 1 t
    | ⟨2, _⟩ => win0_2.fill (grid0.coords t) (fun _ => Classical.arbitrary _) (Gen.iblk m c 2 t)
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, h⟩ => Pipeline.Dat.unnamed (cfg := cfg0) ⟨8, h⟩ t
  Φ _ := Pipeline.ΦA spec0 c
  q _ := fullShare
  owed _ := 0

/-- The proof data's arrays are the region-entry contents. -/
theorem A_eq (c : Dev nD) (w : Fin cfg0.W) : (dats m 0 c).A w = Gen.V m c (Pipeline.arrRef spec0 w) := by
  dsimp only [dats]

/-- What the body leaves, window by window. -/
theorem after0_0 (c : Dev nD) (t : Fin cfg0.N) :
    (dats m 0 c).after 0 t = win0_0.fill (grid0.coords t) (fun _ => Classical.arbitrary _) (Gen.iblk m c 0 t) := by dsimp only [dats]
theorem after0_1 (c : Dev nD) (t : Fin cfg0.N) : (dats m 0 c).after 1 t = Gen.iblk m c 1 t := by dsimp only [dats]
theorem after0_2 (c : Dev nD) (t : Fin cfg0.N) :
    (dats m 0 c).after 2 t = win0_2.fill (grid0.coords t) (fun _ => Classical.arbitrary _) (Gen.iblk m c 2 t) := by dsimp only [dats]
theorem after0_3 (c : Dev nD) (t : Fin cfg0.N) : (dats m 0 c).after 3 t = Gen.iblk m c 3 t := by dsimp only [dats]
theorem after0_4 (c : Dev nD) (t : Fin cfg0.N) : (dats m 0 c).after 4 t = Gen.iblk m c 4 t := by dsimp only [dats]
theorem after0_5 (c : Dev nD) (t : Fin cfg0.N) : (dats m 0 c).after 5 t = Gen.iblk m c 5 t := by dsimp only [dats]
theorem after0_6 (c : Dev nD) (t : Fin cfg0.N) : (dats m 0 c).after 6 t = Gen.iblk m c 6 t := by dsimp only [dats]
theorem after0_7 (c : Dev nD) (t : Fin cfg0.N) : (dats m 0 c).after 7 t = Gen.iblk m c 7 t := by dsimp only [dats]

/-- What the body finds. Windows 0 and 2 are fetched at every point: the buffer holds the block's part inside the
    array, and `d` past the array's end. -/
theorem before0_0 (c : Dev nD) (t : Fin cfg0.N) (d) :
    (dats m 0 c).before 0 t d = win0_0.fill (grid0.coords t) d (Gen.iblk m c 0 t) := by
  unfold Dat.before; rw [if_pos (Gen.fetch0_0 t)]; rfl
theorem before0_2 (c : Dev nD) (t : Fin cfg0.N) (d) :
    (dats m 0 c).before 2 t d = win0_2.fill (grid0.coords t) d (Gen.iblk m c 2 t) := by
  unfold Dat.before; rw [if_pos (Gen.fetch0_2 t)]; rfl
/-- The other inputs' blocks tile their arrays and the body leaves them in place: each buffer holds its block at
    every point, fetched there or not. -/
theorem before0_1 (c : Dev nD) (t : Fin cfg0.N) (d) : (dats m 0 c).before 1 t d = Gen.iblk m c 1 t :=
  Gen.before0_1_of m (dats m 0 c) (A_eq m c 1) (after0_1 m c) t d
theorem before0_3 (c : Dev nD) (t : Fin cfg0.N) (d) : (dats m 0 c).before 3 t d = Gen.iblk m c 3 t :=
  Gen.before0_3_of m (dats m 0 c) (A_eq m c 3) (after0_3 m c) t d
theorem before0_4 (c : Dev nD) (t : Fin cfg0.N) (d) : (dats m 0 c).before 4 t d = Gen.iblk m c 4 t :=
  Gen.before0_4_of m (dats m 0 c) (A_eq m c 4) (after0_4 m c) t d
theorem before0_5 (c : Dev nD) (t : Fin cfg0.N) (d) : (dats m 0 c).before 5 t d = Gen.iblk m c 5 t :=
  Gen.before0_5_of m (dats m 0 c) (A_eq m c 5) (after0_5 m c) t d
theorem before0_6 (c : Dev nD) (t : Fin cfg0.N) (d) : (dats m 0 c).before 6 t d = Gen.iblk m c 6 t :=
  Gen.before0_6_of m (dats m 0 c) (A_eq m c 6) (after0_6 m c) t d
theorem before0_7 (c : Dev nD) (t : Fin cfg0.N) (d) : (dats m 0 c).before 7 t d = Gen.iblk m c 7 t :=
  Gen.before0_7_of m (dats m 0 c) (A_eq m c 7) (after0_7 m c) t d

/-! ## The body obligation, at a generic point -/

/-- What the body is called with at point `t`: the invariant, what the core owes, each input's current buffer at
    what it then holds and the output's at anything; -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d))
    ∗ (∃ d, owns (c : Thread nD τ) (Gen.st0_4 t) fullShare ((dats m 0 c).before 4 t d))
    ∗ (∃ d, owns (c : Thread nD τ) (Gen.st0_5 t) fullShare ((dats m 0 c).before 5 t d))
    ∗ (∃ d, owns (c : Thread nD τ) (Gen.st0_6 t) fullShare ((dats m 0 c).before 6 t d))
    ∗ (∃ d, owns (c : Thread nD τ) (Gen.st0_7 t) fullShare ((dats m 0 c).before 7 t d))
    ∗ (∃ X, owns (c : Thread nD τ) (Gen.st0_8 t) fullShare X))

/-- and what it returns: the two inputs whose blocks may overhang their arrays stated on the part inside the array,
    the other inputs' buffers at their blocks, the output's at anything. -/
def bodyPost (c : Dev nD) (t : Fin cfg0.N) : sProp 𝕄 :=
  iprop((dats m 0 c).Φ t.succ ∗ (dats m 0 c).owesAt () t.succ
    ∗ (∃ d, owns (c : Thread nD τ) (Gen.st0_0 t) fullShare (win0_0.fill (grid0.coords t) d (win0_0.cut (grid0.coords t) ((dats m 0 c).after 0 t))))
    ∗ owns (c : Thread nD τ) (Gen.st0_1 t) fullShare ((dats m 0 c).after 1 t)
    ∗ (∃ d, owns (c : Thread nD τ) (Gen.st0_2 t) fullShare (win0_2.fill (grid0.coords t) d (win0_2.cut (grid0.coords t) ((dats m 0 c).after 2 t))))
    ∗ owns (c : Thread nD τ) (Gen.st0_3 t) fullShare ((dats m 0 c).after 3 t)
    ∗ owns (c : Thread nD τ) (Gen.st0_4 t) fullShare ((dats m 0 c).after 4 t)
    ∗ owns (c : Thread nD τ) (Gen.st0_5 t) fullShare ((dats m 0 c).after 5 t)
    ∗ owns (c : Thread nD τ) (Gen.st0_6 t) fullShare ((dats m 0 c).after 6 t)
    ∗ owns (c : Thread nD τ) (Gen.st0_7 t) fullShare ((dats m 0 c).after 7 t)
    ∗ (∃ X, owns (c : Thread nD τ) (Gen.st0_8 t) fullShare X))

/-- The body at any point: the inputs' buffers hold their blocks, the two that may overhang filled out with whatever
    lay past the array's end; the kernel function's triple applies at those contents; each input is handed back as
    found — on the part inside the array that is the block again, which is all the two loose windows' obligations
    state — and the output at what the body stored, unnamed; the invariant passes through unread and the core owes
    nothing throughout. -/
theorem body_at (c : Dev nD) (t : Fin cfg0.N) :
    bodyPre m c t ⊢ wp frame (wpE (defs₀ (F := F)) Variants.none c none) Set.univ (Gen.bodyAt0 t) (fun _ => bodyPost m c t) := by
  unfold bodyPre bodyPost
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, win0_0.cut_fill, win0_2.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%X8, H8⟩⟩
  iapply (run_gen (F := F) c Set.univ (grid0.coords t) _ _ _ _ _ _ _ _ _ _ _ _ _ _ _ _ _ _
    (win0_0.fill (grid0.coords t) d0 (Gen.iblk m c 0 t)) (Gen.iblk m c 1 t) (win0_2.fill (grid0.coords t) d2 (Gen.iblk m c 2 t))
    (Gen.iblk m c 3 t) (Gen.iblk m c 4 t) (Gen.iblk m c 5 t) (Gen.iblk m c 6 t) (Gen.iblk m c 7 t) X8 _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨H0, H1, H2, H3, H4, H5, H6, H7, H8⟩
  isplitl [HΦ]; · iexact HΦ
  isplitl [Ho]; · iexact Ho
  isplitl [H0]; · iexists d0; iexact H0
  isplitl [H1]; · iexact H1
  isplitl [H2]; · iexists d2; iexact H2
  isplitl [H3]; · iexact H3
  isplitl [H4]; · iexact H4
  isplitl [H5]; · iexact H5
  isplitl [H6]; · iexact H6
  isplitl [H7]; · iexact H7
  iexists _; iexact H8

/-- The library's body obligation, the output window forgotten, at every point. -/
theorem body_obligation (c : Dev nD) :
    BodyObligationLoose (dats (F := F) m 0 c) (defs₀ (F := F)) Variants.none () Set.univ forgets0 := fun t => by
  rw [Gen.bigSep_W0, Gen.bigSep_W0]
  exact body_at m c t

/-! ## The run and the frame -/

set_option backward.isDefEq.respectTransparency.types false in
/-- At the compiled mesh, for any float values, from any memory with zero counters: every weakly fair execution of
    @main on the TensorCores terminates, and every final state has every input array of the pipeline at its
    region-entry contents, nothing stated of the forgotten output (window 8), and every other unscoped buffer at
    its region-entry contents. -/
theorem run_frame : θ_run defs (onTc (τ := τ) (main (F := F))) (s₀ m ρ)
    (Pipeline.RDat.FramePost (cfgs 0) (fun c => (dats m 0 c).toRForget forgets0) (Gen.V m)) :=
  Pipeline.RDat.θ_run_frame cfgs (0 : Fin 1) Gen.launch0 defs₀ Variants.none (fun c => (dats m 0 c).toRForget forgets0) m ρ main
    (hbody := fun c => (body_obligation m c).toRForget)
    (hshare := fun c => ((dats m 0 c).toRForget forgets0).share_full fun _ => rfl)
    (howed := fun _ _ => rfl) (V := Gen.V m) (hmain := Gen.hmain m Variants.none) (hA := A_eq m) (hΦ := fun _ _ => rfl)

/-- The frame: `x`'s array is the pipeline's input window 2, which ends at its region-entry contents; the other seven
    arguments are buffers no window stages, which end at theirs; and no host operation before the region writes any
    of the eight. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(Pipeline.RDat.FramePost.arr_in h c 2 rfl).trans ((A_eq m c 2).trans (Gen.V_main_arg0 m c)),
      ((h c).2 main_arg1 (Pipeline.mem_restRefs_of main_arg1 (by decide) (by decide))).trans (Gen.V_main_arg1 m c),
      ((h c).2 main_arg2 (Pipeline.mem_restRefs_of main_arg2 (by decide) (by decide))).trans (Gen.V_main_arg2 m c),
      ((h c).2 main_arg3 (Pipeline.mem_restRefs_of main_arg3 (by decide) (by decide))).trans (Gen.V_main_arg3 m c),
      ((h c).2 main_arg4 (Pipeline.mem_restRefs_of main_arg4 (by decide) (by decide))).trans (Gen.V_main_arg4 m c),
      ((h c).2 main_arg5 (Pipeline.mem_restRefs_of main_arg5 (by decide) (by decide))).trans (Gen.V_main_arg5 m c),
      ((h c).2 main_arg6 (Pipeline.mem_restRefs_of main_arg6 (by decide) (by decide))).trans (Gen.V_main_arg6 m c),
      ((h c).2 main_arg7 (Pipeline.mem_restRefs_of main_arg7 (by decide) (by decide))).trans (Gen.V_main_arg7 m c)⟩)
    (run_frame m ρ)

end Cert.KernelIdeal.Hand

end
-- ==== Proof.KBodyBits.lean ====
import proofs.«403554_j21449066676409_3_alg».proof.Proof.Gen.Kernel.Frame
import proofs.«403554_j21449066676409_3_alg».proof.Proof.Gen.Kernel.Skeleton
import Idealize.ShloMosaic.Lib.Pipeline.Kit
import Idealize.ShloMosaic.Lib.Pipeline.Frame
import Idealize.ShloMosaic.Lib.Tactic

set_option maxRecDepth 16384

noncomputable section

namespace Cert.Kernel.Hand

open Cert.Kernel Cert.Kernel.Facts₀ Cert.Kernel.Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Reading and writing through a whole memref at zero offsets -/

section Whole

variable {sig' : RefSig} {Val : EltTy → Type} {κ : Kind} {sp : Space} {s : Shape} {e : EltTy} {M : Memref sig' κ sp s e}

/-- A load through a whole memref by the rectangle of its own sizes at zero offsets reads what the memref reads. -/
theorem readAt_zero_of_isWhole (h : M.IsWhole) {off : Fin s.rank → Nat} (hoff : off = fun _ => 0)
    (inb : ∀ a, off a + s.size a ≤ s.size a) (f : M.view.ty.Contents Val) :
    M.view.readAt Val (Rect.unit off s.size inb).toLoadRect f = M.view.read Val f := by
  obtain ⟨b, rfl, rfl, rfl, hm⟩ := h; cases hm
  rw [Memref.readAt_unit_zero Val b hoff inb f]; simp only [Memref.view_whole, View.read_whole]

/-- After an unmasked store of `w` through that rectangle the memref reads `w`. -/
theorem read_write_zero_of_isWhole (h : M.IsWhole) {off : Fin s.rank → Nat} (hoff : off = fun _ => 0)
    (inb : ∀ a, off a + s.size a ≤ s.size a) (f : M.view.ty.Contents Val) (w : s.Idx → Val e) :
    M.view.read Val ((M.access (Rect.unit off s.size inb)).write Val f w Finset.univ) = w := by
  obtain ⟨b, rfl, rfl, rfl, hm⟩ := h; cases hm
  rw [Memref.write_access_unit_zero_univ Val b hoff inb f w]; simp only [Memref.view_whole, View.read_whole]

end Whole

/-! ## The kernel function's triple -/

/-- The kernel function on nine whole memrefs at any contents: eight whole loads, the arithmetic, the dead load of the
    result's memref and the whole unmasked store. The first eight are handed back as found, the ninth reads the
    payload of what the eight read (the root matrix, loaded fourth, is the fifth memref; the bias row, loaded fifth,
    the fourth). -/
theorem run_gen (c : Dev nD) (E : Set ℕ) (i : grid0.Coords)
    (M0 : Memref sig .tc .vmem S256x8192 .bf16) (h0 : M0.IsWhole) (M1 : Memref sig .tc .vmem S8192x1024 .bf16) (h1 : M1.IsWhole)
    (M2 : Memref sig .tc .vmem S256x1024 .f32) (h2 : M2.IsWhole) (M3 : Memref sig .tc .vmem S1x1024 .f32) (h3 : M3.IsWhole)
    (M4 : Memref sig .tc .vmem S1024x1024 .bf16) (h4 : M4.IsWhole) (M5 : Memref sig .tc .vmem S1024x1024 .bf16) (h5 : M5.IsWhole)
    (M6 : Memref sig .tc .vmem S1024x1024 .bf16) (h6 : M6.IsWhole) (M7 : Memref sig .tc .vmem S1x1024 .f32) (h7 : M7.IsWhole)
    (M8 : Memref sig .tc .vmem S256x1024 .f32) (h8 : M8.IsWhole)
    (X0 : S256x8192.Idx → Elt F .bf16) (X1 : S8192x1024.Idx → Elt F .bf16) (X2 : S256x1024.Idx → Elt F .f32)
    (X3 : S1x1024.Idx → Elt F .f32) (X4 X5 X6 : S1024x1024.Idx → Elt F .bf16) (X7 : S1x1024.Idx → Elt F .f32)
    (X8 : S256x1024.Idx → Elt F .f32) (K : PUnit → sProp 𝕄) :
    iprop((owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4 ∗ owns (c : Thread nD τ) M5 fullShare X5
            ∗ owns (c : Thread nD τ) M6 fullShare X6 ∗ owns (c : Thread nD τ) M7 fullShare X7 ∗ owns (c : Thread nD τ) M8 fullShare X8)
          ∗ (iprop(owns (c : Thread nD τ) M0 fullShare X0 ∗ owns (c : Thread nD τ) M1 fullShare X1 ∗ owns (c : Thread nD τ) M2 fullShare X2
                  ∗ owns (c : Thread nD τ) M3 fullShare X3 ∗ owns (c : Thread nD τ) M4 fullShare X4 ∗ owns (c : Thread nD τ) M5 fullShare X5
                  ∗ owns (c : Thread nD τ) M6 fullShare X6 ∗ owns (c : Thread nD τ) M7 fullShare X7
                  ∗ owns (c : Thread nD τ) M8 fullShare (Gen.k0_pay1 X0 X1 X2 X4 X3 X5 X6 X7)) -∗ K ⟨⟩))
      ⊢ wp frame (wpE (defs₀ (F := F)) Variants.none c none) E
          (cc0__gate_kernel i M0 h0 M1 h1 M2 h2 M3 h3 M4 h4 M5 h5 M6 h6 M7 h7 M8 h8) K := by
  have hz : (![0, 0] : Fin 2 → Nat) = fun _ => 0 := funext fun a => by fin_cases a <;> rfl
  rw [Gen.cc0__gate_kernel_eq_skeleton]; unfold Gen.cc0__gate_kernel_skel
  simp only [Prog.lift, Prog.bind_op, Prog.bind_ret]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩⟩, Hk⟩
  sl_steps
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  · iexists _; isplitr
    rotate_left
    · iexact H8
    · ipureintro
      rw [read_write_zero_of_isWhole h8 hz, readAt_zero_of_isWhole h0 hz, readAt_zero_of_isWhole h1 hz,
        readAt_zero_of_isWhole h2 hz, readAt_zero_of_isWhole h3 hz, readAt_zero_of_isWhole h4 hz,
        readAt_zero_of_isWhole h5 hz, readAt_zero_of_isWhole h6 hz, readAt_zero_of_isWhole h7 hz,
        hf0, hf1, hf2, hf3, hf4, hf5, hf6, hf7]

/-- The kernel function at its windows' staging buffers, each at whichever of its window's slots, at any contents. -/
theorem sound_body (c : Dev nD) (E : Set ℕ) (i : grid0.Coords)
    (s0 : Fin 2) (s1 : Fin 1) (s2 : Fin 2) (s3 s4 s5 s6 s7 : Fin 1) (s8 : Fin 2)
    (X0 : S256x8192.Idx → Elt F .bf16) (X1 : S8192x1024.Idx → Elt F .bf16) (X2 : S256x1024.Idx → Elt F .f32)
    (X3 : S1x1024.Idx → Elt F .f32) (X4 X5 X6 : S1024x1024.Idx → Elt F .bf16) (X7 : S1x1024.Idx → Elt F .f32)
    (X8 : S256x1024.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5
            ∗ owns (c : Thread nD τ) (stage0_6 s6) fullShare X6 ∗ owns (c : Thread nD τ) (stage0_7 s7) fullShare X7
            ∗ owns (c : Thread nD τ) (stage0_8 s8) fullShare X8)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare X4 ∗ owns (c : Thread nD τ) (stage0_5 s5) fullShare X5
                  ∗ owns (c : Thread nD τ) (stage0_6 s6) fullShare X6 ∗ owns (c : Thread nD τ) (stage0_7 s7) fullShare X7
                  ∗ owns (c : Thread nD τ) (stage0_8 s8) fullShare (Gen.k0_pay1 X0 X1 X2 X4 X3 X5 X6 X7)) -∗ K ⟨⟩))
      ⊢ wp frame (wpE (defs₀ (F := F)) Variants.none c none) E
          (cc0__gate_kernel i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5) (stage0_6 s6) (hstage0_6 s6)
            (stage0_7 s7) (hstage0_7 s7) (stage0_8 s8) (hstage0_8 s8)) K :=
  run_gen c E i _ _ _ _ _ _ _ _ _ _ _ _ _ _ _ _ _ _ X0 X1 X2 X3 X4 X5 X6 X7 X8 K

/-! ## The pipeline's proof data -/

variable (m : (ℓ : Loc nD τ sig) → Buf (Elt F) ℓ) (ρ : Dev nD → PrngReg)

/-- The output window (8) is forgotten: the frame says nothing of the result, and at the last point the body's
    rows inside the array are not known to be independent of the staging rows past the arrays' end. -/
def forgets0 : Fin 9 → Bool := fun w => w.val == 8

/-- The proof data of the one pipeline on core `c`: the arrays as the region finds them; after the body at point
    `t` every input's staging buffer at its block — for the two inputs whose last block overhangs its array (the
    aggregated messages, window 0, and `x`, window 2) the block's part inside the array filled out past the
    array's end with a word nothing reads —, the output's unnamed; the class invariant; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => win0_0.fill (grid0.coords t) (fun _ => Classical.arbitrary _) (Gen.iblk m c 0 t)
    | ⟨1, _⟩ => Gen.iblk m c 1 t
    | ⟨2, _⟩ => win0_2.fill (grid0.coords t) (fun _ => Classical.arbitrary _) (Gen.iblk m c 2 t)
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, h⟩ => Pipeline.Dat.unnamed (cfg := cfg0) ⟨8, h⟩ t
  Φ _ := Pipeline.ΦA spec0 c
  q _ := fullShare
  owed _ := 0

/-- The proof data's arrays are the region-entry contents. -/
theorem A_eq (c : Dev nD) (w : Fin cfg0.W) : (dats m 0 c).A w = Gen.V m c (Pipeline.arrRef spec0 w) := by
  dsimp only [dats]

/-- What the body leaves, window by window. -/
theorem after0_0 (c : Dev nD) (t : Fin cfg0.N) :
    (dats m 0 c).after 0 t = win0_0.fill (grid0.coords t) (fun _ => Classical.arbitrary _) (Gen.iblk m c 0 t) := by dsimp only [dats]
theorem after0_1 (c : Dev nD) (t : Fin cfg0.N) : (dats m 0 c).after 1 t = Gen.iblk m c 1 t := by dsimp only [dats]
theorem after0_2 (c : Dev nD) (t : Fin cfg0.N) :
    (dats m 0 c).after 2 t = win0_2.fill (grid0.coords t) (fun _ => Classical.arbitrary _) (Gen.iblk m c 2 t) := by dsimp only [dats]
theorem after0_3 (c : Dev nD) (t : Fin cfg0.N) : (dats m 0 c).after 3 t = Gen.iblk m c 3 t := by dsimp only [dats]
theorem after0_4 (c : Dev nD) (t : Fin cfg0.N) : (dats m 0 c).after 4 t = Gen.iblk m c 4 t := by dsimp only [dats]
theorem after0_5 (c : Dev nD) (t : Fin cfg0.N) : (dats m 0 c).after 5 t = Gen.iblk m c 5 t := by dsimp only [dats]
theorem after0_6 (c : Dev nD) (t : Fin cfg0.N) : (dats m 0 c).after 6 t = Gen.iblk m c 6 t := by dsimp only [dats]
theorem after0_7 (c : Dev nD) (t : Fin cfg0.N) : (dats m 0 c).after 7 t = Gen.iblk m c 7 t := by dsimp only [dats]

/-- What the body finds. Windows 0 and 2 are fetched at every point: the buffer holds the block's part inside the
    array, and `d` past the array's end. -/
theorem before0_0 (c : Dev nD) (t : Fin cfg0.N) (d) :
    (dats m 0 c).before 0 t d = win0_0.fill (grid0.coords t) d (Gen.iblk m c 0 t) := by
  unfold Dat.before; rw [if_pos (Gen.fetch0_0 t)]; rfl
theorem before0_2 (c : Dev nD) (t : Fin cfg0.N) (d) :
    (dats m 0 c).before 2 t d = win0_2.fill (grid0.coords t) d (Gen.iblk m c 2 t) := by
  unfold Dat.before; rw [if_pos (Gen.fetch0_2 t)]; rfl
/-- The other inputs' blocks tile their arrays and the body leaves them in place: each buffer holds its block at
    every point, fetched there or not. -/
theorem before0_1 (c : Dev nD) (t : Fin cfg0.N) (d) : (dats m 0 c).before 1 t d = Gen.iblk m c 1 t :=
  Gen.before0_1_of m (dats m 0 c) (A_eq m c 1) (after0_1 m c) t d
theorem before0_3 (c : Dev nD) (t : Fin cfg0.N) (d) : (dats m 0 c).before 3 t d = Gen.iblk m c 3 t :=
  Gen.before0_3_of m (dats m 0 c) (A_eq m c 3) (after0_3 m c) t d
theorem before0_4 (c : Dev nD) (t : Fin cfg0.N) (d) : (dats m 0 c).before 4 t d = Gen.iblk m c 4 t :=
  Gen.before0_4_of m (dats m 0 c) (A_eq m c 4) (after0_4 m c) t d
theorem before0_5 (c : Dev nD) (t : Fin cfg0.N) (d) : (dats m 0 c).before 5 t d = Gen.iblk m c 5 t :=
  Gen.before0_5_of m (dats m 0 c) (A_eq m c 5) (after0_5 m c) t d
theorem before0_6 (c : Dev nD) (t : Fin cfg0.N) (d) : (dats m 0 c).before 6 t d = Gen.iblk m c 6 t :=
  Gen.before0_6_of m (dats m 0 c) (A_eq m c 6) (after0_6 m c) t d
theorem before0_7 (c : Dev nD) (t : Fin cfg0.N) (d) : (dats m 0 c).before 7 t d = Gen.iblk m c 7 t :=
  Gen.before0_7_of m (dats m 0 c) (A_eq m c 7) (after0_7 m c) t d

/-! ## The body obligation, at a generic point -/

/-- What the body is called with at point `t`: the invariant, what the core owes, each input's current buffer at
    what it then holds and the output's at anything; -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d))
    ∗ (∃ d, owns (c : Thread nD τ) (Gen.st0_4 t) fullShare ((dats m 0 c).before 4 t d))
    ∗ (∃ d, owns (c : Thread nD τ) (Gen.st0_5 t) fullShare ((dats m 0 c).before 5 t d))
    ∗ (∃ d, owns (c : Thread nD τ) (Gen.st0_6 t) fullShare ((dats m 0 c).before 6 t d))
    ∗ (∃ d, owns (c : Thread nD τ) (Gen.st0_7 t) fullShare ((dats m 0 c).before 7 t d))
    ∗ (∃ X, owns (c : Thread nD τ) (Gen.st0_8 t) fullShare X))

/-- and what it returns: the two inputs whose blocks may overhang their arrays stated on the part inside the array,
    the other inputs' buffers at their blocks, the output's at anything. -/
def bodyPost (c : Dev nD) (t : Fin cfg0.N) : sProp 𝕄 :=
  iprop((dats m 0 c).Φ t.succ ∗ (dats m 0 c).owesAt () t.succ
    ∗ (∃ d, owns (c : Thread nD τ) (Gen.st0_0 t) fullShare (win0_0.fill (grid0.coords t) d (win0_0.cut (grid0.coords t) ((dats m 0 c).after 0 t))))
    ∗ owns (c : Thread nD τ) (Gen.st0_1 t) fullShare ((dats m 0 c).after 1 t)
    ∗ (∃ d, owns (c : Thread nD τ) (Gen.st0_2 t) fullShare (win0_2.fill (grid0.coords t) d (win0_2.cut (grid0.coords t) ((dats m 0 c).after 2 t))))
    ∗ owns (c : Thread nD τ) (Gen.st0_3 t) fullShare ((dats m 0 c).after 3 t)
    ∗ owns (c : Thread nD τ) (Gen.st0_4 t) fullShare ((dats m 0 c).after 4 t)
    ∗ owns (c : Thread nD τ) (Gen.st0_5 t) fullShare ((dats m 0 c).after 5 t)
    ∗ owns (c : Thread nD τ) (Gen.st0_6 t) fullShare ((dats m 0 c).after 6 t)
    ∗ owns (c : Thread nD τ) (Gen.st0_7 t) fullShare ((dats m 0 c).after 7 t)
    ∗ (∃ X, owns (c : Thread nD τ) (Gen.st0_8 t) fullShare X))

/-- The body at any point: the inputs' buffers hold their blocks, the two that may overhang filled out with whatever
    lay past the array's end; the kernel function's triple applies at those contents; each input is handed back as
    found — on the part inside the array that is the block again, which is all the two loose windows' obligations
    state — and the output at what the body stored, unnamed; the invariant passes through unread and the core owes
    nothing throughout. -/
theorem body_at (c : Dev nD) (t : Fin cfg0.N) :
    bodyPre m c t ⊢ wp frame (wpE (defs₀ (F := F)) Variants.none c none) Set.univ (Gen.bodyAt0 t) (fun _ => bodyPost m c t) := by
  unfold bodyPre bodyPost
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, win0_0.cut_fill, win0_2.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%X8, H8⟩⟩
  iapply (run_gen (F := F) c Set.univ (grid0.coords t) _ _ _ _ _ _ _ _ _ _ _ _ _ _ _ _ _ _
    (win0_0.fill (grid0.coords t) d0 (Gen.iblk m c 0 t)) (Gen.iblk m c 1 t) (win0_2.fill (grid0.coords t) d2 (Gen.iblk m c 2 t))
    (Gen.iblk m c 3 t) (Gen.iblk m c 4 t) (Gen.iblk m c 5 t) (Gen.iblk m c 6 t) (Gen.iblk m c 7 t) X8 _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨H0, H1, H2, H3, H4, H5, H6, H7, H8⟩
  isplitl [HΦ]; · iexact HΦ
  isplitl [Ho]; · iexact Ho
  isplitl [H0]; · iexists d0; iexact H0
  isplitl [H1]; · iexact H1
  isplitl [H2]; · iexists d2; iexact H2
  isplitl [H3]; · iexact H3
  isplitl [H4]; · iexact H4
  isplitl [H5]; · iexact H5
  isplitl [H6]; · iexact H6
  isplitl [H7]; · iexact H7
  iexists _; iexact H8

/-- The library's body obligation, the output window forgotten, at every point. -/
theorem body_obligation (c : Dev nD) :
    BodyObligationLoose (dats (F := F) m 0 c) (defs₀ (F := F)) Variants.none () Set.univ forgets0 := fun t => by
  rw [Gen.bigSep_W0, Gen.bigSep_W0]
  exact body_at m c t

/-! ## The run and the frame -/

set_option backward.isDefEq.respectTransparency.types false in
/-- At the compiled mesh, for any float values, from any memory with zero counters: every weakly fair execution of
    @main on the TensorCores terminates, and every final state has every input array of the pipeline at its
    region-entry contents, nothing stated of the forgotten output (window 8), and every other unscoped buffer at
    its region-entry contents. -/
theorem run_frame : θ_run defs (onTc (τ := τ) (main (F := F))) (s₀ m ρ)
    (Pipeline.RDat.FramePost (cfgs 0) (fun c => (dats m 0 c).toRForget forgets0) (Gen.V m)) :=
  Pipeline.RDat.θ_run_frame cfgs (0 : Fin 1) Gen.launch0 defs₀ Variants.none (fun c => (dats m 0 c).toRForget forgets0) m ρ main
    (hbody := fun c => (body_obligation m c).toRForget)
    (hshare := fun c => ((dats m 0 c).toRForget forgets0).share_full fun _ => rfl)
    (howed := fun _ _ => rfl) (V := Gen.V m) (hmain := Gen.hmain m Variants.none) (hA := A_eq m) (hΦ := fun _ _ => rfl)

/-- The frame: `x`'s array is the pipeline's input window 2, which ends at its region-entry contents; the other seven
    arguments are buffers no window stages, which end at theirs; and no host operation before the region writes any
    of the eight. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(Pipeline.RDat.FramePost.arr_in h c 2 rfl).trans ((A_eq m c 2).trans (Gen.V_main_arg0 m c)),
      ((h c).2 main_arg1 (Pipeline.mem_restRefs_of main_arg1 (by decide) (by decide))).trans (Gen.V_main_arg1 m c),
      ((h c).2 main_arg2 (Pipeline.mem_restRefs_of main_arg2 (by decide) (by decide))).trans (Gen.V_main_arg2 m c),
      ((h c).2 main_arg3 (Pipeline.mem_restRefs_of main_arg3 (by decide) (by decide))).trans (Gen.V_main_arg3 m c),
      ((h c).2 main_arg4 (Pipeline.mem_restRefs_of main_arg4 (by decide) (by decide))).trans (Gen.V_main_arg4 m c),
      ((h c).2 main_arg5 (Pipeline.mem_restRefs_of main_arg5 (by decide) (by decide))).trans (Gen.V_main_arg5 m c),
      ((h c).2 main_arg6 (Pipeline.mem_restRefs_of main_arg6 (by decide) (by decide))).trans (Gen.V_main_arg6 m c),
      ((h c).2 main_arg7 (Pipeline.mem_restRefs_of main_arg7 (by decide) (by decide))).trans (Gen.V_main_arg7 m c)⟩)
    (run_frame m ρ)

end Cert.Kernel.Hand

end
-- ==== Proof.KPay.lean ====
import proofs.«403554_j21449066676409_3_alg».proof.Proof.Gen.KernelIdeal.Skeleton
import proofs.«403554_j21449066676409_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

/-
  The value one block of 256 rows stores, entry by entry.

  The block's arithmetic is two stages of products.  The pre-activation `u` of row `p` is the row of the laid-out
  means times the laid-out weights (a sum over 8192 columns), plus the row of `x` times `root` (a sum over 1024), plus
  the bias row.  The gate `z` is `u`'s row times the upper half of the gate weights plus `x`'s row times the lower
  half, plus the gate's bias row.  The entry stored is `tanh u · z + x · (1 − z)`.  Every product accumulates into
  zero, the narrowing of a 32-bit float to 16 bits is the identity on extended reals, and a one-row array broadcast
  down the rows reads its one row: so the entry is the specification's `hRows` of the eight loaded blocks.
-/

noncomputable section

namespace Cert.KernelIdeal.Hand

open Idealize.ShloMosaic Idealize.ShloMosaic.ValueIdx
open Cert.KernelIdeal

/-- The 32-bit pattern of the literal the gate subtracts from is the extended real one. -/
theorem one_f32 : (FloatOps.ofBits (F := Ideal) .f32 0x3F800000#32 : EReal) = 1 := Ideal.ofBits_one_f32

/-! ### The wide product: 256 × 8192 by 8192 × 1024, contracted over the 8192 laid-out columns -/

/-- On the rows' axis the left operand's index is the result's row. -/
theorem lhsW_0 (j : S256x1024.Idx) (k : dot_S256x8192_S8192x1024_S256x1024_1_0_0_1_n_n.contr.Idx) :
    (dot_S256x8192_S8192x1024_S256x1024_1_0_0_1_n_n.lhsIdx j k 0).val = (j 0).val := by
  unfold DotDims.lhsIdx
  rw [dif_neg (show ¬ (0 : Fin S256x8192.rank) ∈ dot_S256x8192_S8192x1024_S256x1024_1_0_0_1_n_n.lhsBatch by decide),
    dif_pos (show (0 : Fin S256x8192.rank) ∈ dot_S256x8192_S8192x1024_S256x1024_1_0_0_1_n_n.lhsNonContracting by decide)]
  rfl

/-- On the contracted axis the left operand's index is the contraction position. -/
theorem lhsW_1 (j : S256x1024.Idx) (k : dot_S256x8192_S8192x1024_S256x1024_1_0_0_1_n_n.contr.Idx) :
    (dot_S256x8192_S8192x1024_S256x1024_1_0_0_1_n_n.lhsIdx j k 1).val = (k ⟨0, by decide⟩).val :=
  dot_S256x8192_S8192x1024_S256x1024_1_0_0_1_n_n.lhsIdx_val_of_single (cl := 1) rfl j k

/-- On the contracted axis the right operand's index is the contraction position. -/
theorem rhsW_0 (j : S256x1024.Idx) (k : dot_S256x8192_S8192x1024_S256x1024_1_0_0_1_n_n.contr.Idx) :
    (dot_S256x8192_S8192x1024_S256x1024_1_0_0_1_n_n.rhsIdx j k 0).val = (k ⟨0, by decide⟩).val :=
  dot_S256x8192_S8192x1024_S256x1024_1_0_0_1_n_n.rhsIdx_val_of_single (cr := 0) rfl j k

/-- On the columns' axis the right operand's index is the result's column. -/
theorem rhsW_1 (j : S256x1024.Idx) (k : dot_S256x8192_S8192x1024_S256x1024_1_0_0_1_n_n.contr.Idx) :
    (dot_S256x8192_S8192x1024_S256x1024_1_0_0_1_n_n.rhsIdx j k 1).val = (j 1).val := by
  unfold DotDims.rhsIdx
  rw [dif_neg (show ¬ (1 : Fin S8192x1024.rank) ∈ dot_S256x8192_S8192x1024_S256x1024_1_0_0_1_n_n.rhsBatch by decide),
    dif_pos (show (1 : Fin S8192x1024.rank) ∈ dot_S256x8192_S8192x1024_S256x1024_1_0_0_1_n_n.rhsNonContracting by decide)]
  rfl

/-- The product into the zero accumulator, at row `p` and column `q`: the sum over the 8192 contracted positions of
    the left operand's row `p` times the right operand's column `q`. -/
theorem matmulW_apply (A : FVec Ideal S256x8192 .bf16) (B : FVec Ideal S8192x1024 .bf16) (p : Fin 256) (q : Fin 1024) :
    matmul dot_S256x8192_S8192x1024_S256x1024_1_0_0_1_n_n none A B (constant S256x1024 .f32 0x00000000#32) (ix2 p q)
      = ∑ k : Fin 8192, A (ix2 p k) * B (ix2 k q) := by
  refine (Ideal.matmul_constant_zero_apply dot_S256x8192_S8192x1024_S256x1024_1_0_0_1_n_n none A B (ix2 p q)).trans ?_
  rw [← Equiv.sum_comp (contrEquiv1 dot_S256x8192_S8192x1024_S256x1024_1_0_0_1_n_n 8192 rfl rfl).symm]
  refine Finset.sum_congr rfl fun k _ => ?_
  have hk := contrEquiv1_symm_val dot_S256x8192_S8192x1024_S256x1024_1_0_0_1_n_n 8192 rfl rfl k
  have hl : dot_S256x8192_S8192x1024_S256x1024_1_0_0_1_n_n.lhsIdx (ix2 p q)
      ((contrEquiv1 dot_S256x8192_S8192x1024_S256x1024_1_0_0_1_n_n 8192 rfl rfl).symm k) = ix2 p k := by
    funext a
    match a with
    | ⟨0, _⟩ => exact Fin.ext (lhsW_0 _ _)
    | ⟨1, _⟩ => exact Fin.ext ((lhsW_1 _ _).trans hk)
  have hr : dot_S256x8192_S8192x1024_S256x1024_1_0_0_1_n_n.rhsIdx (ix2 p q)
      ((contrEquiv1 dot_S256x8192_S8192x1024_S256x1024_1_0_0_1_n_n 8192 rfl rfl).symm k) = ix2 k q := by
    funext a
    match a with
    | ⟨0, _⟩ => exact Fin.ext ((rhsW_0 _ _).trans hk)
    | ⟨1, _⟩ => exact Fin.ext (rhsW_1 _ _)
  rw [hl, hr]

/-! ### The square products: 256 × 1024 by 1024 × 1024, contracted over the 1024 features -/

/-- On the rows' axis the left operand's index is the result's row. -/
theorem lhsS_0 (j : S256x1024.Idx) (k : dot_S256x1024_S1024x1024_S256x1024_1_0_0_1_n_n.contr.Idx) :
    (dot_S256x1024_S1024x1024_S256x1024_1_0_0_1_n_n.lhsIdx j k 0).val = (j 0).val := by
  unfold DotDims.lhsIdx
  rw [dif_neg (show ¬ (0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

/-- On the contracted axis the left operand's index is the contraction position. -/
theorem lhsS_1 (j : S256x1024.Idx) (k : dot_S256x1024_S1024x1024_S256x1024_1_0_0_1_n_n.contr.Idx) :
    (dot_S256x1024_S1024x1024_S256x1024_1_0_0_1_n_n.lhsIdx j k 1).val = (k ⟨0, by decide⟩).val :=
  dot_S256x1024_S1024x1024_S256x1024_1_0_0_1_n_n.lhsIdx_val_of_single (cl := 1) rfl j k

/-- On the contracted axis the right operand's index is the contraction position. -/
theorem rhsS_0 (j : S256x1024.Idx) (k : dot_S256x1024_S1024x1024_S256x1024_1_0_0_1_n_n.contr.Idx) :
    (dot_S256x1024_S1024x1024_S256x1024_1_0_0_1_n_n.rhsIdx j k 0).val = (k ⟨0, by decide⟩).val :=
  dot_S256x1024_S1024x1024_S256x1024_1_0_0_1_n_n.rhsIdx_val_of_single (cr := 0) rfl j k

/-- On the columns' axis the right operand's index is the result's column. -/
theorem rhsS_1 (j : S256x1024.Idx) (k : dot_S256x1024_S1024x1024_S256x1024_1_0_0_1_n_n.contr.Idx) :
    (dot_S256x1024_S1024x1024_S256x1024_1_0_0_1_n_n.rhsIdx j k 1).val = (j 1).val := by
  unfold DotDims.rhsIdx
  rw [dif_neg (show ¬ (1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The product into the zero accumulator, at row `p` and column `q`: the sum over the 1024 contracted positions of
    the left operand's row `p` times the right operand's column `q`. -/
theorem matmulS_apply (A : FVec Ideal S256x1024 .bf16) (B : FVec Ideal S1024x1024 .bf16) (p : Fin 256) (q : Fin 1024) :
    matmul dot_S256x1024_S1024x1024_S256x1024_1_0_0_1_n_n none A B (constant S256x1024 .f32 0x00000000#32) (ix2 p q)
      = ∑ k : Fin 1024, A (ix2 p k) * B (ix2 k q) := by
  refine (Ideal.matmul_constant_zero_apply dot_S256x1024_S1024x1024_S256x1024_1_0_0_1_n_n none A B (ix2 p q)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have hl : dot_S256x1024_S1024x1024_S256x1024_1_0_0_1_n_n.lhsIdx (ix2 p q)
      ((contrEquiv1 dot_S256x1024_S1024x1024_S256x1024_1_0_0_1_n_n 1024 rfl rfl).symm k) = ix2 p k := by
    funext a
    match a with
    | ⟨0, _⟩ => exact Fin.ext (lhsS_0 _ _)
    | ⟨1, _⟩ => exact Fin.ext ((lhsS_1 _ _).trans hk)
  have hr : dot_S256x1024_S1024x1024_S256x1024_1_0_0_1_n_n.rhsIdx (ix2 p q)
      ((contrEquiv1 dot_S256x1024_S1024x1024_S256x1024_1_0_0_1_n_n 1024 rfl rfl).symm k) = ix2 k q := by
    funext a
    match a with
    | ⟨0, _⟩ => exact Fin.ext ((rhsS_0 _ _).trans hk)
    | ⟨1, _⟩ => exact Fin.ext (rhsS_1 _ _)
  rw [hl, hr]

/-! ### The pointwise and layout pieces at an entry -/

/-- The hyperbolic tangent of an array, at an entry, is the extended reals' of the entry. -/
theorem tanh_apply {s : Shape} (a : FVec Ideal s .f32) (i : s.Idx) : tanh a i = Ideal.tanh (a i) := rfl

/-- A one-row array broadcast down 256 rows reads, at `(p, q)`, its one row at `q`. -/
theorem bcastRow_apply (v : FVec Ideal S1x1024 .f32) (h : S1x1024.Broadcasts S256x1024) (p : Fin 256) (q : Fin 1024) :
    broadcastTo S256x1024 v h (ix2 p q) = v (ix2 (0 : Fin 1) q) :=
  broadcastTo_1b_ab_apply v h p q

/-! ### The stored entry -/

/-- Entry `(p, q)` of the block the body stores is the gated row value of the eight loaded blocks: the means' block
    `X0`, the laid-out weights `X1`, the block of `x` `X2`, the bias row `X3`, `root` `X4`, the two halves of the gate
    weights `X5`, `X6`, and the gate's bias row `X7`. -/
theorem pay_apply (X0 : Vec Ideal S256x8192 .bf16) (X1 : Vec Ideal S8192x1024 .bf16) (X2 : Vec Ideal S256x1024 .f32)
    (X3 : Vec Ideal S1x1024 .f32) (X4 X5 X6 : Vec Ideal S1024x1024 .bf16) (X7 : Vec Ideal S1x1024 .f32)
    (p : Fin 256) (q : Fin 1024) :
    Gen.k0_pay1 X0 X1 X2 X4 X3 X5 X6 X7 (ix2 p q) = Cert.Spec.hRows (R := 256) 1 X0 X1 X2 X3 X4 X5 X6 X7 p q := by
  unfold Gen.k0_pay1
  simp only [shapeCast_self]
  simp only [addf_apply, mulf_apply, subf_apply, tanh_apply, broadcast_apply, bcastRow_apply, matmulW_apply,
    matmulS_apply, truncf_apply, one_f32]
  rfl

end Cert.KernelIdeal.Hand

end
-- ==== Proof.KValue.lean ====
/-
  What the one pipelined call leaves in the result array, as ONE function of the arrays it finds.

  The call walks the 10000 rows of the laid-out means and of `x` in 40 blocks of 256 rows (the last holds the 16
  rows 9984‥9999 and, past them, rows of the staging buffer that belong to no row of the arrays); the weights, the
  root matrix, the two halves of the gate weights and the two bias rows are whole arrays read once.  At each block
  the body stores, for every row `p` of the block and feature `q`, the gated value `hRows` of row `p` of the two
  staged blocks.  A row's value reads no other row, so on the rows that lie inside the arrays the stored block IS
  the block of `rowsOut` of the whole arrays, whatever fills the staging rows past the arrays' end; the write-back
  moves exactly those rows, and the 40 blocks' rows are all the rows.
-/
import proofs.«403554_j21449066676409_3_alg».proof.Proof.Gen.KernelIdeal.Frame
import proofs.«403554_j21449066676409_3_alg».proof.Proof.Gen.KernelIdeal.Skeleton
import proofs.«403554_j21449066676409_3_alg».proof.Proof.Spec
import proofs.«403554_j21449066676409_3_alg».proof.Proof.KBody
import proofs.«403554_j21449066676409_3_alg».proof.Proof.KPay
import Idealize.ShloMosaic.Lib.Pipeline.Kit
import Idealize.ShloMosaic.Lib.Pipeline.Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Facts₀ Cert.KernelIdeal.Facts
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## A row of the fused form reads only that row -/

/-- Row `n` of the fused form over one pair (means, `x`) is row `n'` of it over another pair whose rows `n'` are
    the first pair's rows `n`: the two products and the gate at `(n, j)` read row `n` of the means and of `x` only. -/
theorem hRows_row {R R' : Nat} (one : EReal) (agg : (⟨2, ![R, 8192]⟩ : Shape).Idx → EReal)
    (agg' : (⟨2, ![R', 8192]⟩ : Shape).Idx → EReal) (wcat : Cert.Spec.ShWcat.Idx → EReal)
    (x : (⟨2, ![R, 1024]⟩ : Shape).Idx → EReal) (x' : (⟨2, ![R', 1024]⟩ : Shape).Idx → EReal)
    (bias : Cert.Spec.ShB2.Idx → EReal) (root wg1 wg2 : Cert.Spec.ShSq.Idx → EReal) (bg : Cert.Spec.ShB2.Idx → EReal)
    (n : Fin R) (n' : Fin R') (j : Fin 1024)
    (hagg : ∀ k : Fin 8192, agg (ix2 n k) = agg' (ix2 n' k)) (hx : ∀ k : Fin 1024, x (ix2 n k) = x' (ix2 n' k)) :
    Cert.Spec.hRows one agg wcat x bias root wg1 wg2 bg n j = Cert.Spec.hRows one agg' wcat x' bias root wg1 wg2 bg n' j := by
  have hu : ∀ k : Fin 1024, Cert.Spec.uRows agg wcat x bias root n k = Cert.Spec.uRows agg' wcat x' bias root n' k := by
    intro k; unfold Cert.Spec.uRows; simp only [hagg, hx]
  unfold Cert.Spec.hRows Cert.Spec.zRows
  simp only [hu, hx]

/-- The stored value at row `p` of a block whose rows `p` of the means and of `x` are rows `n` of the whole arrays,
    and whose other six operands ARE the whole arrays, is the whole arrays' result at row `n`. -/
theorem pay_row (X0 : Vec Ideal S256x8192 .bf16) (X1 : Vec Ideal S8192x1024 .bf16) (X2 : Vec Ideal S256x1024 .f32) (X3 : Vec Ideal S1x1024 .f32) (X4 X5 X6 : Vec Ideal S1024x1024 .bf16) (X7 : Vec Ideal S1x1024 .f32)
    (A : Cert.Spec.ShAgg.Idx → EReal) (W1 : Cert.Spec.ShWcat.Idx → EReal) (Ax : Cert.Spec.ShX.Idx → EReal) (W3 : Cert.Spec.ShB2.Idx → EReal)
    (W4 W5 W6 : Cert.Spec.ShSq.Idx → EReal) (W7 : Cert.Spec.ShB2.Idx → EReal) (p : Fin 256) (q : Fin 1024) (n : Fin 10000)
    (h1 : X1 = W1) (h3 : X3 = W3) (h4 : X4 = W4) (h5 : X5 = W5) (h6 : X6 = W6) (h7 : X7 = W7)
    (h0 : ∀ k : Fin 8192, X0 (ix2 p k) = A (ix2 n k)) (h2 : ∀ k : Fin 1024, X2 (ix2 p k) = Ax (ix2 n k)) :
    Gen.k0_pay1 X0 X1 X2 X4 X3 X5 X6 X7 (ix2 p q) = Cert.Spec.rowsOut 1 A W1 Ax W3 W4 W5 W6 W7 (ix2 n q) := by
  subst h1 h3 h4 h5 h6 h7
  rw [pay_apply]
  exact hRows_row 1 X0 A X1 X2 Ax X3 X4 X5 X6 X7 p n q h0 h2

variable (m : (ℓ : Loc nD τ sig) → Buf (Elt Ideal) ℓ)

/-! ## The blocks' places, decided over the 40 points -/

/-- Point `t` stages block `t` of the rows of the means, of `x` and of the result, each across all its columns; the
    three are cut alike, to the rows `256·t ‥ min 10000 (256·t + 256)`. -/
theorem idx_facts : ∀ t : Fin cfg0.N,
    win0_0.index t (0 : Fin 2) = t.val ∧ win0_0.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_0.xsize (grid0.coords t) (0 : Fin 2) = win0_8.xsize (grid0.coords t) (0 : Fin 2)
    ∧ win0_2.xsize (grid0.coords t) (0 : Fin 2) = win0_8.xsize (grid0.coords t) (0 : Fin 2)
    ∧ win0_0.xsize (grid0.coords t) (1 : Fin 2) = 8192
    ∧ win0_2.xsize (grid0.coords t) (1 : Fin 2) = 1024
    ∧ win0_8.xsize (grid0.coords t) (1 : Fin 2) = 1024
    ∧ t.val * 256 + win0_8.xsize (grid0.coords t) (0 : Fin 2) = min 10000 (t.val * 256 + 256) :=
  (by decide +kernel : ∀ t : Fin grid0.N, _)

/-! ## The proof data -/

/-- The result array as the call leaves it: the fused form of the arrays the call finds. -/
def rowsV (c : Dev nD) : Buf (Elt Ideal) ((c : Thread nD τ).loc main_v40) :=
  Cert.Spec.rowsOut 1 (Gen.V m c main_v30) (Gen.V m c main_v32) (Gen.V m c main_arg0) (Gen.V m c main_v38)
    (Gen.V m c main_v33) (Gen.V m c main_v35) (Gen.V m c main_v37) (Gen.V m c main_v39)

/-- Rows of the means' block at point `t`, filled out past the array's end with zero. -/
def agg256 (c : Dev nD) (t : Fin cfg0.N) : S256x8192.Idx → Elt Ideal .bf16 :=
  win0_0.fill (grid0.coords t) (fun _ => (0 : EReal)) (Gen.iblk m c 0 t)
/-- Rows of `x`'s block at point `t`, filled out likewise. -/
def x256 (c : Dev nD) (t : Fin cfg0.N) : S256x1024.Idx → Elt Ideal .f32 :=
  win0_2.fill (grid0.coords t) (fun _ => (0 : EReal)) (Gen.iblk m c 2 t)
/-- Rows of the result's block at point `t`, filled out likewise. -/
def out256 (c : Dev nD) (t : Fin cfg0.N) : S256x1024.Idx → Elt Ideal .f32 :=
  win0_8.fill (grid0.coords t) (fun _ => (0 : EReal)) ((win0_8.blk t).view.read (Elt Ideal) (rowsV m c))

/-- The proof data on one core: the arrays as the call finds them; after the body the six whole-array windows hold
    their arrays, the two clipped inputs their blocks and the result's buffer the block of `rowsV`, each filled out
    past the arrays' end with zero (nothing reads the filler). -/
def datsV (_ : Fin 1) (c : Dev nD) : Dat τ (Elt Ideal) Unit ℕ (UR sig nD τ) ℕ cfg0 c where
  A w := Gen.V m c (Pipeline.arrRef spec0 w)
  after w t := match w with
    | ⟨0, _⟩ => agg256 m c t
    | ⟨1, _⟩ => Gen.iblk m c 1 t
    | ⟨2, _⟩ => x256 m c t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => out256 m c t
  Φ _ := Pipeline.ΦA spec0 c
  q _ := fullShare
  owed _ := 0

theorem A_eqV (c : Dev nD) (w : Fin cfg0.W) : (datsV m 0 c).A w = Gen.V m c (Pipeline.arrRef spec0 w) := by
  dsimp only [datsV]

theorem after_0 (c : Dev nD) (t : Fin cfg0.N) : (datsV m 0 c).after 0 t = agg256 m c t := by dsimp only [datsV]
theorem after_1 (c : Dev nD) (t : Fin cfg0.N) : (datsV m 0 c).after 1 t = Gen.iblk m c 1 t := by dsimp only [datsV]
theorem after_2 (c : Dev nD) (t : Fin cfg0.N) : (datsV m 0 c).after 2 t = x256 m c t := by dsimp only [datsV]
theorem after_3 (c : Dev nD) (t : Fin cfg0.N) : (datsV m 0 c).after 3 t = Gen.iblk m c 3 t := by dsimp only [datsV]
theorem after_4 (c : Dev nD) (t : Fin cfg0.N) : (datsV m 0 c).after 4 t = Gen.iblk m c 4 t := by dsimp only [datsV]
theorem after_5 (c : Dev nD) (t : Fin cfg0.N) : (datsV m 0 c).after 5 t = Gen.iblk m c 5 t := by dsimp only [datsV]
theorem after_6 (c : Dev nD) (t : Fin cfg0.N) : (datsV m 0 c).after 6 t = Gen.iblk m c 6 t := by dsimp only [datsV]
theorem after_7 (c : Dev nD) (t : Fin cfg0.N) : (datsV m 0 c).after 7 t = Gen.iblk m c 7 t := by dsimp only [datsV]
theorem after_8 (c : Dev nD) (t : Fin cfg0.N) : (datsV m 0 c).after 8 t = out256 m c t := by dsimp only [datsV]

/-! ## What the body finds -/

/-- The clipped inputs are fetched at every point: the buffer holds the block on the rows inside the array, `d` past them. -/
theorem before_0 (c : Dev nD) (t : Fin cfg0.N) (d) :
    (datsV m 0 c).before 0 t d = win0_0.fill (grid0.coords t) d (Gen.iblk m c 0 t) := by
  unfold Dat.before; rw [if_pos (Gen.fetch0_0 t)]; unfold Dat.fetched Dat.blockOf Gen.iblk; rw [A_eqV]
theorem before_2 (c : Dev nD) (t : Fin cfg0.N) (d) :
    (datsV m 0 c).before 2 t d = win0_2.fill (grid0.coords t) d (Gen.iblk m c 2 t) := by
  unfold Dat.before; rw [if_pos (Gen.fetch0_2 t)]; unfold Dat.fetched Dat.blockOf Gen.iblk; rw [A_eqV]
/-- The whole-array windows hold their arrays at every point. -/
theorem before_1 (c : Dev nD) (t : Fin cfg0.N) (d) : (datsV m 0 c).before 1 t d = Gen.iblk m c 1 t :=
  Gen.before0_1_of m (datsV m 0 c) (A_eqV m c 1) (after_1 m c) t d
theorem before_3 (c : Dev nD) (t : Fin cfg0.N) (d) : (datsV m 0 c).before 3 t d = Gen.iblk m c 3 t :=
  Gen.before0_3_of m (datsV m 0 c) (A_eqV m c 3) (after_3 m c) t d
theorem before_4 (c : Dev nD) (t : Fin cfg0.N) (d) : (datsV m 0 c).before 4 t d = Gen.iblk m c 4 t :=
  Gen.before0_4_of m (datsV m 0 c) (A_eqV m c 4) (after_4 m c) t d
theorem before_5 (c : Dev nD) (t : Fin cfg0.N) (d) : (datsV m 0 c).before 5 t d = Gen.iblk m c 5 t :=
  Gen.before0_5_of m (datsV m 0 c) (A_eqV m c 5) (after_5 m c) t d
theorem before_6 (c : Dev nD) (t : Fin cfg0.N) (d) : (datsV m 0 c).before 6 t d = Gen.iblk m c 6 t :=
  Gen.before0_6_of m (datsV m 0 c) (A_eqV m c 6) (after_6 m c) t d
theorem before_7 (c : Dev nD) (t : Fin cfg0.N) (d) : (datsV m 0 c).before 7 t d = Gen.iblk m c 7 t :=
  Gen.before0_7_of m (datsV m 0 c) (A_eqV m c 7) (after_7 m c) t d
/-- The result's buffer holds anything: every point writes it back. -/
theorem before_8 (c : Dev nD) (t : Fin cfg0.N) (d) : (datsV m 0 c).before 8 t d = d :=
  (datsV m 0 c).before_out_reset 8 rfl t
    (by
      by_cases h : t.val = 0
      · exact .inl h
      · exact .inr ⟨h, Gen.flush0_8 _⟩) d

/-! ## The staged blocks' rows are the arrays' rows -/

/-- The six windows that stage a whole array sit at block index 0 on both axes at every point. -/
theorem idx_whole : ∀ t : Fin cfg0.N,
    win0_1.index t (0 : Fin 2) = 0 ∧ win0_1.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The weights' window holds the whole laid-out weights. -/
theorem iblk_1 (c : Dev nD) (t : Fin cfg0.N) :
    (Gen.iblk m c 1 t : S8192x1024.Idx → EReal) = (Gen.V m c main_v32 : S8192x1024.Idx → EReal) := by
  obtain ⟨e10, e11, -⟩ := idx_whole t
  funext y
  show Gen.V m c main_v32 (((cfg0.win 1).blk t).view.emb y) = Gen.V m c main_v32 y
  refine congrArg _ (funext fun a => Fin.ext ?_)
  match a with
  | ⟨0, _⟩ => show win0_1.index t (0 : Fin 2) * 8192 + 1 * (y 0).val = (y 0).val; omega
  | ⟨1, _⟩ => show win0_1.index t (1 : Fin 2) * 1024 + 1 * (y 1).val = (y 1).val; omega
/-- The bias row's window holds the whole bias row. -/
theorem iblk_3 (c : Dev nD) (t : Fin cfg0.N) :
    (Gen.iblk m c 3 t : S1x1024.Idx → EReal) = (Gen.V m c main_v38 : S1x1024.Idx → EReal) := by
  obtain ⟨-, -, e0, e1, -⟩ := idx_whole t
  funext y
  show Gen.V m c main_v38 (((cfg0.win 3).blk t).view.emb y) = Gen.V m c main_v38 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 1024 + 1 * (y 1).val = (y 1).val; omega
/-- The root matrix's window holds the whole root matrix. -/
theorem iblk_4 (c : Dev nD) (t : Fin cfg0.N) :
    (Gen.iblk m c 4 t : S1024x1024.Idx → EReal) = (Gen.V m c main_v33 : S1024x1024.Idx → EReal) := by
  obtain ⟨-, -, -, -, e0, e1, -⟩ := idx_whole t
  funext y
  show Gen.V m c main_v33 (((cfg0.win 4).blk t).view.emb y) = Gen.V m c main_v33 y
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 1024 + 1 * (y 1).val = (y 1).val; omega
/-- The upper gate weights' window holds all of them. -/
theorem iblk_5 (c : Dev nD) (t : Fin cfg0.N) :
    (Gen.iblk m c 5 t : S1024x1024.Idx → EReal) = (Gen.V m c main_v35 : S1024x1024.Idx → EReal) := by
  obtain ⟨-, -, -, -, -, -, e0, e1, -⟩ := idx_whole t
  funext y
  show Gen.V m c main_v35 (((cfg0.win 5).blk t).view.emb y) = Gen.V m c main_v35 y
  refine congrArg _ (funext fun a => Fin.ext ?_)
  match a with
  | ⟨0, _⟩ => show win0_5.index t (0 : Fin 2) * 1024 + 1 * (y 0).val = (y 0).val; omega
  | ⟨1, _⟩ => show win0_5.index t (1 : Fin 2) * 1024 + 1 * (y 1).val = (y 1).val; omega
/-- The lower gate weights' window holds all of them. -/
theorem iblk_6 (c : Dev nD) (t : Fin cfg0.N) :
    (Gen.iblk m c 6 t : S1024x1024.Idx → EReal) = (Gen.V m c main_v37 : S1024x1024.Idx → EReal) := by
  obtain ⟨-, -, -, -, -, -, -, -, e0, e1, -⟩ := idx_whole t
  funext y
  show Gen.V m c main_v37 (((cfg0.win 6).blk t).view.emb y) = Gen.V m c main_v37 y
  refine congrArg _ (funext fun a => Fin.ext ?_)
  match a with
  | ⟨0, _⟩ => show win0_6.index t (0 : Fin 2) * 1024 + 1 * (y 0).val = (y 0).val; omega
  | ⟨1, _⟩ => show win0_6.index t (1 : Fin 2) * 1024 + 1 * (y 1).val = (y 1).val; omega
/-- The gate bias row's window holds the whole row. -/
theorem iblk_7 (c : Dev nD) (t : Fin cfg0.N) :
    (Gen.iblk m c 7 t : S1x1024.Idx → EReal) = (Gen.V m c main_v39 : S1x1024.Idx → EReal) := by
  obtain ⟨-, -, -, -, -, -, -, -, -, -, e0, e1⟩ := idx_whole t
  funext y
  show Gen.V m c main_v39 (((cfg0.win 7).blk t).view.emb y) = Gen.V m c main_v39 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 1024 + 1 * (y 1).val = (y 1).val; omega

/-- Row `p` of the means' staging block at point `t`, a row inside the array, is row `256·t + p` of the means,
    whatever fills the block past the array's end. -/
theorem agg_row (c : Dev nD) (t : Fin cfg0.N) (d : S256x8192.Idx → EReal) (p : Fin 256) (n : Fin 10000) (k : Fin 8192)
    (hp : p.val < win0_8.xsize (grid0.coords t) (0 : Fin 2)) (hn : n.val = t.val * 256 + p.val) :
    win0_0.fill (grid0.coords t) d (Gen.iblk m c 0 t) (ix2 p k) = Gen.V m c main_v30 (ix2 n k) := by
  obtain ⟨e00, e01, e20, e21, e80, e81, s0, s2, s01, s21, s81, s8⟩ := idx_facts t
  have hm : ∀ a, ((ix2 p k : S256x8192.Idx) a).val < win0_0.xsize (grid0.coords t) a := fun a => by
    match a with
    | ⟨0, _⟩ => show p.val < win0_0.xsize (grid0.coords t) (0 : Fin 2); omega
    | ⟨1, _⟩ => show k.val < win0_0.xsize (grid0.coords t) (1 : Fin 2); omega
  unfold Window.fill
  rw [dif_pos ((win0_0.moved_iff _ _).mpr hm)]
  show Gen.V m c main_v30 (((cfg0.win 0).blk t).view.emb _) = Gen.V m c main_v30 (ix2 n k)
  refine congrArg _ (funext fun a => Fin.ext ?_)
  match a with
  | ⟨0, _⟩ => show win0_0.index t (0 : Fin 2) * 256 + 1 * p.val = n.val; omega
  | ⟨1, _⟩ => show win0_0.index t (1 : Fin 2) * 8192 + 1 * k.val = k.val; omega

/-- Row `p` of `x`'s staging block at point `t`, a row inside the array, is row `256·t + p` of `x`. -/
theorem x_row (c : Dev nD) (t : Fin cfg0.N) (d : S256x1024.Idx → EReal) (p : Fin 256) (n : Fin 10000) (k : Fin 1024)
    (hp : p.val < win0_8.xsize (grid0.coords t) (0 : Fin 2)) (hn : n.val = t.val * 256 + p.val) :
    win0_2.fill (grid0.coords t) d (Gen.iblk m c 2 t) (ix2 p k) = Gen.V m c main_arg0 (ix2 n k) := by
  obtain ⟨e00, e01, e20, e21, e80, e81, s0, s2, s01, s21, s81, s8⟩ := idx_facts t
  have hm : ∀ a, ((ix2 p k : S256x1024.Idx) a).val < win0_2.xsize (grid0.coords t) a := fun a => by
    match a with
    | ⟨0, _⟩ => show p.val < win0_2.xsize (grid0.coords t) (0 : Fin 2); omega
    | ⟨1, _⟩ => show k.val < win0_2.xsize (grid0.coords t) (1 : Fin 2); omega
  unfold Window.fill
  rw [dif_pos ((win0_2.moved_iff _ _).mpr hm)]
  show Gen.V m c main_arg0 (((cfg0.win 2).blk t).view.emb _) = Gen.V m c main_arg0 (ix2 n k)
  refine congrArg _ (funext fun a => Fin.ext ?_)
  match a with
  | ⟨0, _⟩ => show win0_2.index t (0 : Fin 2) * 256 + 1 * p.val = n.val; omega
  | ⟨1, _⟩ => show win0_2.index t (1 : Fin 2) * 1024 + 1 * k.val = k.val; omega

/-- The stored value at row `p` (a row inside the array) and feature `q` of point `t`'s block is the result at row
    `256·t + p`: row `p` of the two staged blocks is that row of the arrays, and a row's value reads no other. -/
theorem stored_row (c : Dev nD) (t : Fin cfg0.N) (d0 : S256x8192.Idx → EReal) (d2 : S256x1024.Idx → EReal)
    (p : Fin 256) (q : Fin 1024) (n : Fin 10000)
    (hp : p.val < win0_8.xsize (grid0.coords t) (0 : Fin 2)) (hn : n.val = t.val * 256 + p.val) :
    Gen.k0_pay1 (F := Ideal) (win0_0.fill (grid0.coords t) d0 (Gen.iblk m c 0 t)) (Gen.iblk m c 1 t)
          (win0_2.fill (grid0.coords t) d2 (Gen.iblk m c 2 t)) (Gen.iblk m c 4 t) (Gen.iblk m c 3 t)
          (Gen.iblk m c 5 t) (Gen.iblk m c 6 t) (Gen.iblk m c 7 t) (ix2 p q)
      = rowsV m c (ix2 n q) := by
  unfold rowsV
  exact pay_row (win0_0.fill (grid0.coords t) d0 (Gen.iblk m c 0 t)) (Gen.iblk m c 1 t)
    (win0_2.fill (grid0.coords t) d2 (Gen.iblk m c 2 t)) (Gen.iblk m c 3 t) (Gen.iblk m c 4 t)
    (Gen.iblk m c 5 t) (Gen.iblk m c 6 t) (Gen.iblk m c 7 t)
    (Gen.V m c main_v30) (Gen.V m c main_v32) (Gen.V m c main_arg0) (Gen.V m c main_v38)
    (Gen.V m c main_v33) (Gen.V m c main_v35) (Gen.V m c main_v37) (Gen.V m c main_v39) p q n
    (iblk_1 m c t) (iblk_3 m c t) (iblk_4 m c t) (iblk_5 m c t) (iblk_6 m c t) (iblk_7 m c t)
    (fun k => agg_row m c t d0 p n k hp hn) (fun k => x_row m c t d2 p n k hp hn)

/-- WHAT THE BODY STORES, on the rows the write-back moves, is the block of `rowsV`: whatever fills the two clipped
    inputs' staging rows past the arrays' end (`d0`, `d2`). -/
theorem cut_pay (c : Dev nD) (t : Fin cfg0.N) (d0 : S256x8192.Idx → EReal) (d2 : S256x1024.Idx → EReal) :
    win0_8.cut (grid0.coords t)
        (Gen.k0_pay1 (F := Ideal) (win0_0.fill (grid0.coords t) d0 (Gen.iblk m c 0 t)) (Gen.iblk m c 1 t)
          (win0_2.fill (grid0.coords t) d2 (Gen.iblk m c 2 t)) (Gen.iblk m c 4 t) (Gen.iblk m c 3 t)
          (Gen.iblk m c 5 t) (Gen.iblk m c 6 t) (Gen.iblk m c 7 t))
      = (win0_8.blk t).view.read (Elt Ideal) (rowsV m c) := by
  obtain ⟨e00, e01, e20, e21, e80, e81, s0, s2, s01, s21, s81, s8⟩ := idx_facts t
  funext j
  have hj0 : (j 0).val < win0_8.xsize (grid0.coords t) (0 : Fin 2) := (j 0).isLt
  have hj1 : (j 1).val < win0_8.xsize (grid0.coords t) (1 : Fin 2) := (j 1).isLt
  have ht : t.val < 40 := t.isLt
  obtain ⟨p, hp⟩ : ∃ p : Fin 256, p.val = (j 0).val := ⟨⟨(j 0).val, by omega⟩, rfl⟩
  obtain ⟨q, hq⟩ : ∃ q : Fin 1024, q.val = (j 1).val := ⟨⟨(j 1).val, by omega⟩, rfl⟩
  obtain ⟨n, hn⟩ : ∃ n : Fin 10000, n.val = t.val * 256 + p.val := ⟨⟨t.val * 256 + p.val, by omega⟩, rfl⟩
  have hx : win0_8.xinj (grid0.coords t) j = ix2 p q := funext fun a => Fin.ext (by
    match a with
    | ⟨0, _⟩ => exact hp.symm
    | ⟨1, _⟩ => exact hq.symm)
  have he : (win0_8.blk t).view.emb j = ix2 n q := funext fun a => Fin.ext (by
    match a with
    | ⟨0, _⟩ => show win0_8.index t (0 : Fin 2) * 256 + 1 * (j 0).val = n.val; omega
    | ⟨1, _⟩ => show win0_8.index t (1 : Fin 2) * 1024 + 1 * (j 1).val = q.val; omega)
  show Gen.k0_pay1 (F := Ideal) _ _ _ _ _ _ _ _ (win0_8.xinj (grid0.coords t) j) = rowsV m c ((win0_8.blk t).view.emb j)
  rw [hx, he]
  exact stored_row m c t d0 d2 p q n (by omega) hn

/-! ## The body's obligation -/

/-- What the body stores at point `t` when the clipped inputs' staging rows past the arrays' end hold `d0`, `d2`. -/
def stored (c : Dev nD) (t : Fin cfg0.N) (d0 : S256x8192.Idx → EReal) (d2 : S256x1024.Idx → EReal) : S256x1024.Idx → EReal :=
  Gen.k0_pay1 (F := Ideal) (win0_0.fill (grid0.coords t) d0 (Gen.iblk m c 0 t)) (Gen.iblk m c 1 t)
    (win0_2.fill (grid0.coords t) d2 (Gen.iblk m c 2 t)) (Gen.iblk m c 4 t) (Gen.iblk m c 3 t)
    (Gen.iblk m c 5 t) (Gen.iblk m c 6 t) (Gen.iblk m c 7 t)

/-- The means' buffer, handed back as found, is the filled block on the rows inside the array. -/
theorem kept_0 (c : Dev nD) (t : Fin cfg0.N) (d0 : S256x8192.Idx → EReal) :
    win0_0.fill (grid0.coords t) d0 (win0_0.cut (grid0.coords t) (agg256 m c t)) = win0_0.fill (grid0.coords t) d0 (Gen.iblk m c 0 t) := by
  unfold agg256; rw [win0_0.cut_fill]
/-- `x`'s buffer likewise. -/
theorem kept_2 (c : Dev nD) (t : Fin cfg0.N) (d2 : S256x1024.Idx → EReal) :
    win0_2.fill (grid0.coords t) d2 (win0_2.cut (grid0.coords t) (x256 m c t)) = win0_2.fill (grid0.coords t) d2 (Gen.iblk m c 2 t) := by
  unfold x256; rw [win0_2.cut_fill]
/-- The result's buffer: what the body stored agrees with the block of `rowsV` on the rows inside the array. -/
theorem kept_8 (c : Dev nD) (t : Fin cfg0.N) (d0 : S256x8192.Idx → EReal) (d2 : S256x1024.Idx → EReal) :
    win0_8.fill (grid0.coords t) (stored m c t d0 d2) (win0_8.cut (grid0.coords t) (out256 m c t)) = stored m c t d0 d2 := by
  refine win0_8.fill_congr_cut (grid0.coords t) ?_
  unfold out256 stored
  rw [win0_8.cut_fill]
  exact cut_pay m c t d0 d2

/-- The obligation on the body at every point, from the body's triple at the point's staging buffers: the clipped inputs arrive
    holding their blocks filled out with anything past the arrays' end, the whole-array windows their arrays, the
    result's buffer anything; the inputs leave as they came and the result's buffer holds the stored block, which on
    the rows inside the array is the block of `rowsV`. -/
theorem body_obligationV (c : Dev nD) : BodyObligationLoose (datsV m 0 c) (defs₀ (F := Ideal)) Variants.none () Set.univ := fun t => by
  rw [Gen.bigSep_W0, Gen.bigSep_W0]
  simp only
  rw [show (datsV m 0 c).Φ t.succ = (datsV m 0 c).Φ t.castSucc from rfl,
    show (datsV m 0 c).owesAt () t.succ = (datsV m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0 m c t d0, before_1 m c t d1, before_2 m c t d2, before_3 m c t d3, before_4 m c t d4, before_5 m c t d5,
    before_6 m c t d6, before_7 m c t d7, before_8 m c t d8]
  iapply (sound_body (F := Ideal) c Set.univ (grid0.coords t) (cfg0.slots t 0) (cfg0.slots t 1) (cfg0.slots t 2) (cfg0.slots t 3)
    (cfg0.slots t 4) (cfg0.slots t 5) (cfg0.slots t 6) (cfg0.slots t 7) (cfg0.slots t 8)
    (win0_0.fill (grid0.coords t) d0 (Gen.iblk m c 0 t)) (Gen.iblk m c 1 t) (win0_2.fill (grid0.coords t) d2 (Gen.iblk m c 2 t))
    (Gen.iblk m c 3 t) (Gen.iblk m c 4 t) (Gen.iblk m c 5 t) (Gen.iblk m c 6 t) (Gen.iblk m c 7 t) d8 _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨H0, H1, H2, H3, H4, H5, H6, H7, H8⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0 (win0_0.cut (grid0.coords t) (agg256 m c t)))
    rw [kept_0]
  isplitl [H1]; · iexact H1
  isplitl [H2]
  · iexists d2
    change _ ⊢ owns (c : Thread nD τ) (stage0_2 (cfg0.slots t 2)) fullShare (win0_2.fill (grid0.coords t) d2 (win0_2.cut (grid0.coords t) (x256 m c t)))
    rw [kept_2]
  isplitl [H3]; · iexact H3
  isplitl [H4]; · iexact H4
  isplitl [H5]; · iexact H5
  isplitl [H6]; · iexact H6
  isplitl [H7]; · iexact H7
  · iexists stored m c t d0 d2
    change _ ⊢ owns (c : Thread nD τ) (stage0_8 (cfg0.slots t 8)) fullShare (win0_8.fill (grid0.coords t) (stored m c t d0 d2) (win0_8.cut (grid0.coords t) (out256 m c t)))
    rw [kept_8]; exact .rfl

/-! ## The run -/

set_option backward.isDefEq.respectTransparency.types false in
/-- Every weakly fair execution of the program terminates with every array of the call at what the proof data
    compute and every other array as the call found it. -/
theorem run_main (ρ : Dev nD → PrngReg) :
    θ_run defs (onTc (τ := τ) (main (F := Ideal))) (s₀ m ρ) (Pipeline.FramePost cfgs (datsV m) 0 (Gen.V m)) :=
  Pipeline.θ_run_frame cfgs (datsV m) (0 : Fin 1) Gen.launch0 defs₀ Variants.none m ρ main
    (hbody := body_obligationV m) (hshare := fun c => (datsV m 0 c).share_full fun _ => rfl)
    (howed := fun _ _ => rfl) (V := Gen.V m) (hmain := Gen.hmain m Variants.none) (hA := A_eqV m) (hΦ := fun _ _ => rfl)

/-! ## From the blocks to the array -/

/-- What point `t` writes back is block `t` of `rowsV`. -/
theorem flushed_eq (c : Dev nD) (t : Fin cfg0.N) :
    (datsV m 0 c).flushed 8 t = ((cfg0.win 8).blk t).view.read (Elt Ideal) (rowsV m c) := by
  show (cfg0.win 8).cut (grid0.coords t) ((datsV m 0 c).after 8 t) = _
  rw [after_8]
  unfold out256
  exact win0_8.cut_fill _ _ _

/-- An index of the result array is in point `t`'s block iff each coordinate is in the block's range, cut at the
    array's end, on its axis. -/
theorem mem_blk (t : Fin cfg0.N) (i : S10000x1024.Idx) :
    i ∈ ((cfg0.win 8).blk t).view.set ↔ ∀ a : Fin 2, win0_8.index t a * S256x1024.size a ≤ (i a).val ∧ (i a).val < win0_8.index t a * S256x1024.size a + win0_8.xsize (grid0.coords t) a := by
  show i ∈ ((View.whole main_v40).slice (win0_8.rect t)).set ↔ _
  rw [View.set_slice_whole, Rect.mem_set_unit]
  exact Iff.rfl

/-- Row `r` lies in the block of point `r / 256`: the 40 blocks, the last cut to 16 rows, are all the rows. -/
theorem covered (i : S10000x1024.Idx) :
    ∃ t : Fin cfg0.N, (cfg0.win 8).flush t = true ∧ i ∈ ((cfg0.win 8).blk t).view.set := by
  have hi0 : (i 0).val < 10000 := (i 0).isLt
  have hi1 : (i 1).val < 1024 := (i 1).isLt
  obtain ⟨t, ht⟩ : ∃ t : Fin cfg0.N, t.val = (i 0).val / 256 := ⟨⟨(i 0).val / 256, by show (i 0).val / 256 < 40; omega⟩, rfl⟩
  obtain ⟨e00, e01, e20, e21, e80, e81, s0, s2, s01, s21, s81, s8⟩ := idx_facts t
  refine ⟨t, Gen.flush0_8 t, ?_⟩
  rw [mem_blk]
  intro a
  match a with
  | ⟨0, _⟩ => show win0_8.index t (0 : Fin 2) * 256 ≤ (i 0).val ∧ (i 0).val < win0_8.index t (0 : Fin 2) * 256 + win0_8.xsize (grid0.coords t) (0 : Fin 2); omega
  | ⟨1, _⟩ => show win0_8.index t (1 : Fin 2) * 1024 ≤ (i 1).val ∧ (i 1).val < win0_8.index t (1 : Fin 2) * 1024 + win0_8.xsize (grid0.coords t) (1 : Fin 2); omega

/-- The result array after the run is `rowsV`. -/
theorem final (c : Dev nD) : (datsV m 0 c).arrAt 8 cfg0.N = rowsV m c :=
  (datsV m 0 c).arrAt_eq_of_cover 8 (rowsV m c) (fun t _ => flushed_eq m c t) covered

/-- THE RUN, READ: the result array holds the fused form of the arrays the call finds, and the eight argument
    arrays hold what they held. -/
theorem run_rows (ρ : Dev nD → PrngReg) :
    θ_run defs (onTc (τ := τ) (main (F := Ideal))) ⟨m, fun _ => 0, ρ⟩ (fun r => ∀ c : Dev nD,
      r.2.mem ((c.tc : Thread nD τ).loc main_v40) = Cert.Spec.rowsOut 1 (Gen.V m c main_v30) (Gen.V m c main_v32) (Gen.V m c main_arg0) (Gen.V m c main_v38) (Gen.V m c main_v33) (Gen.V m c main_v35) (Gen.V m c main_v37) (Gen.V m c main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final m c),
      ((h c).1 2).trans (((datsV m 0 c).arrAt_in 2 rfl _).trans ((A_eqV m c 2).trans (Gen.V_main_arg0 m c))),
      ((h c).2 main_arg1 (Pipeline.mem_restRefs_of main_arg1 (by decide) (by decide))).trans (Gen.V_main_arg1 m c),
      ((h c).2 main_arg2 (Pipeline.mem_restRefs_of main_arg2 (by decide) (by decide))).trans (Gen.V_main_arg2 m c),
      ((h c).2 main_arg3 (Pipeline.mem_restRefs_of main_arg3 (by decide) (by decide))).trans (Gen.V_main_arg3 m c),
      ((h c).2 main_arg4 (Pipeline.mem_restRefs_of main_arg4 (by decide) (by decide))).trans (Gen.V_main_arg4 m c),
      ((h c).2 main_arg5 (Pipeline.mem_restRefs_of main_arg5 (by decide) (by decide))).trans (Gen.V_main_arg5 m c),
      ((h c).2 main_arg6 (Pipeline.mem_restRefs_of main_arg6 (by decide) (by decide))).trans (Gen.V_main_arg6 m c),
      ((h c).2 main_arg7 (Pipeline.mem_restRefs_of main_arg7 (by decide) (by decide))).trans (Gen.V_main_arg7 m c)⟩)
    (run_main m ρ)

end Cert.KernelIdeal.Hand

end
-- ==== Proof.KHost.lean ====
/-
  The means buffer of the fused program, entry by entry.

  Before its one region the program forms, for every node n and relation r, the MEAN MESSAGE of r into n, and lays the
  80000 = 10000 × 8 means out as a 10000 × 8192 matrix: entry (n, r·1024 + d) is feature d of the mean of relation r
  into node n. It does so with ONE accumulating scatter: every edge e carries its gathered source row with a trailing 1,
  and adds it into row key(e) = dst(e)·8 + type(e) of an 80000 × 1025 array of zeros. Row k then holds, in its first
  1024 columns, the sum of the source rows of the edges whose key is k, and in its last column their number. The mean is
  the sum times the reciprocal of the larger of that number and one.

  Read at an index: the reshape sends (n, r·1024 + d) to row n·8 + r, column d (both are position n·8192 + r·1024 + d in
  row-major order); the scatter's value at (k, d') is the sum, over the update elements (e, c) that land on (k, d'), of the
  element — and (e, c) lands on (k, d') exactly when the key of e, read as a signed integer, is k and c = d'. With
  destinations below 10000 and types below 8 the 32-bit key does not wrap, so its value is n·8 + r exactly when the
  destination is n and the type is r: the edges summed are the specification's. A sum of ones over them is their number,
  and the quotient of one by a nonzero real is the product with its reciprocal.
-/
import proofs.«403554_j21449066676409_3_alg».proof.Proof.Gen.KernelIdeal.Frame
import proofs.«403554_j21449066676409_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import proofs.«403554_j21449066676409_3_alg».proof.Proof.SpecLaws

noncomputable section

namespace Cert.KernelIdeal.Hand

open Idealize.ShloMosaic Idealize.ShloMosaic.TcCoe Idealize.ShloMosaic.ValueIdx
open Cert.KernelIdeal Cert.KernelIdeal.Facts₀

/-- the gathered source rows, as a function of x and the edge list: the term the host chain computes into main_v10 -/
def msgsK (x : FVec Ideal S10000x1024 .f32) (ei : IVec S2x80000 32) : FVec Ideal S80000x1024 .f32 :=
  let src : IVec S80000 32 := shapeCast S80000 (extractStridedSlice S1x80000 ![0, 0] ei slices_S2x80000_S1x80000_0_0) shapeCasts_S1x80000_S80000
  Host.gather gather_S10000x1024_S80000x1_S80000x1024_1_0_n_n_0_1_11024 x (broadcastInDim S80000x1 ![0] bcast_S80000_S80000x1_0 (select (cmpi .slt src (broadcastInDim S80000 ![] bcast_S_S80000 (constantI S_ 32 0#32))) (addi src (broadcastInDim S80000 ![] bcast_S_S80000 (constantI S_ 32 10000#32))) src))

/-- the scatter key of each edge: destination times 8 plus relation type, in wrapping 32-bit arithmetic -/
def keyK (ei : IVec S2x80000 32) (et : IVec S80000 32) : IVec S80000 32 :=
  addi (muli (shapeCast S80000 (extractStridedSlice S1x80000 ![1, 0] ei slices_S2x80000_S1x80000_1_0) shapeCasts_S1x80000_S80000)
          (broadcastInDim S80000 ![] bcast_S_S80000 (constantI S_ 32 8#32))) et

/-- each message row with a trailing 1 (the column that counts) -/
def augK (msgs : FVec Ideal S80000x1024 .f32) : FVec Ideal S80000x1025 .f32 :=
  concatenate S80000x1025 1 [⟨S80000x1024, msgs⟩,
    ⟨S80000x1, broadcastInDim S80000x1 ![] bcast_S_S80000x1 (constant (F := Ideal) S_ .f32 0x3F800000#32)⟩]
    concatenates_S80000x1024_S80000x1_S80000x1025_d1

/-- row k: the sum of the augmented rows of the edges whose key is k -/
def scatK (msgs : FVec Ideal S80000x1024 .f32) (key : IVec S80000 32) : FVec Ideal S80000x1025 .f32 :=
  Host.scatterAdd scatter_S80000x1025_S80000x1_S80000x1025_1_0_0_1
    (broadcastInDim S80000x1025 ![] bcast_S_S80000x1025 (constant (F := Ideal) S_ .f32 0x00000000#32))
    (broadcastInDim S80000x1 ![0] bcast_S80000_S80000x1_0 key) (augK msgs)

/-- the means: sums times the reciprocal of max(count, 1), laid out one row per node -/
def aggK (msgs : FVec Ideal S80000x1024 .f32) (key : IVec S80000 32) : FVec Ideal S10000x8192 .bf16 :=
  shapeCast S10000x8192
    (truncf .bf16
      (mulf (extractStridedSlice S80000x1024 ![0, 0] (scatK msgs key) slices_S80000x1025_S80000x1024_0_0)
        (broadcastInDim S80000x1024 ![0, 1] bcast_S80000x1_S80000x1024_0_1
          (broadcastInDim S80000x1 ![0] bcast_S80000_S80000x1_0
            (Host.divf (broadcastInDim S80000 ![] bcast_S_S80000 (constant (F := Ideal) S_ .f32 0x3F800000#32))
              (maximumf (shapeCast S80000 (extractStridedSlice S80000x1 ![0, 1024] (scatK msgs key) slices_S80000x1025_S80000x1_0_1024) shapeCasts_S80000x1_S80000)
                (broadcastInDim S80000 ![] bcast_S_S80000 (constant (F := Ideal) S_ .f32 0x3F800000#32)))))))
      bitsLt_bf16_f32)
    shapeCasts_S80000x1024_S10000x8192

/-- the scatter's dimension numbers: the row is the key, the columns are a window -/
abbrev DS : ScatterDims S80000x1025 S80000x1 S80000x1025 := scatter_S80000x1025_S80000x1_S80000x1025_1_0_0_1

/-- on the row axis an update element starts at its edge's key, read signed -/
theorem start0 (idx : IVec S80000x1 32) (e : Fin 80000) (col : Fin 1025) :
    DS.start (ix2 e col) idx (0 : Fin 2) = (idx (ix2 e (0 : Fin 1))).toInt := by
  unfold ScatterDims.start
  rw [dif_pos (show (0 : Fin 2) ∈ DS.scatterDimsToOperandDims from List.mem_singleton.mpr rfl)]
  have hsi : DS.siIdx (ix2 e col) ⟨List.idxOf (0 : Fin 2) DS.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- on the column axis it starts at 0 -/
theorem start1 (idx : IVec S80000x1 32) (j : S80000x1025.Idx) :
    DS.start j idx (1 : Fin 2) = 0 := by
  unfold ScatterDims.start
  rw [dif_neg (show ¬ (1 : Fin 2) ∈ DS.scatterDimsToOperandDims by decide)]

/-- the window has no extent along the rows -/
theorem window0 (j : S80000x1025.Idx) : DS.window j (0 : Fin 2) = 0 := by
  unfold ScatterDims.window
  rw [dif_neg (show ¬ (0 : Fin 2) ∈ DS.sKept by decide)]

/-- the window coordinate along the columns is the update element's column -/
theorem window1 (e : Fin 80000) (col : Fin 1025) : DS.window (ix2 e col) (1 : Fin 2) = col.val := by
  unfold ScatterDims.window
  rw [dif_pos (show (1 : Fin 2) ∈ DS.sKept by decide)]
  rfl

/-- update element (e, col) lands on (k, d') exactly when edge e's key is k and col is d' -/
theorem resultIdx_iff (idx : IVec S80000x1 32) (e : Fin 80000) (col : Fin 1025) (k : Fin 80000) (d' : Fin 1025) :
    DS.resultIdx? (ix2 e col) idx = some (ix2 k d') ↔ (idx (ix2 e (0 : Fin 1))).toInt = (k.val : ℤ) ∧ col = d' := by
  have hs0 := start0 idx e col
  have hs1 := start1 idx (ix2 e col)
  have hw0 := window0 (ix2 e col)
  have hw1 := window1 e col
  have hc := col.isLt
  have hk := k.isLt
  unfold ScatterDims.resultIdx?
  split
  · next h =>
    rw [Option.some.injEq]
    constructor
    · intro heq
      have h0 : (DS.start (ix2 e col) idx (0 : Fin 2) + (DS.window (ix2 e col) (0 : Fin 2) : ℤ)).toNat = k.val := congrArg (fun f => (f (0 : Fin 2)).val) heq
      have h1 : (DS.start (ix2 e col) idx (1 : Fin 2) + (DS.window (ix2 e col) (1 : Fin 2) : ℤ)).toNat = d'.val := congrArg (fun f => (f (1 : Fin 2)).val) heq
      have hb := (h (0 : Fin 2)).1
      rw [hs0, hw0] at h0 hb
      rw [hs1, hw1] at h1
      refine ⟨by omega, Fin.ext (by omega)⟩
    · rintro ⟨hkey, hcol⟩
      funext a
      refine Fin.ext ?_
      match a with
      | ⟨0, _⟩ =>
        show (DS.start (ix2 e col) idx (0 : Fin 2) + (DS.window (ix2 e col) (0 : Fin 2) : ℤ)).toNat = k.val
        rw [hs0, hw0]; omega
      | ⟨1, _⟩ =>
        show (DS.start (ix2 e col) idx (1 : Fin 2) + (DS.window (ix2 e col) (1 : Fin 2) : ℤ)).toNat = d'.val
        rw [hs1, hw1, ← hcol]; omega
  · next h =>
    constructor
    · intro heq; exact absurd heq (by simp)
    · rintro ⟨hkey, hcol⟩
      exfalso; apply h
      intro a
      match a with
      | ⟨0, _⟩ =>
        show 0 ≤ DS.start (ix2 e col) idx (0 : Fin 2) + (DS.window (ix2 e col) (0 : Fin 2) : ℤ) ∧ DS.start (ix2 e col) idx (0 : Fin 2) + (DS.window (ix2 e col) (0 : Fin 2) : ℤ) < ((80000 : ℕ) : ℤ)
        rw [hs0, hw0]; omega
      | ⟨1, _⟩ =>
        show 0 ≤ DS.start (ix2 e col) idx (1 : Fin 2) + (DS.window (ix2 e col) (1 : Fin 2) : ℤ) ∧ DS.start (ix2 e col) idx (1 : Fin 2) + (DS.window (ix2 e col) (1 : Fin 2) : ℤ) < ((1025 : ℕ) : ℤ)
        rw [hs1, hw1]; omega

/-- the sum over the update elements that land on (k, d') is the sum over the edges of key k of column d' -/
theorem scat_sum (upd : S80000x1025.Idx → EReal) (idx : IVec S80000x1 32) (k : Fin 80000) (d' : Fin 1025)
    [DecidablePred fun j : S80000x1025.Idx => DS.resultIdx? j idx = some (ix2 k d')] :
    (∑ j ∈ Finset.univ.filter (fun j => DS.resultIdx? j idx = some (ix2 k d')), upd j)
      = ∑ e ∈ Finset.univ.filter (fun e : Fin 80000 => (idx (ix2 e (0 : Fin 1))).toInt = (k.val : ℤ)), upd (ix2 e d') := by
  refine Finset.sum_nbij' (fun (j : S80000x1025.Idx) => (j 0 : Fin 80000)) (fun e => ix2 e d') ?_ ?_ ?_ ?_ ?_
  · intro j hj
    obtain ⟨e, col, rfl⟩ : ∃ (e : Fin 80000) (col : Fin 1025), j = ix2 e col := ⟨j 0, j 1, eq_ix2 j⟩
    rw [Finset.mem_filter] at hj
    exact Finset.mem_filter.2 ⟨Finset.mem_univ _, ((resultIdx_iff idx e col k d').1 hj.2).1⟩
  · intro e he
    rw [Finset.mem_filter] at he
    exact Finset.mem_filter.2 ⟨Finset.mem_univ _, (resultIdx_iff idx e d' k d').2 ⟨he.2, rfl⟩⟩
  · intro j hj
    obtain ⟨e, col, rfl⟩ : ∃ (e : Fin 80000) (col : Fin 1025), j = ix2 e col := ⟨j 0, j 1, eq_ix2 j⟩
    rw [Finset.mem_filter] at hj
    have := ((resultIdx_iff idx e col k d').1 hj.2).2
    rw [← this]
  · intro e he; rfl
  · intro j hj
    obtain ⟨e, col, rfl⟩ : ∃ (e : Fin 80000) (col : Fin 1025), j = ix2 e col := ⟨j 0, j 1, eq_ix2 j⟩
    rw [Finset.mem_filter] at hj
    have := ((resultIdx_iff idx e col k d').1 hj.2).2
    rw [← this]

/-- the word 0x3F800000 is the number one -/
theorem ones_entry_f32 : Ideal.ofBits .f32 0x3F800000#32 = (1 : EReal) := by
  simp [Ideal.ofBits, Ideal.ieee, -EReal.coe_mul]; norm_num

/-- a splat constant broadcast along the edges reads its word's value everywhere -/
theorem bcast_const (b : BitVec 32) (i : S80000.Idx) :
    broadcastInDim S80000 ![] bcast_S_S80000 (constant (F := Ideal) S_ .f32 b) i = Ideal.ofBits .f32 b := rfl

theorem bcast_const_x1 (b : BitVec 32) (i : S80000x1.Idx) :
    broadcastInDim S80000x1 ![] bcast_S_S80000x1 (constant (F := Ideal) S_ .f32 b) i = Ideal.ofBits .f32 b := rfl

/-- a host quotient by a maximum, read at an index -/
theorem divf_max_apply {s : Shape} (a b c : FVec Ideal s .f32) (i : s.Idx) :
    Host.divf a (maximumf b c) i = Ideal.div (a i) (max (b i) (c i)) := rfl

/-- a feature column of the augmented rows is the message's -/
theorem augK_msg (msgs : FVec Ideal S80000x1024 .f32) (e : Fin 80000) (d : Fin 1024) :
    augK msgs (ix2 e (⟨d.val, Nat.lt_trans d.isLt (by decide)⟩ : Fin 1025)) = msgs (ix2 e d) := by
  unfold augK
  exact concatenate_pair_apply_left (1 : Fin 2) msgs _ _ (ix2 e (⟨d.val, Nat.lt_trans d.isLt (by decide)⟩ : Fin 1025)) rfl (ix2 e d)
    (fun b => match b with | ⟨0, _⟩ => rfl | ⟨1, _⟩ => rfl)

/-- the last column of the augmented rows is one -/
theorem augK_one (msgs : FVec Ideal S80000x1024 .f32) (e : Fin 80000) :
    augK msgs (ix2 e (⟨1024, by decide⟩ : Fin 1025)) = (1 : EReal) := by
  unfold augK
  refine (concatenate_pair_apply_right (s₁ := S80000x1024) (s₂ := S80000x1) (t := S80000x1025) (1 : Fin 2) msgs _ _ (ix2 e (⟨1024, by decide⟩ : Fin 1025)) rfl rfl (ix2 e (0 : Fin 1)) ?_ ?_).trans ?_
  · intro b hb
    match b with
    | ⟨0, _⟩ => rfl
    | ⟨1, _⟩ => exact absurd rfl hb
  · rfl
  · exact (bcast_const_x1 _ _).trans ones_entry_f32

/-- row k, column d' of the scatter: the sum over the edges whose key reads k of that column of their augmented rows -/
theorem scatK_apply (msgs : FVec Ideal S80000x1024 .f32) (key : IVec S80000 32) (k : Fin 80000) (d' : Fin 1025) :
    scatK msgs key (ix2 k d')
      = ∑ e ∈ Finset.univ.filter (fun e : Fin 80000 => (key (ix1 e)).toInt = (k.val : ℤ)), augK msgs (ix2 e d') := by
  unfold scatK
  show Ideal.hostScatterAdd DS _ _ _ (ix2 k d') = _
  unfold Ideal.hostScatterAdd
  rw [scat_sum]
  show Ideal.ofBits .f32 0x00000000#32 + _ = _
  rw [Ideal.ofBits_zero_f32, zero_add]
  refine Finset.sum_congr (Finset.filter_congr (fun e _ => ?_)) (fun _ _ => rfl)
  rw [broadcastInDim_apply _ _ key (ix2 e (0 : Fin 1)) (ix1 e) (fun a => match a with | ⟨0, _⟩ => rfl)]

/-- entry (n, r·1024 + d) of the laid-out means: row n·8 + r of the scatter, column d, times the reciprocal of the
    larger of the count column and one -/
theorem aggK_apply (msgs : FVec Ideal S80000x1024 .f32) (key : IVec S80000 32) (n : Fin 10000) (r : Fin 8) (d : Fin 1024)
    (row : Fin 80000) (hrow : row.val = n.val * 8 + r.val) :
    aggK msgs key (ix2 n (Cert.Spec.aggCol r d))
      = scatK msgs key (ix2 row (⟨d.val, Nat.lt_trans d.isLt (by decide)⟩ : Fin 1025))
        * Ideal.div (Ideal.ofBits .f32 0x3F800000#32)
            (max (scatK msgs key (ix2 row (⟨1024, by decide⟩ : Fin 1025))) (Ideal.ofBits .f32 0x3F800000#32)) := by
  have hcnt : shapeCast S80000 (extractStridedSlice S80000x1 ![0, 1024] (scatK msgs key) slices_S80000x1025_S80000x1_0_1024) shapeCasts_S80000x1_S80000 (ix1 row)
      = scatK msgs key (ix2 row (⟨1024, by decide⟩ : Fin 1025)) :=
    (shapeCast_apply _ _ (ix1 row) (ix2 row (0 : Fin 1)) (by
      rw [Shape.rowMajor_val_two, Shape.rowMajor_val_one]
      show row.val * 1 + 0 = row.val
      omega)).trans (slice2_axis1_apply 1024 _ _ row (0 : Fin 1) (⟨1024, by decide⟩ : Fin 1025) rfl)
  unfold aggK
  refine (shapeCast_apply _ _ _ (ix2 row d) ?_).trans ?_
  · rw [Shape.rowMajor_val_two, Shape.rowMajor_val_two]
    have hd := d.isLt
    have hr := r.isLt
    show row.val * 1024 + d.val = n.val * 8192 + (r.val * 1024 + d.val)
    omega
  rw [truncf_apply, mulf_apply]
  refine congrArg₂ (· * ·) ?_ ?_
  · exact slice2_axis1_apply 0 _ _ row d (⟨d.val, Nat.lt_trans d.isLt (by decide)⟩ : Fin 1025) (Nat.zero_add _).symm
  · refine (broadcastInDim_apply _ _ _ (ix2 row d) (ix2 row (0 : Fin 1)) (fun a => match a with | ⟨0, _⟩ => rfl | ⟨1, _⟩ => rfl)).trans ?_
    refine (broadcastInDim_apply _ _ _ (ix2 row (0 : Fin 1)) (ix1 row) (fun a => match a with | ⟨0, _⟩ => rfl)).trans ?_
    rw [divf_max_apply, bcast_const, hcnt]

/-- the key of edge e: its destination times 8 plus its relation type, as 32-bit words -/
theorem keyK_apply (ei : IVec S2x80000 32) (et : IVec S80000 32) (e : Fin 80000) :
    keyK ei et (ix1 e) = ei (ix2 (1 : Fin 2) e) * 8#32 + et (ix1 e) := by
  have h : shapeCast S80000 (extractStridedSlice S1x80000 ![1, 0] ei slices_S2x80000_S1x80000_1_0) shapeCasts_S1x80000_S80000 (ix1 e)
      = ei (ix2 (1 : Fin 2) e) :=
    (shapeCast_1a_a_apply _ _ e).trans (slice2_axis0_apply 1 ei _ (0 : Fin 1) e (1 : Fin 2) rfl)
  exact congrArg (fun v : BitVec 32 => v * 8#32 + et (ix1 e)) h

/-- under the range hypothesis the mean buffer's entry is the specification's mean message -/
theorem agg_mean (msgs : FVec Ideal S80000x1024 .f32) (ei : IVec S2x80000 32) (et : IVec S80000 32)
    (hR : Cert.Spec.Ranges ei et) (n : Fin 10000) (r : Fin 8) (d : Fin 1024) :
    aggK msgs (keyK ei et) (ix2 n (Cert.Spec.aggCol r d))
      = Cert.Spec.relMean msgs (Cert.Spec.dstOf ei) (Cert.Spec.etOf et) n r d := by
  have hn := n.isLt
  have hr := r.isLt
  have hrow : n.val * 8 + r.val < 80000 := by omega
  rw [aggK_apply msgs _ n r d ⟨n.val * 8 + r.val, hrow⟩ rfl, scatK_apply, scatK_apply]
  have hf : Finset.univ.filter (fun e : Fin 80000 => (keyK ei et (ix1 e)).toInt = (((⟨n.val * 8 + r.val, hrow⟩ : Fin 80000).val : ℕ) : ℤ))
      = Cert.Spec.edges (Cert.Spec.dstOf ei) (Cert.Spec.etOf et) n r := by
    unfold Cert.Spec.edges
    refine Finset.filter_congr (fun e _ => ?_)
    rw [keyK_apply]
    have := Cert.Spec.key_iff (ei (ix2 (1 : Fin 2) e)) (et (ix1 e)) (hR e).1 (hR e).2 n r
    show _ = ((n.val * 8 + r.val : ℕ) : ℤ) ↔ _
    rw [Nat.cast_add, Nat.cast_mul]
    exact this
  rw [hf]
  rw [Finset.sum_congr rfl (fun e _ => augK_msg msgs e d), Finset.sum_congr rfl (fun e _ => augK_one msgs e)]
  rw [ones_entry_f32, Cert.Spec.sum_ones_card, Cert.Spec.max_card_one,
    Ideal.div_coe (ne_of_gt (lt_of_lt_of_le one_pos (le_max_right _ _))), one_mul]
  rfl

variable (m : (ℓ : Loc nD τ sig) → Buf (Elt Ideal) ℓ)

/-- what the host operations leave in the means buffer, as a term of the three arguments it depends on -/
theorem V_term (c : Dev nD) :
    (Gen.V m c main_v30 : S10000x8192.Idx → EReal)
      = aggK (msgsK (m ((c.tc : Thread nD τ).loc main_arg0)) (m ((c.tc : Thread nD τ).loc main_arg1)))
          (keyK (m ((c.tc : Thread nD τ).loc main_arg1)) (m ((c.tc : Thread nD τ).loc main_arg2))) := by
  dsimp only [Gen.V, Gen.hostOps0]
  after_results_simp
  rfl

theorem V_agg (c : Dev nD) (hR : Cert.Spec.Ranges (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (n : Fin 10000) (r : Fin 8) (d : Fin 1024) :
    Gen.V m c main_v30 (ix2 n (Cert.Spec.aggCol r d)) = Cert.Spec.relMean (msgsK (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.Spec.dstOf (m ((c.tc : Thread Cert.KernelIdeal.nD Cert.KernelIdeal.τ).loc Cert.KernelIdeal.main_arg1))) (Cert.Spec.etOf (m ((c.tc : Thread Cert.KernelIdeal.nD Cert.KernelIdeal.τ).loc Cert.KernelIdeal.main_arg2))) n r d :=
  (congrFun (V_term m c) (ix2 n (Cert.Spec.aggCol r d))).trans (agg_mean _ _ _ hR n r d)

end Cert.KernelIdeal.Hand

end
-- ==== Proof.KHostW.lean ====
/-
  What the host operations before the kernel's region leave in its six small operands, entry by entry, over the
  extended reals (where a change of float format is the identity):

  * the relation weights [8, 1024, 1024] flattened to [8192, 1024]: row r·1024 + d, column j is entry (r, d, j)
    (the same row-major position);
  * the root weights as they are;
  * the two halves of the gate weights [2048, 1024]: rows [0, 1024) and rows [1024, 2048);
  * the two bias vectors [1024] as rows [1, 1024]: entry (0, j) is entry j.
-/
import proofs.«403554_j21449066676409_3_alg».proof.Proof.Gen.KernelIdeal.Frame
import proofs.«403554_j21449066676409_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

open Idealize.ShloMosaic Idealize.SL.Sem Idealize.ShloMosaic.ValueIdx

namespace Cert.KernelIdeal.Hand

open Cert.KernelIdeal Cert.KernelIdeal.Facts₀ Cert.KernelIdeal.Facts
open Idealize.ShloMosaic.StableHlo

variable (m : (ℓ : Loc nD τ sig) → Buf (Elt Ideal) ℓ)

/-! ### Each operand as a term over the launch contents -/

/-- the flattened relation weights, format-changed -/
theorem wcat_term (c : Dev nD) :
    @Eq (FVec Ideal S8192x1024 .bf16) (Gen.V m c main_v32)
      (truncf (F := Ideal) .bf16
        (shapeCast S8192x1024 (m ((c.tc : Thread nD τ).loc main_arg3) : FVec Ideal S8x1024x1024 .f32) Gen.shapeCasts_S8x1024x1024_S8192x1024)
        Gen.bitsLt_bf16_f32) := by
  dsimp only [Gen.V, Gen.hostOps0]
  after_results
  all_goals rfl

/-- the root weights, format-changed -/
theorem root_term (c : Dev nD) :
    @Eq (FVec Ideal S1024x1024 .bf16) (Gen.V m c main_v33)
      (truncf (F := Ideal) .bf16 (m ((c.tc : Thread nD τ).loc main_arg4) : FVec Ideal S1024x1024 .f32) Gen.bitsLt_bf16_f32) := by
  dsimp only [Gen.V, Gen.hostOps0]
  after_results
  all_goals rfl

/-- rows [0, 1024) of the gate weights, format-changed -/
theorem wg1_term (c : Dev nD) :
    @Eq (FVec Ideal S1024x1024 .bf16) (Gen.V m c main_v35)
      (truncf (F := Ideal) .bf16
        (extractStridedSlice S1024x1024 ![0, 0] (m ((c.tc : Thread nD τ).loc main_arg6) : FVec Ideal S2048x1024 .f32) Gen.slices_S2048x1024_S1024x1024_0_0)
        Gen.bitsLt_bf16_f32) := by
  dsimp only [Gen.V, Gen.hostOps0]
  after_results
  all_goals rfl

/-- rows [1024, 2048) of the gate weights, format-changed -/
theorem wg2_term (c : Dev nD) :
    @Eq (FVec Ideal S1024x1024 .bf16) (Gen.V m c main_v37)
      (truncf (F := Ideal) .bf16
        (extractStridedSlice S1024x1024 ![1024, 0] (m ((c.tc : Thread nD τ).loc main_arg6) : FVec Ideal S2048x1024 .f32) Gen.slices_S2048x1024_S1024x1024_1024_0)
        Gen.bitsLt_bf16_f32) := by
  dsimp only [Gen.V, Gen.hostOps0]
  after_results
  all_goals rfl

/-- the bias as a row -/
theorem bias_term (c : Dev nD) :
    @Eq (FVec Ideal S1x1024 .f32) (Gen.V m c main_v38)
      (shapeCast S1x1024 (m ((c.tc : Thread nD τ).loc main_arg5) : FVec Ideal S1024 .f32) Gen.shapeCasts_S1024_S1x1024) := by
  dsimp only [Gen.V, Gen.hostOps0]
  after_results
  all_goals rfl

/-- the gate bias as a row -/
theorem bg_term (c : Dev nD) :
    @Eq (FVec Ideal S1x1024 .f32) (Gen.V m c main_v39)
      (shapeCast S1x1024 (m ((c.tc : Thread nD τ).loc main_arg7) : FVec Ideal S1024 .f32) Gen.shapeCasts_S1024_S1x1024) := by
  dsimp only [Gen.V, Gen.hostOps0]
  after_results
  all_goals rfl

/-! ### The layout operations read at an entry -/

/-- Row r·1024 + d, column j of the flattened [8192, 1024] array is entry (r, d, j) of the [8, 1024, 1024] one: both sit at
    row-major position (r·1024 + d)·1024 + j. -/
theorem flatten_read (w : FVec Ideal S8x1024x1024 .f32) (r : Fin 8) (d j : Fin 1024) :
    shapeCast S8192x1024 w Gen.shapeCasts_S8x1024x1024_S8192x1024 (ix2 (Cert.Spec.aggCol r d) j) = w (ix3 r d j) := by
  refine shapeCast_apply _ _ _ (ix3 r d j) ?_
  rw [Shape.rowMajor_val_three, Shape.rowMajor_val_two]
  show (r.val * 1024 + d.val) * 1024 + j.val = (r.val * 1024 + d.val) * 1024 + j.val
  rfl

/-- Entry (k, j) of rows [0, 1024) is entry (k, j). -/
theorem upper_read (g : FVec Ideal S2048x1024 .f32) (k j : Fin 1024) :
    extractStridedSlice S1024x1024 ![0, 0] g Gen.slices_S2048x1024_S1024x1024_0_0 (ix2 k j) = g (ix2 (Cert.Spec.lo k) j) := by
  refine extractStridedSlice_apply _ _ _ _ (ix2 (Cert.Spec.lo k) j) ?_
  intro a
  match a with
  | ⟨0, _⟩ => show k.val = 0 + k.val; omega
  | ⟨1, _⟩ => show j.val = 0 + j.val; omega

/-- Entry (k, j) of rows [1024, 2048) is entry (1024 + k, j). -/
theorem lower_read (g : FVec Ideal S2048x1024 .f32) (k j : Fin 1024) :
    extractStridedSlice S1024x1024 ![1024, 0] g Gen.slices_S2048x1024_S1024x1024_1024_0 (ix2 k j) = g (ix2 (Cert.Spec.hi k) j) := by
  refine extractStridedSlice_apply _ _ _ _ (ix2 (Cert.Spec.hi k) j) ?_
  intro a
  match a with
  | ⟨0, _⟩ => show 1024 + k.val = 1024 + k.val; rfl
  | ⟨1, _⟩ => show j.val = 0 + j.val; omega

/-- Entry (0, j) of a vector laid as a row is its entry j: row-major position 0·1024 + j. -/
theorem row_read (b : FVec Ideal S1024 .f32) (j : Fin 1024) :
    shapeCast S1x1024 b Gen.shapeCasts_S1024_S1x1024 (ix2 (0 : Fin 1) j) = b (ix1 j) := by
  refine shapeCast_apply _ _ _ (ix1 j) ?_
  rw [Shape.rowMajor_val_one, Shape.rowMajor_val_two]
  show j.val = 0 * 1024 + j.val
  omega

/-! ### The six operands, entry by entry -/

theorem V_wcat (c : Dev nD) (r : Fin 8) (d j : Fin 1024) : Gen.V m c main_v32 (ix2 (Cert.Spec.aggCol r d) j) = (m ((c.tc : Thread Cert.KernelIdeal.nD Cert.KernelIdeal.τ).loc Cert.KernelIdeal.main_arg3)) (ix3 r d j) :=
  ((congrFun (wcat_term m c) (ix2 (Cert.Spec.aggCol r d) j)).trans
    (truncf_apply (φ := .f32) (ψ := .bf16) _ Gen.bitsLt_bf16_f32 _)).trans (flatten_read _ r d j)

theorem V_root (c : Dev nD) (k j : Fin 1024) : Gen.V m c main_v33 (ix2 k j) = (m ((c.tc : Thread Cert.KernelIdeal.nD Cert.KernelIdeal.τ).loc Cert.KernelIdeal.main_arg4)) (ix2 k j) :=
  (congrFun (root_term m c) (ix2 k j)).trans (truncf_apply (φ := .f32) (ψ := .bf16) _ Gen.bitsLt_bf16_f32 _)

theorem V_wg1 (c : Dev nD) (k j : Fin 1024) : Gen.V m c main_v35 (ix2 k j) = (m ((c.tc : Thread Cert.KernelIdeal.nD Cert.KernelIdeal.τ).loc Cert.KernelIdeal.main_arg6)) (ix2 (Cert.Spec.lo k) j) :=
  ((congrFun (wg1_term m c) (ix2 k j)).trans
    (truncf_apply (φ := .f32) (ψ := .bf16) _ Gen.bitsLt_bf16_f32 _)).trans (upper_read _ k j)

theorem V_wg2 (c : Dev nD) (k j : Fin 1024) : Gen.V m c main_v37 (ix2 k j) = (m ((c.tc : Thread Cert.KernelIdeal.nD Cert.KernelIdeal.τ).loc Cert.KernelIdeal.main_arg6)) (ix2 (Cert.Spec.hi k) j) :=
  ((congrFun (wg2_term m c) (ix2 k j)).trans
    (truncf_apply (φ := .f32) (ψ := .bf16) _ Gen.bitsLt_bf16_f32 _)).trans (lower_read _ k j)

theorem V_bias (c : Dev nD) (j : Fin 1024) : Gen.V m c main_v38 (ix2 (0 : Fin 1) j) = (m ((c.tc : Thread Cert.KernelIdeal.nD Cert.KernelIdeal.τ).loc Cert.KernelIdeal.main_arg5)) (ix1 j) :=
  (congrFun (bias_term m c) (ix2 (0 : Fin 1) j)).trans (row_read _ j)

theorem V_bg (c : Dev nD) (j : Fin 1024) : Gen.V m c main_v39 (ix2 (0 : Fin 1) j) = (m ((c.tc : Thread Cert.KernelIdeal.nD Cert.KernelIdeal.τ).loc Cert.KernelIdeal.main_arg7)) (ix1 j) :=
  (congrFun (bg_term m c) (ix2 (0 : Fin 1) j)).trans (row_read _ j)

end Cert.KernelIdeal.Hand

end
-- ==== Proof.RValueZ.lean ====
import proofs.«403554_j21449066676409_3_alg».proof.Proof.Gen.ReferenceIdeal.Run
import proofs.«403554_j21449066676409_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal
import Idealize.ShloMosaic.PureOps.Ideal.Laws

noncomputable section

namespace Cert.ReferenceIdeal.Hand

open Idealize.ShloMosaic Idealize.ShloMosaic.ValueIdx
open Cert.ReferenceIdeal Cert.ReferenceIdeal.Facts₀ Cert.ReferenceIdeal.Facts

/-! ### The gate's product, entry by entry

The product contracts axis 1 of `[u | x]` (2048 long) against axis 0 of the gate weights.  Which entry of each
operand a term of the contraction reads, coordinate by coordinate: -/

theorem lhsG_0 (i : S10000x1024.Idx) (k : dot_S10000x2048_S2048x1024_S10000x1024_1_0_0_1_n_n.contr.Idx) :
    ((dot_S10000x2048_S2048x1024_S10000x1024_1_0_0_1_n_n.lhsIdx i k 0 : Fin 10000) : ℕ) = (i 0 : ℕ) := by
  simp [DotDims.lhsIdx, dot_S10000x2048_S2048x1024_S10000x1024_1_0_0_1_n_n]
  rfl

theorem lhsG_1 (i : S10000x1024.Idx) (k : dot_S10000x2048_S2048x1024_S10000x1024_1_0_0_1_n_n.contr.Idx) :
    ((dot_S10000x2048_S2048x1024_S10000x1024_1_0_0_1_n_n.lhsIdx i k 1 : Fin 2048) : ℕ) = (k ⟨0, by decide⟩ : ℕ) :=
  DotDims.lhsIdx_val_of_single _ rfl i k

theorem rhsG_0 (i : S10000x1024.Idx) (k : dot_S10000x2048_S2048x1024_S10000x1024_1_0_0_1_n_n.contr.Idx) :
    ((dot_S10000x2048_S2048x1024_S10000x1024_1_0_0_1_n_n.rhsIdx i k 0 : Fin 2048) : ℕ) = (k ⟨0, by decide⟩ : ℕ) :=
  DotDims.rhsIdx_val_of_single _ rfl i k

theorem rhsG_1 (i : S10000x1024.Idx) (k : dot_S10000x2048_S2048x1024_S10000x1024_1_0_0_1_n_n.contr.Idx) :
    ((dot_S10000x2048_S2048x1024_S10000x1024_1_0_0_1_n_n.rhsIdx i k 1 : Fin 1024) : ℕ) = (i 1 : ℕ) := by
  simp [DotDims.rhsIdx, dot_S10000x2048_S2048x1024_S10000x1024_1_0_0_1_n_n]
  rfl

/-- the contraction's positions are the 2048 columns of `[u | x]` -/
def contrG : dot_S10000x2048_S2048x1024_S10000x1024_1_0_0_1_n_n.contr.Idx ≃ Fin 2048 :=
  contrEquiv1 dot_S10000x2048_S2048x1024_S10000x1024_1_0_0_1_n_n 2048 rfl rfl

theorem contrG_symm_val (k : Fin 2048) : ((contrG.symm k) ⟨0, by decide⟩ : ℕ) = k.val :=
  contrEquiv1_symm_val dot_S10000x2048_S2048x1024_S10000x1024_1_0_0_1_n_n 2048 rfl rfl k

/-- term `k` of entry `(n, j)` reads the left operand at `(n, k)` -/
theorem lhsG_eq (n : Fin 10000) (j : Fin 1024) (k : Fin 2048) :
    dot_S10000x2048_S2048x1024_S10000x1024_1_0_0_1_n_n.lhsIdx (ix2 n j) (contrG.symm k) = ix2 n k := by
  funext a
  match a with
  | ⟨0, _⟩ => exact Fin.ext (lhsG_0 _ _)
  | ⟨1, _⟩ => exact Fin.ext ((lhsG_1 _ _).trans (contrG_symm_val k))

/-- … and the right operand at `(k, j)` -/
theorem rhsG_eq (n : Fin 10000) (j : Fin 1024) (k : Fin 2048) :
    dot_S10000x2048_S2048x1024_S10000x1024_1_0_0_1_n_n.rhsIdx (ix2 n j) (contrG.symm k) = ix2 k j := by
  funext a
  match a with
  | ⟨0, _⟩ => exact Fin.ext ((rhsG_0 _ _).trans (contrG_symm_val k))
  | ⟨1, _⟩ => exact Fin.ext (rhsG_1 _ _)

/-- entry `(n, j)` of the product is the sum over the 2048 columns -/
theorem dotG_apply (l : FVec Ideal S10000x2048 .f32) (r : FVec Ideal S2048x1024 .f32) (n : Fin 10000) (j : Fin 1024) :
    Host.dotGeneral dot_S10000x2048_S2048x1024_S10000x1024_1_0_0_1_n_n none l r (ix2 n j) = ∑ k : Fin 2048, l (ix2 n k) * r (ix2 k j) := by
  simp only [Host.dotGeneral]
  rw [Ideal.dotGeneral_apply, ← Equiv.sum_comp contrG.symm]
  refine Finset.sum_congr rfl fun k _ => ?_
  rw [lhsG_eq, rhsG_eq]

/-! ### `[u | x]` entry by entry -/

variable (u x : FVec Ideal S10000x1024 .f32) (wg : FVec Ideal S2048x1024 .f32) (bg : FVec Ideal S1024 .f32)
  (n : Fin 10000) (j : Fin 1024)

/-- column `k` of row `n` of the concatenation is `u`'s below 1024 and `x`'s, 1024 less, from there on -/
theorem cat_apply (k : Fin 2048) :
    concatenate S10000x2048 1 [⟨S10000x1024, u⟩, ⟨S10000x1024, x⟩] concatenates_S10000x1024_S10000x1024_S10000x2048_d1 (ix2 n k)
      = Cert.Spec.catUX (fun n k => u (ix2 n k)) x n k := by
  unfold Cert.Spec.catUX
  by_cases hk : k.val < 1024
  · rw [dif_pos hk]
    refine concatenate_pair_apply_left (1 : Fin S10000x2048.rank) u x _ (ix2 n k) rfl (ix2 n ⟨k.val, hk⟩) ?_
    intro b
    match b with
    | ⟨0, _⟩ => rfl
    | ⟨1, _⟩ => rfl
  · rw [dif_neg hk]
    have hk2 : k.val - 1024 < 1024 := by have := k.isLt; omega
    refine concatenate_pair_apply_right (1 : Fin S10000x2048.rank) u x _ (ix2 n k) rfl rfl (ix2 n ⟨k.val - 1024, hk2⟩) ?_ ?_
    · intro b hb
      match b, hb with
      | ⟨0, _⟩, _ => rfl
      | ⟨1, _⟩, hb => exact absurd rfl hb
    · show k.val - 1024 + 1024 = k.val
      omega

/-! ### The gate and the result at an entry -/

/-- the gate's bias, made a row and repeated down the rows, is `b_gate`'s entry `j` everywhere in column `j` -/
theorem bg_apply :
    broadcastInDim S10000x1024 ![0, 1] bcast_S1x1024_S10000x1024_0_1 (broadcastInDim S1x1024 ![1] bcast_S1024_S1x1024_1 bg) (ix2 n j)
      = bg (ix1 j) := by
  rw [broadcastInDim_oneRow_apply]
  refine broadcastInDim_apply ![1] bcast_S1024_S1x1024_1 bg (ix2 (0 : Fin 1) j) (ix1 j) ?_
  intro a
  match a with
  | ⟨0, _⟩ =>
    show j.val = if (1024 : ℕ) = 1 then 0 else j.val
    rw [if_neg (by decide)]

theorem z_apply :
    addf (Host.dotGeneral dot_S10000x2048_S2048x1024_S10000x1024_1_0_0_1_n_n none (concatenate S10000x2048 1 [⟨S10000x1024, u⟩, ⟨S10000x1024, x⟩] concatenates_S10000x1024_S10000x1024_S10000x2048_d1) wg) (broadcastInDim S10000x1024 ![0, 1] bcast_S1x1024_S10000x1024_0_1 (broadcastInDim S1x1024 ![1] bcast_S1024_S1x1024_1 bg)) (ix2 n j)
      = Cert.Spec.zRef (fun n k => u (ix2 n k)) x wg bg n j := by
  rw [addf_apply, dotG_apply, bg_apply]
  unfold Cert.Spec.zRef
  simp only [cat_apply]

/-- the literal both programs carry is the extended real one -/
theorem one_apply (i : S10000x1024.Idx) :
    broadcastInDim S10000x1024 ![] bcast_S_S10000x1024 (constant (F := Ideal) S_ .f32 0x3F800000#32) i = 1 := by
  show Ideal.ofBits .f32 0x3F800000#32 = 1
  exact Ideal.ofBits_one_f32

theorem out_apply (z : FVec Ideal S10000x1024 .f32) :
    addf (mulf (Host.tanh u) z) (mulf x (subf (broadcastInDim S10000x1024 ![] bcast_S_S10000x1024 (constant S_ .f32 0x3F800000#32)) z)) (ix2 n j)
      = Cert.Spec.gate 1 (u (ix2 n j)) (z (ix2 n j)) (x (ix2 n j)) := by
  rw [addf_apply, mulf_apply, mulf_apply, subf_apply, one_apply]
  rfl

end Cert.ReferenceIdeal.Hand
end
-- ==== Proof.RValue.lean ====
import proofs.«403554_j21449066676409_3_alg».proof.Proof.Gen.ReferenceIdeal.Run
import proofs.«403554_j21449066676409_3_alg».proof.Proof.Spec
import proofs.«403554_j21449066676409_3_alg».proof.Proof.RValueZ
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

/-
  What the reference program computes, entry by entry, is the relation-by-relation form of the specification.

  For each relation `r` the program masks the gathered source rows by "the edge's type is `r`", sums the masked rows of the
  edges that end in a node into that node's row, sums the mask the same way (the number of such edges), divides the first by
  the second clamped below by one, and multiplies by `r`'s weight matrix.  Read at an entry: a sum over the edges of type
  `r` that end in the node, times the reciprocal of their number or of one, against a column of the weights.  A division by
  a real `c ≠ 0` is the product with `1/c` on every extended real, a mask entry is the real 1 or 0, and a sum of ones over
  a set is its size.  The eight relations' terms are added in order onto `x·root + bias`; associativity of the sum regroups
  them as the sum over the relations.  The gate and the last line are then read at an entry as they stand.
-/

noncomputable section

open Idealize.ShloMosaic Idealize.SL.Sem Idealize.ShloMosaic.ValueIdx

namespace Cert.ReferenceIdeal.Hand

open Cert.ReferenceIdeal Cert.ReferenceIdeal.Facts₀ Cert.ReferenceIdeal.Facts

variable (m : (ℓ : Loc nD τ sig) → Buf (Elt Ideal) ℓ)

/-- the gathered source rows, as a function of `x` and the edge list -/
def msgsR (x : FVec Ideal S10000x1024 .f32) (ei : IVec S2x80000 32) : FVec Ideal S80000x1024 .f32 :=
  let src : IVec S80000 32 := shapeCast S80000 (extractStridedSlice S1x80000 ![0, 0] ei slices_S2x80000_S1x80000_0_0) shapeCasts_S1x80000_S80000
  Host.gather gather_S10000x1024_S80000x1_S80000x1024_1_0_n_n_0_1_11024 x (broadcastInDim S80000x1 ![0] bcast_S80000_S80000x1_0 (select (cmpi .slt src (broadcastInDim S80000 ![] bcast_S_S80000 (constantI S_ 32 0#32))) (addi src (broadcastInDim S80000 ![] bcast_S_S80000 (constantI S_ 32 10000#32))) src))

/-! counting -/

/-- a sum of ones counts the set -/
theorem sum_ones_card {ι : Type} (s : Finset ι) : (∑ _e ∈ s, (1 : EReal)) = ((s.card : ℝ) : EReal) := by
  classical
  induction s using Finset.induction_on with
  | empty => simp
  | insert a s ha ih =>
    rw [Finset.sum_insert ha, ih, Finset.card_insert_of_notMem ha, Nat.cast_succ, EReal.coe_add, EReal.coe_one, add_comm]

/-- the larger of a count and one, taken in the reals or in the extended reals -/
theorem max_card_one (k : ℕ) : max ((k : ℝ) : EReal) (1 : EReal) = ((max (k : ℝ) 1 : ℝ) : EReal) := by
  rw [EReal.coe_strictMono.monotone.map_max, EReal.coe_one]

/-! the float literal one -/
theorem one_f32 : Ideal.ofBits .f32 0x3F800000#32 = 1 := IdealRules.sign_bit.ideal_onePat .f32

/-! the product of a 10000 × 1024 by a 1024 × 1024 matrix, read at an entry -/

theorem lhs_dot1_0 (j : S10000x1024.Idx) (k : dot_S10000x1024_S1024x1024_S10000x1024_1_0_0_1_n_n.contr.Idx) :
    (dot_S10000x1024_S1024x1024_S10000x1024_1_0_0_1_n_n.lhsIdx j k 0).val = (j 0).val := by
  unfold DotDims.lhsIdx
  rw [dif_neg (show ¬(0 : Fin S10000x1024.rank) ∈ dot_S10000x1024_S1024x1024_S10000x1024_1_0_0_1_n_n.lhsBatch by decide),
    dif_pos (show (0 : Fin S10000x1024.rank) ∈ dot_S10000x1024_S1024x1024_S10000x1024_1_0_0_1_n_n.lhsNonContracting by decide)]
  rfl

theorem lhs_dot1_1 (j : S10000x1024.Idx) (k : dot_S10000x1024_S1024x1024_S10000x1024_1_0_0_1_n_n.contr.Idx) :
    (dot_S10000x1024_S1024x1024_S10000x1024_1_0_0_1_n_n.lhsIdx j k 1).val = (k ⟨0, by decide⟩).val :=
  DotDims.lhsIdx_val_of_single _ rfl j k

theorem rhs_dot1_0 (j : S10000x1024.Idx) (k : dot_S10000x1024_S1024x1024_S10000x1024_1_0_0_1_n_n.contr.Idx) :
    (dot_S10000x1024_S1024x1024_S10000x1024_1_0_0_1_n_n.rhsIdx j k 0).val = (k ⟨0, by decide⟩).val :=
  DotDims.rhsIdx_val_of_single _ rfl j k

theorem rhs_dot1_1 (j : S10000x1024.Idx) (k : dot_S10000x1024_S1024x1024_S10000x1024_1_0_0_1_n_n.contr.Idx) :
    (dot_S10000x1024_S1024x1024_S10000x1024_1_0_0_1_n_n.rhsIdx j k 1).val = (j 1).val := by
  unfold DotDims.rhsIdx
  rw [dif_neg (show ¬(1 : Fin S1024x1024.rank) ∈ dot_S10000x1024_S1024x1024_S10000x1024_1_0_0_1_n_n.rhsBatch by decide),
    dif_pos (show (1 : Fin S1024x1024.rank) ∈ dot_S10000x1024_S1024x1024_S10000x1024_1_0_0_1_n_n.rhsNonContracting by decide)]
  rfl

theorem dot1_apply (l : FVec Ideal S10000x1024 .f32) (r : FVec Ideal S1024x1024 .f32) (n : Fin 10000) (j : Fin 1024) :
    Host.dotGeneral (F := Ideal) dot_S10000x1024_S1024x1024_S10000x1024_1_0_0_1_n_n none l r (ix2 n j)
      = ∑ k : Fin 1024, l (ix2 n k) * r (ix2 k j) := by
  refine (Ideal.dotGeneral_apply _ _ _ _ _ _).trans ?_
  rw [← Equiv.sum_comp (contrEquiv1 dot_S10000x1024_S1024x1024_S10000x1024_1_0_0_1_n_n 1024 rfl rfl).symm]
  refine Finset.sum_congr rfl fun k _ => ?_
  have hk := contrEquiv1_symm_val dot_S10000x1024_S1024x1024_S10000x1024_1_0_0_1_n_n 1024 rfl rfl k
  congr 2
  · funext a
    refine Fin.ext ?_
    match a with
    | ⟨0, _⟩ => exact lhs_dot1_0 _ _
    | ⟨1, _⟩ => exact (lhs_dot1_1 _ _).trans hk
  · funext a
    refine Fin.ext ?_
    match a with
    | ⟨0, _⟩ => exact (rhs_dot1_0 _ _).trans hk
    | ⟨1, _⟩ => exact rhs_dot1_1 _ _

/-! a scattered update lands on the operand entry whose every coordinate is the start plus the window coordinate -/

theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    by_cases hb : ∀ a, 0 ≤ d.start j idx a + d.window j a ∧ d.start j idx a + d.window j a < s.size a
    · rw [dif_pos hb] at h
      have hf := Option.some.inj h
      intro a
      have ha := congrArg Fin.val (congrFun hf a)
      have hba := hb a
      simp only at ha
      omega
    · rw [dif_neg hb] at h
      exact absurd h (by simp)
  · intro h
    have hb : ∀ a, 0 ≤ d.start j idx a + d.window j a ∧ d.start j idx a + d.window j a < s.size a := fun a => by
      have := h a; have := (i a).isLt; omega
    rw [dif_pos hb]
    refine congrArg some (funext fun a => Fin.ext ?_)
    have := h a
    simp only
    omega

/-! the counts' scatter: edge `e` adds to node `dst e` -/

theorem sc1_start (dst : IVec S80000 32) (e : Fin 80000) :
    scatter_S10000_S80000x1_S80000_n_0_0_1.start (ix1 e) (broadcastInDim S80000x1 ![0] bcast_S80000_S80000x1_0 dst) 0
      = (dst (ix1 e)).toInt := by
  unfold ScatterDims.start
  rw [dif_pos (show (0 : Fin S10000.rank) ∈ scatter_S10000_S80000x1_S80000_n_0_0_1.scatterDimsToOperandDims by decide)]
  refine congrArg BitVec.toInt ?_
  unfold broadcastInDim
  refine congrArg dst (funext fun a => Fin.ext ?_)
  match a with
  | ⟨0, _⟩ => rfl

theorem sc1_window (e : Fin 80000) : scatter_S10000_S80000x1_S80000_n_0_0_1.window (ix1 e) 0 = 0 := by
  unfold ScatterDims.window
  rw [dif_neg (show ¬(0 : Fin S10000.rank) ∈ scatter_S10000_S80000x1_S80000_n_0_0_1.sKept by decide)]

theorem sc1_iff (dst : IVec S80000 32) (e : Fin 80000) (n : Fin 10000) :
    scatter_S10000_S80000x1_S80000_n_0_0_1.resultIdx? (ix1 e) (broadcastInDim S80000x1 ![0] bcast_S80000_S80000x1_0 dst) = some (ix1 n)
      ↔ (dst (ix1 e)).toInt = (n.val : ℤ) := by
  rw [resultIdx?_eq_some_iff]
  constructor
  · intro h
    have := h 0
    rw [sc1_start, sc1_window] at this
    simpa using this
  · intro h a
    match a with
    | ⟨0, _⟩ =>
      show scatter_S10000_S80000x1_S80000_n_0_0_1.start (ix1 e) _ 0 + ((scatter_S10000_S80000x1_S80000_n_0_0_1.window (ix1 e) 0 : ℕ) : ℤ) = _
      rw [sc1_start, sc1_window, h]
      simp

/-! the rows' scatter: entry `d` of edge `e`'s row adds to entry `d` of node `dst e`'s row -/

theorem sc2_start0 (dst : IVec S80000 32) (e : Fin 80000) (d : Fin 1024) :
    scatter_S10000x1024_S80000x1_S80000x1024_1_0_0_1.start (ix2 e d) (broadcastInDim S80000x1 ![0] bcast_S80000_S80000x1_0 dst) 0
      = (dst (ix1 e)).toInt := by
  unfold ScatterDims.start
  rw [dif_pos (show (0 : Fin S10000x1024.rank) ∈ scatter_S10000x1024_S80000x1_S80000x1024_1_0_0_1.scatterDimsToOperandDims by decide)]
  refine congrArg BitVec.toInt ?_
  unfold broadcastInDim
  refine congrArg dst (funext fun a => Fin.ext ?_)
  match a with
  | ⟨0, _⟩ => rfl

theorem sc2_start1 {w : Nat} (idx : IVec S80000x1 w) (e : Fin 80000) (d : Fin 1024) :
    scatter_S10000x1024_S80000x1_S80000x1024_1_0_0_1.start (ix2 e d) idx 1 = 0 := by
  unfold ScatterDims.start
  rw [dif_neg (show ¬(1 : Fin S10000x1024.rank) ∈ scatter_S10000x1024_S80000x1_S80000x1024_1_0_0_1.scatterDimsToOperandDims by decide)]

theorem sc2_window0 (e : Fin 80000) (d : Fin 1024) :
    scatter_S10000x1024_S80000x1_S80000x1024_1_0_0_1.window (ix2 e d) 0 = 0 := by
  unfold ScatterDims.window
  rw [dif_neg (show ¬(0 : Fin S10000x1024.rank) ∈ scatter_S10000x1024_S80000x1_S80000x1024_1_0_0_1.sKept by decide)]

theorem sc2_window1 (e : Fin 80000) (d : Fin 1024) :
    scatter_S10000x1024_S80000x1_S80000x1024_1_0_0_1.window (ix2 e d) 1 = d.val := by
  unfold ScatterDims.window
  rw [dif_pos (show (1 : Fin S10000x1024.rank) ∈ scatter_S10000x1024_S80000x1_S80000x1024_1_0_0_1.sKept by decide)]
  rfl

theorem sc2_iff (dst : IVec S80000 32) (e : Fin 80000) (d' : Fin 1024) (n : Fin 10000) (d : Fin 1024) :
    scatter_S10000x1024_S80000x1_S80000x1024_1_0_0_1.resultIdx? (ix2 e d') (broadcastInDim S80000x1 ![0] bcast_S80000_S80000x1_0 dst) = some (ix2 n d)
      ↔ (dst (ix1 e)).toInt = (n.val : ℤ) ∧ d' = d := by
  rw [resultIdx?_eq_some_iff]
  constructor
  · intro h
    have h0 := h 0
    have h1 := h 1
    rw [sc2_start0, sc2_window0] at h0
    rw [sc2_start1, sc2_window1] at h1
    refine ⟨by simpa using h0, Fin.ext ?_⟩
    have : ((d'.val : ℕ) : ℤ) = (d.val : ℤ) := by simpa using h1
    exact_mod_cast this
  · rintro ⟨h, rfl⟩ a
    match a with
    | ⟨0, _⟩ =>
      show scatter_S10000x1024_S80000x1_S80000x1024_1_0_0_1.start (ix2 e d') _ 0 + ((scatter_S10000x1024_S80000x1_S80000x1024_1_0_0_1.window (ix2 e d') 0 : ℕ) : ℤ) = _
      rw [sc2_start0, sc2_window0, h]
      simp
    | ⟨1, _⟩ =>
      show scatter_S10000x1024_S80000x1_S80000x1024_1_0_0_1.start (ix2 e d') _ 1 + ((scatter_S10000x1024_S80000x1_S80000x1024_1_0_0_1.window (ix2 e d') 1 : ℕ) : ℤ) = _
      rw [sc2_start1, sc2_window1]
      simp

/-- the scatter of per-edge numbers by destination, at node `n`: the start value plus the sum over the edges that end in `n` -/
theorem scatter1_apply (x0 : FVec Ideal S10000 .f32) (dst : IVec S80000 32) (upd : FVec Ideal S80000 .f32) (n : Fin 10000) :
    Host.scatterAdd (F := Ideal) scatter_S10000_S80000x1_S80000_n_0_0_1 x0 (broadcastInDim S80000x1 ![0] bcast_S80000_S80000x1_0 dst) upd (ix1 n)
      = x0 (ix1 n) + ∑ e : Fin 80000, if (dst (ix1 e)).toInt = (n.val : ℤ) then upd (ix1 e) else 0 := by
  show Ideal.hostScatterAdd _ x0 _ upd (ix1 n) = _
  unfold Ideal.hostScatterAdd
  refine congrArg (x0 (ix1 n) + ·) ?_
  rw [Finset.sum_filter]
  rw [← Equiv.sum_comp (Equiv.ofBijective (fun e : Fin 80000 => (ix1 e : S80000.Idx))
    ⟨fun a b h => (congrFun h (0 : Fin 1) : a = b), fun j => ⟨j 0, (eq_ix1 j).symm⟩⟩)]
  refine Finset.sum_congr rfl fun e _ => ?_
  exact if_congr (sc1_iff dst e n) rfl rfl

/-- the scatter of per-edge rows by destination, at entry `d` of node `n`'s row -/
theorem scatter2_apply (x0 : FVec Ideal S10000x1024 .f32) (dst : IVec S80000 32) (upd : FVec Ideal S80000x1024 .f32) (n : Fin 10000) (d : Fin 1024) :
    Host.scatterAdd (F := Ideal) scatter_S10000x1024_S80000x1_S80000x1024_1_0_0_1 x0 (broadcastInDim S80000x1 ![0] bcast_S80000_S80000x1_0 dst) upd (ix2 n d)
      = x0 (ix2 n d) + ∑ e : Fin 80000, if (dst (ix1 e)).toInt = (n.val : ℤ) then upd (ix2 e d) else 0 := by
  show Ideal.hostScatterAdd _ x0 _ upd (ix2 n d) = _
  unfold Ideal.hostScatterAdd
  refine congrArg (x0 (ix2 n d) + ·) ?_
  rw [Finset.sum_filter, sum_idx2]
  refine Finset.sum_congr rfl fun e _ => ?_
  have hstep : ∀ d' : Fin 1024,
      (if scatter_S10000x1024_S80000x1_S80000x1024_1_0_0_1.resultIdx? (ix2 e d') (broadcastInDim S80000x1 ![0] bcast_S80000_S80000x1_0 dst) = some (ix2 n d)
        then upd (ix2 e d') else 0)
      = if d' = d then (if (dst (ix1 e)).toInt = (n.val : ℤ) then upd (ix2 e d) else 0) else 0 := fun d' => by
    by_cases hd : d' = d
    · subst hd
      rw [if_pos rfl]
      exact if_congr ((sc2_iff dst e d' n d').trans (and_iff_left rfl)) rfl rfl
    · rw [if_neg hd, if_neg (fun h => hd ((sc2_iff dst e d' n d).mp h).2)]
  rw [Finset.sum_congr rfl fun d' _ => hstep d', Finset.sum_ite_eq' Finset.univ d]
  simp

/-! broadcasts read at an entry -/

/-- a per-edge number spread along a row of 1024 -/
theorem edgeCol_apply {α : Type} (v : S80000.Idx → α) (e : Fin 80000) (d : Fin 1024) :
    broadcastInDim S80000x1024 ![0, 1] bcast_S80000x1_S80000x1024_0_1 (broadcastInDim S80000x1 ![0] bcast_S80000_S80000x1_0 v) (ix2 e d)
      = v (ix1 e) := by
  unfold broadcastInDim
  refine congrArg v (funext fun a => Fin.ext ?_)
  match a with
  | ⟨0, _⟩ => rfl

/-- a per-node number spread along a row of 1024 -/
theorem nodeCol_apply {α : Type} (v : S10000.Idx → α) (n : Fin 10000) (d : Fin 1024) :
    broadcastInDim S10000x1024 ![0, 1] bcast_S10000x1_S10000x1024_0_1 (broadcastInDim S10000x1 ![0] bcast_S10000_S10000x1_0 v) (ix2 n d)
      = v (ix1 n) := by
  unfold broadcastInDim
  refine congrArg v (funext fun a => Fin.ext ?_)
  match a with
  | ⟨0, _⟩ => rfl

/-- a per-feature number spread down the 10000 rows -/
theorem featRow_apply {α : Type} (v : S1024.Idx → α) (n : Fin 10000) (j : Fin 1024) :
    broadcastInDim S10000x1024 ![0, 1] bcast_S1x1024_S10000x1024_0_1 (broadcastInDim S1x1024 ![1] bcast_S1024_S1x1024_1 v) (ix2 n j)
      = v (ix1 j) := by
  unfold broadcastInDim
  refine congrArg v (funext fun a => Fin.ext ?_)
  match a with
  | ⟨0, _⟩ => rfl

theorem hostDivf_apply {s : Shape} {φ : FTy} (a b : FVec Ideal s φ) (i : s.Idx) :
    Host.divf a b i = Ideal.div (a i) (b i) := rfl

/-- the indicator of relation `r`: 1 on the edges whose type word equals `k`, the word of `r`, else 0 -/
theorem mask_apply (et : IVec S80000 32) (k : BitVec 32) (r : ℤ) (hk : k.toInt = r) (e : Fin 80000) :
    (uitofp (F := Ideal) .f32 (cmpi .eq et (broadcastInDim S80000 ![] bcast_S_S80000 (constantI S_ 32 k))) : FVec Ideal S80000 .f32) (ix1 e)
      = if (et (ix1 e)).toInt = r then (1 : EReal) else 0 := by
  show (((BitVec.ofBool (et (ix1 e) == k)).toNat : ℝ) : EReal) = _
  by_cases h : et (ix1 e) = k
  · rw [if_pos (by rw [h, hk])]
    simp [h]
  · rw [if_neg (fun h' => h (BitVec.toInt_inj.mp (h'.trans hk.symm)))]
    simp [h]

/-! the mean message of one relation into one node, as the program forms it -/

/-- the scattered masked rows over the scattered mask clamped below by one, at entry `d` of node `n`: feature `d` of the
    mean message.  `mask` is any per-edge number that is 1 on the edges of type `r` and 0 on the others. -/
theorem mean_apply (msgs : FVec Ideal S80000x1024 .f32) (dstv : IVec S80000 32) (mask : FVec Ideal S80000 .f32)
    (et : Fin 80000 → ℤ) (r : Fin 8)
    (hmask : ∀ e : Fin 80000, mask (ix1 e) = if et e = (r.val : ℤ) then (1 : EReal) else 0) (n : Fin 10000) (d : Fin 1024) :
    Host.divf (F := Ideal)
      (Host.scatterAdd scatter_S10000x1024_S80000x1_S80000x1024_1_0_0_1
        (broadcastInDim S10000x1024 ![] bcast_S_S10000x1024 (constant S_ .f32 0x00000000#32))
        (broadcastInDim S80000x1 ![0] bcast_S80000_S80000x1_0 dstv)
        (mulf msgs (broadcastInDim S80000x1024 ![0, 1] bcast_S80000x1_S80000x1024_0_1 (broadcastInDim S80000x1 ![0] bcast_S80000_S80000x1_0 mask))))
      (broadcastInDim S10000x1024 ![0, 1] bcast_S10000x1_S10000x1024_0_1 (broadcastInDim S10000x1 ![0] bcast_S10000_S10000x1_0
        (maximumf
          (Host.scatterAdd scatter_S10000_S80000x1_S80000_n_0_0_1 (broadcastInDim S10000 ![] bcast_S_S10000 (constant S_ .f32 0x00000000#32))
            (broadcastInDim S80000x1 ![0] bcast_S80000_S80000x1_0 dstv) mask)
          (broadcastInDim S10000 ![] bcast_S_S10000 (constant S_ .f32 0x3F800000#32)))))
      (ix2 n d)
      = Cert.Spec.relMean msgs (fun e => (dstv (ix1 e)).toInt) et n r d := by
  rw [hostDivf_apply, scatter2_apply, nodeCol_apply, maximumf_apply, scatter1_apply]
  have hz2 : (broadcastInDim S10000x1024 ![] bcast_S_S10000x1024 (constant (F := Ideal) S_ .f32 0x00000000#32)) (ix2 n d) = 0 :=
    Ideal.ofBits_zero_f32
  have hz1 : (broadcastInDim S10000 ![] bcast_S_S10000 (constant (F := Ideal) S_ .f32 0x00000000#32)) (ix1 n) = 0 :=
    Ideal.ofBits_zero_f32
  have ho1 : (broadcastInDim S10000 ![] bcast_S_S10000 (constant (F := Ideal) S_ .f32 0x3F800000#32)) (ix1 n) = 1 :=
    one_f32
  rw [hz2, hz1, ho1, zero_add, zero_add]
  have hnum : (∑ e : Fin 80000, if (dstv (ix1 e)).toInt = (n.val : ℤ)
        then (mulf msgs (broadcastInDim S80000x1024 ![0, 1] bcast_S80000x1_S80000x1024_0_1 (broadcastInDim S80000x1 ![0] bcast_S80000_S80000x1_0 mask))) (ix2 e d) else 0)
      = ∑ e ∈ Cert.Spec.edges (fun e => (dstv (ix1 e)).toInt) et n r, msgs (ix2 e d) := by
    unfold Cert.Spec.edges
    rw [Finset.sum_filter]
    refine Finset.sum_congr rfl fun e _ => ?_
    rw [mulf_apply, edgeCol_apply, hmask e]
    by_cases h1 : (dstv (ix1 e)).toInt = (n.val : ℤ) <;> by_cases h2 : et e = (r.val : ℤ) <;> simp [h1, h2]
  have hden : (∑ e : Fin 80000, if (dstv (ix1 e)).toInt = (n.val : ℤ) then mask (ix1 e) else 0)
      = (((Cert.Spec.edges (fun e => (dstv (ix1 e)).toInt) et n r).card : ℝ) : EReal) := by
    rw [← sum_ones_card]
    unfold Cert.Spec.edges
    rw [Finset.sum_filter]
    refine Finset.sum_congr rfl fun e _ => ?_
    rw [hmask e]
    by_cases h1 : (dstv (ix1 e)).toInt = (n.val : ℤ) <;> by_cases h2 : et e = (r.val : ℤ) <;> simp [h1, h2]
  rw [hnum, hden, max_card_one]
  have hpos : max (((Cert.Spec.edges (fun e => (dstv (ix1 e)).toInt) et n r).card : ℝ)) 1 ≠ 0 :=
    ne_of_gt (lt_of_lt_of_le one_pos (le_max_right _ _))
  rw [Ideal.div_coe hpos]
  rfl

/-! one relation's term of the pre-activation -/

/-- relation `r`'s weight matrix: the slice `[r, :, :]` of the weights viewed as 1024 × 1024 -/
theorem wslice_apply (w : FVec Ideal S8x1024x1024 .f32) (r : Fin 8) (rn : Nat) (hrn : rn = r.val)
    (hs : S8x1024x1024.Slices ![rn, 0, 0] S1x1024x1024) (k j : Fin 1024) :
    shapeCast S1024x1024 (extractStridedSlice S1x1024x1024 ![rn, 0, 0] w hs) shapeCasts_S1x1024x1024_S1024x1024 (ix2 k j)
      = w (ix3 r k j) := by
  rw [shapeCast_1ab_ab_apply]
  exact extractStridedSlice_apply _ _ _ _ (ix3 r k j) (fun a => by
    match a with
    | ⟨0, _⟩ => show r.val = rn + 0; omega
    | ⟨1, _⟩ => show k.val = 0 + k.val; omega
    | ⟨2, _⟩ => show j.val = 0 + j.val; omega)

/-- the term the program adds for the relation whose type word is `k` and whose weights start at row `rn` of the stack:
    the mean messages (scattered masked rows over the clamped scattered mask) times that relation's weight matrix -/
def relTerm (msgs : FVec Ideal S80000x1024 .f32) (dstv etv : IVec S80000 32) (w : FVec Ideal S8x1024x1024 .f32)
    (k : BitVec 32) (rn : Nat) (hs : S8x1024x1024.Slices ![rn, 0, 0] S1x1024x1024) : FVec Ideal S10000x1024 .f32 :=
  Host.dotGeneral dot_S10000x1024_S1024x1024_S10000x1024_1_0_0_1_n_n none
    (Host.divf
      (Host.scatterAdd scatter_S10000x1024_S80000x1_S80000x1024_1_0_0_1
        (broadcastInDim S10000x1024 ![] bcast_S_S10000x1024 (constant S_ .f32 0x00000000#32))
        (broadcastInDim S80000x1 ![0] bcast_S80000_S80000x1_0 dstv)
        (mulf msgs (broadcastInDim S80000x1024 ![0, 1] bcast_S80000x1_S80000x1024_0_1 (broadcastInDim S80000x1 ![0] bcast_S80000_S80000x1_0
          (uitofp .f32 (cmpi .eq etv (broadcastInDim S80000 ![] bcast_S_S80000 (constantI S_ 32 k))))))))
      (broadcastInDim S10000x1024 ![0, 1] bcast_S10000x1_S10000x1024_0_1 (broadcastInDim S10000x1 ![0] bcast_S10000_S10000x1_0
        (maximumf
          (Host.scatterAdd scatter_S10000_S80000x1_S80000_n_0_0_1 (broadcastInDim S10000 ![] bcast_S_S10000 (constant S_ .f32 0x00000000#32))
            (broadcastInDim S80000x1 ![0] bcast_S80000_S80000x1_0 dstv)
            (uitofp .f32 (cmpi .eq etv (broadcastInDim S80000 ![] bcast_S_S80000 (constantI S_ 32 k)))))
          (broadcastInDim S10000 ![] bcast_S_S10000 (constant S_ .f32 0x3F800000#32))))))
    (shapeCast S1024x1024 (extractStridedSlice S1x1024x1024 ![rn, 0, 0] w hs) shapeCasts_S1x1024x1024_S1024x1024)

/-- at entry `(n, j)` it is the mean message of relation `r` into node `n` against column `j` of `r`'s weights -/
theorem relTerm_apply (msgs : FVec Ideal S80000x1024 .f32) (dstv etv : IVec S80000 32) (w : FVec Ideal S8x1024x1024 .f32)
    (k : BitVec 32) (rn : Nat) (hs : S8x1024x1024.Slices ![rn, 0, 0] S1x1024x1024)
    (r : Fin 8) (hk : k.toInt = (r.val : ℤ)) (hrn : rn = r.val) (n : Fin 10000) (j : Fin 1024) :
    relTerm msgs dstv etv w k rn hs (ix2 n j)
      = ∑ d : Fin 1024, Cert.Spec.relMean msgs (fun e => (dstv (ix1 e)).toInt) (fun e => (etv (ix1 e)).toInt) n r d * w (ix3 r d j) := by
  unfold relTerm
  rw [dot1_apply]
  refine Finset.sum_congr rfl fun d _ => ?_
  rw [mean_apply msgs dstv _ (fun e => (etv (ix1 e)).toInt) r (fun e => mask_apply etv k (r.val : ℤ) hk e) n d,
    wslice_apply w r rn hrn hs d j]

/-! the pre-activation -/

/-- `x·root + bias`, then the eight relations' terms added in order -/
def uTerm (x : FVec Ideal S10000x1024 .f32) (root : FVec Ideal S1024x1024 .f32) (bias : FVec Ideal S1024 .f32)
    (msgs : FVec Ideal S80000x1024 .f32) (dstv etv : IVec S80000 32) (w : FVec Ideal S8x1024x1024 .f32) :
    FVec Ideal S10000x1024 .f32 :=
  addf (addf (addf (addf (addf (addf (addf (addf (addf
    (Host.dotGeneral dot_S10000x1024_S1024x1024_S10000x1024_1_0_0_1_n_n none x root)
    (broadcastInDim S10000x1024 ![0, 1] bcast_S1x1024_S10000x1024_0_1 (broadcastInDim S1x1024 ![1] bcast_S1024_S1x1024_1 bias)))
    (relTerm msgs dstv etv w 0#32 0 slices_S8x1024x1024_S1x1024x1024_0_0_0))
    (relTerm msgs dstv etv w 1#32 1 slices_S8x1024x1024_S1x1024x1024_1_0_0))
    (relTerm msgs dstv etv w 2#32 2 slices_S8x1024x1024_S1x1024x1024_2_0_0))
    (relTerm msgs dstv etv w 3#32 3 slices_S8x1024x1024_S1x1024x1024_3_0_0))
    (relTerm msgs dstv etv w 4#32 4 slices_S8x1024x1024_S1x1024x1024_4_0_0))
    (relTerm msgs dstv etv w 5#32 5 slices_S8x1024x1024_S1x1024x1024_5_0_0))
    (relTerm msgs dstv etv w 6#32 6 slices_S8x1024x1024_S1x1024x1024_6_0_0))
    (relTerm msgs dstv etv w 7#32 7 slices_S8x1024x1024_S1x1024x1024_7_0_0)

/-- at entry `(n, j)`: the sum over the eight relations, regrouped by associativity of the sum -/
theorem uTerm_apply (x : FVec Ideal S10000x1024 .f32) (root : FVec Ideal S1024x1024 .f32) (bias : FVec Ideal S1024 .f32)
    (msgs : FVec Ideal S80000x1024 .f32) (dstv etv : IVec S80000 32) (w : FVec Ideal S8x1024x1024 .f32)
    (n : Fin 10000) (j : Fin 1024) :
    uTerm x root bias msgs dstv etv w (ix2 n j)
      = Cert.Spec.uRef x msgs (fun e => (dstv (ix1 e)).toInt) (fun e => (etv (ix1 e)).toInt) w root bias n j := by
  unfold uTerm Cert.Spec.uRef
  simp only [addf_apply]
  rw [dot1_apply, featRow_apply,
    relTerm_apply msgs dstv etv w 0#32 0 _ 0 (by decide) rfl n j,
    relTerm_apply msgs dstv etv w 1#32 1 _ 1 (by decide) rfl n j,
    relTerm_apply msgs dstv etv w 2#32 2 _ 2 (by decide) rfl n j,
    relTerm_apply msgs dstv etv w 3#32 3 _ 3 (by decide) rfl n j,
    relTerm_apply msgs dstv etv w 4#32 4 _ 4 (by decide) rfl n j,
    relTerm_apply msgs dstv etv w 5#32 5 _ 5 (by decide) rfl n j,
    relTerm_apply msgs dstv etv w 6#32 6 _ 6 (by decide) rfl n j,
    relTerm_apply msgs dstv etv w 7#32 7 _ 7 (by decide) rfl n j,
    Fin.sum_univ_eight]
  simp only [add_assoc]

/-! the destinations -/

/-- row 1 of the edge list, flattened: entry `e` is the edge list at `(1, e)` -/
theorem dst_apply (ei : IVec S2x80000 32) (e : Fin 80000) :
    shapeCast S80000 (extractStridedSlice S1x80000 ![1, 0] ei slices_S2x80000_S1x80000_1_0) shapeCasts_S1x80000_S80000 (ix1 e)
      = ei (ix2 (1 : Fin 2) e) := by
  rw [shapeCast_1a_a_apply]
  exact extractStridedSlice_apply _ _ _ _ (ix2 (1 : Fin 2) e) (fun a => by
    match a with
    | ⟨0, _⟩ => show 1 = 1 + 0; omega
    | ⟨1, _⟩ => show e.val = 0 + e.val; omega)

/-! the whole result -/

/-- the gate's pre-activation `[u | x]·w_gate + b_gate` -/
def zTerm (u x : FVec Ideal S10000x1024 .f32) (wg : FVec Ideal S2048x1024 .f32) (bg : FVec Ideal S1024 .f32) :
    FVec Ideal S10000x1024 .f32 :=
  addf (Host.dotGeneral dot_S10000x2048_S2048x1024_S10000x1024_1_0_0_1_n_n none
      (concatenate S10000x2048 1 [⟨S10000x1024, u⟩, ⟨S10000x1024, x⟩] concatenates_S10000x1024_S10000x1024_S10000x2048_d1) wg)
    (broadcastInDim S10000x1024 ![0, 1] bcast_S1x1024_S10000x1024_0_1 (broadcastInDim S1x1024 ![1] bcast_S1024_S1x1024_1 bg))

/-- row 1 of the edge list, flattened -/
def dstTerm (ei : IVec S2x80000 32) : IVec S80000 32 :=
  shapeCast S80000 (extractStridedSlice S1x80000 ![1, 0] ei slices_S2x80000_S1x80000_1_0) shapeCasts_S1x80000_S80000

/-- `tanh u · z + x · (1 − z)` over typed arrays is the relation-by-relation form of the specification -/
theorem value_core (x : FVec Ideal S10000x1024 .f32) (ei : IVec S2x80000 32) (etv : IVec S80000 32)
    (w : FVec Ideal S8x1024x1024 .f32) (root : FVec Ideal S1024x1024 .f32) (bias : FVec Ideal S1024 .f32)
    (wg : FVec Ideal S2048x1024 .f32) (bg : FVec Ideal S1024 .f32) :
    addf (mulf (Host.tanh (uTerm x root bias (msgsR x ei) (dstTerm ei) etv w))
        (zTerm (uTerm x root bias (msgsR x ei) (dstTerm ei) etv w) x wg bg))
      (mulf x (subf (broadcastInDim S10000x1024 ![] bcast_S_S10000x1024 (constant S_ .f32 0x3F800000#32))
        (zTerm (uTerm x root bias (msgsR x ei) (dstTerm ei) etv w) x wg bg)))
      = Cert.Spec.outRef 1 x (msgsR x ei) (Cert.Spec.dstOf ei) (Cert.Spec.etOf etv) w root bias wg bg := by
  have hdst : (fun e : Fin 80000 => ((dstTerm ei) (ix1 e)).toInt) = Cert.Spec.dstOf ei := by
    funext e
    unfold dstTerm Cert.Spec.dstOf
    rw [dst_apply]
  have het : (fun e : Fin 80000 => (etv (ix1 e)).toInt) = Cert.Spec.etOf etv := rfl
  have hu : (fun (n : Fin 10000) (k : Fin 1024) => uTerm x root bias (msgsR x ei) (dstTerm ei) etv w (ix2 n k))
      = Cert.Spec.uRef x (msgsR x ei) (Cert.Spec.dstOf ei) (Cert.Spec.etOf etv) w root bias := by
    funext n k
    rw [uTerm_apply, hdst, het]
  funext i
  obtain ⟨n, j, rfl⟩ : ∃ (n : Fin 10000) (j : Fin 1024), i = ix2 n j := ⟨i 0, i 1, eq_ix2 i⟩
  rw [out_apply]
  unfold zTerm
  rw [z_apply, hu]
  show Cert.Spec.gate 1 ((fun (n : Fin 10000) (k : Fin 1024) => uTerm x root bias (msgsR x ei) (dstTerm ei) etv w (ix2 n k)) n j) _ _ = _
  rw [hu]
  rfl

/-! the run -/

/-- the run's result, with its named intermediates opened, is `value_core`'s left side at the arguments -/
theorem value_eq (V : Valuation τ sig (Elt Ideal)) :
    addf (mulf (Host.tanh (Cert.ReferenceIdeal.Value.res_main_v182 V)) (Cert.ReferenceIdeal.Value.res_main_v187 V))
        (mulf (V (Proc.devRef .tc main_arg0)) (subf (broadcastInDim S10000x1024 ![] bcast_S_S10000x1024 (constant S_ .f32 0x3F800000#32))
          (Cert.ReferenceIdeal.Value.res_main_v187 V)))
      = Cert.Spec.outRef 1 (V (Proc.devRef .tc main_arg0)) (msgsR (V (Proc.devRef .tc main_arg0)) (V (Proc.devRef .tc main_arg1)))
          (Cert.Spec.dstOf (V (Proc.devRef .tc main_arg1))) (Cert.Spec.etOf (V (Proc.devRef .tc main_arg2)))
          (V (Proc.devRef .tc main_arg3)) (V (Proc.devRef .tc main_arg4)) (V (Proc.devRef .tc main_arg5))
          (V (Proc.devRef .tc main_arg6)) (V (Proc.devRef .tc main_arg7)) := by
  have hu : Cert.ReferenceIdeal.Value.res_main_v182 V
      = uTerm (V (Proc.devRef .tc main_arg0)) (V (Proc.devRef .tc main_arg4)) (V (Proc.devRef .tc main_arg5))
          (msgsR (V (Proc.devRef .tc main_arg0)) (V (Proc.devRef .tc main_arg1))) (dstTerm (V (Proc.devRef .tc main_arg1)))
          (V (Proc.devRef .tc main_arg2)) (V (Proc.devRef .tc main_arg3)) := by
    unfold Cert.ReferenceIdeal.Value.res_main_v182 Cert.ReferenceIdeal.Value.res_main_v98
      Cert.ReferenceIdeal.Value.res_main_v17 Cert.ReferenceIdeal.Value.res_main_v38 Cert.ReferenceIdeal.Value.res_main_v59
      Cert.ReferenceIdeal.Value.res_main_v80 Cert.ReferenceIdeal.Value.res_main_v101 Cert.ReferenceIdeal.Value.res_main_v122
      Cert.ReferenceIdeal.Value.res_main_v143 Cert.ReferenceIdeal.Value.res_main_v164 Cert.ReferenceIdeal.Value.res_main_v10
      Cert.ReferenceIdeal.Value.res_main_v3 Cert.ReferenceIdeal.Value.res_main_v1 uTerm relTerm msgsR dstTerm
    rfl
  have hz : Cert.ReferenceIdeal.Value.res_main_v187 V
      = zTerm (Cert.ReferenceIdeal.Value.res_main_v182 V) (V (Proc.devRef .tc main_arg0)) (V (Proc.devRef .tc main_arg6))
          (V (Proc.devRef .tc main_arg7)) := by
    unfold Cert.ReferenceIdeal.Value.res_main_v187 zTerm
    rfl
  rw [hz, hu]
  exact value_core _ _ _ _ _ _ _ _

/-- every weakly fair execution ends with the result the relation-by-relation form of the specification at the arguments,
    and the arguments unchanged -/
theorem run_ref (ρ : Dev nD → PrngReg) : θ_run defs (onTc (τ := τ) (main (F := Ideal))) ⟨m, fun _ => 0, ρ⟩ (fun r => ∀ c : Dev nD,
      r.2.mem ((c.tc : Thread nD τ).loc main_v193) = Cert.Spec.outRef 1 (m ((c.tc : Thread Cert.ReferenceIdeal.nD Cert.ReferenceIdeal.τ).loc Cert.ReferenceIdeal.main_arg0)) (msgsR (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) (Cert.Spec.dstOf (m ((c.tc : Thread Cert.ReferenceIdeal.nD Cert.ReferenceIdeal.τ).loc Cert.ReferenceIdeal.main_arg1))) (Cert.Spec.etOf (m ((c.tc : Thread Cert.ReferenceIdeal.nD Cert.ReferenceIdeal.τ).loc Cert.ReferenceIdeal.main_arg2))) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run defs _ _).mono (fun r h c => ⟨(h c).1.trans (value_eq _), (h c).2⟩) (Cert.ReferenceIdeal.Value.run (F := Ideal) m ρ)

end Cert.ReferenceIdeal.Hand

end
-- ==== Proof.lean ====
/-
  Equivalence, over the extended reals, of a fused relational-graph-convolution layer with a gated update and its
  relation-by-relation reference.

  Both programs take node features `x` (10000 × 1024), 80000 typed edges (source, destination, one of 8 relation
  types), a weight matrix per relation, a root weight, a bias, and gate weights.  For each node and relation they form
  the MEAN of the source rows over the edges of that type ending in the node; `u = x·root + bias + Σ_r mean_r·W_r`,
  `z = [u | x]·w_gate + b_gate`, and the result is `tanh u · z + x · (1 − z)`.

  The fused program forms all the means with ONE scatter-add keyed by `destination · 8 + type` (a column of ones
  appended to the messages carries the counts), lays them out as a 10000 × 8192 matrix, and does the rest in one
  kernel over blocks of 256 rows: four matrix products, a `tanh`, and the gate.  The reference loops over the 8
  relations, masking the messages by `type = r`, scattering by destination, dividing by the count, and multiplying
  by that relation's weight.  The two agree exactly when the combined key separates (node, relation) pairs, that is
  when every destination is a node index and every type is one of the 8 relations: outside that range the key of one
  pair collides with another's (type 8 into node `n` lands on type 0 of node `n + 1`; a destination of 2²⁹ wraps to
  node 0), while the reference's masks and scatter drop such an edge.  The precondition states the two ranges; under
  them the claim is regrouping of finite sums (8192 = 8 × 1024, 2048 = 1024 + 1024) in a commutative monoid and
  `s · (1 / c) = s / c` for a real `c ≥ 1`, which hold for every extended real: no finiteness is used.

  The modules: `Spec` states the two forms as plain functions and `SpecLaws` joins them; `KBody` / `KBodyBits` run the
  kernel body at every grid point (the last block of 256 rows overhangs the 10000 rows by 240: what the body computes
  from the rows past the array's end is never written back) and give both programs' frames; `KPay` reads the body's
  stored value at an index; `KValue` pieces the 40 written-back blocks into the result array; `KHost` / `KHostW` read
  what the host operations before the kernel leave in its operands; `RValue` reads the reference; `PreRange` reads the
  two ranges off the precondition; `RefFrame` is the reference's frame.
-/
import proofs.«403554_j21449066676409_3_alg».proof.Defs
import proofs.«403554_j21449066676409_3_alg».proof.Proof.Gen.Kernel
import proofs.«403554_j21449066676409_3_alg».proof.Proof.Gen.Kernel.Skeleton
import proofs.«403554_j21449066676409_3_alg».proof.Proof.Gen.Kernel.Launch
import proofs.«403554_j21449066676409_3_alg».proof.Proof.Gen.Kernel.Points
import proofs.«403554_j21449066676409_3_alg».proof.Proof.Gen.Kernel.Frame
import proofs.«403554_j21449066676409_3_alg».proof.Proof.Gen.KernelIdeal
import proofs.«403554_j21449066676409_3_alg».proof.Proof.Gen.KernelIdeal.Skeleton
import proofs.«403554_j21449066676409_3_alg».proof.Proof.Gen.KernelIdeal.Launch
import proofs.«403554_j21449066676409_3_alg».proof.Proof.Gen.KernelIdeal.Points
import proofs.«403554_j21449066676409_3_alg».proof.Proof.Gen.KernelIdeal.Frame
import proofs.«403554_j21449066676409_3_alg».proof.Proof.Gen.ReferenceIdeal
import proofs.«403554_j21449066676409_3_alg».proof.Proof.Gen.ReferenceIdeal.Run
import proofs.«403554_j21449066676409_3_alg».proof.Proof.Gen.Pre_finite_inputs
import proofs.«403554_j21449066676409_3_alg».proof.Proof.Spec
import proofs.«403554_j21449066676409_3_alg».proof.Proof.SpecLaws
import proofs.«403554_j21449066676409_3_alg».proof.Proof.RefFrame
import proofs.«403554_j21449066676409_3_alg».proof.Proof.PreRange
import proofs.«403554_j21449066676409_3_alg».proof.Proof.KBody
import proofs.«403554_j21449066676409_3_alg».proof.Proof.KBodyBits
import proofs.«403554_j21449066676409_3_alg».proof.Proof.KValue
import proofs.«403554_j21449066676409_3_alg».proof.Proof.KHost
import proofs.«403554_j21449066676409_3_alg».proof.Proof.KHostW
import proofs.«403554_j21449066676409_3_alg».proof.Proof.RValue
import Idealize.ShloMosaic.Adequacy
import Idealize.ShloMosaic.Init

noncomputable section

namespace Cert.Proof

open Idealize.ShloMosaic Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level program runs to the end, faults nowhere and leaves its arguments as they were. -/
theorem frame_p : Cert.frame_Kernel := fun m ρ _ => Cert.Kernel.Hand.frame (F := Bits) m ρ

/-- So does its reading over the extended reals. -/
theorem frame_pi : Cert.frame_KernelIdeal := fun m ρ _ => Cert.KernelIdeal.Hand.frame (F := Ideal) m ρ

/-- Both programs gather the same source rows: the same operations on `x` and on row 0 of the edge list. -/
theorem msgs_same (x : FVec Ideal Cert.KernelIdeal.S10000x1024 .f32) (ei : IVec Cert.KernelIdeal.S2x80000 32) :
    Cert.ReferenceIdeal.Hand.msgsR x ei = Cert.KernelIdeal.Hand.msgsK x ei := rfl

/-- From memories that agree on the eight arguments both programs end with the same result, the reference's
    relation-by-relation form: the fused program's row form equals it once each operand of the kernel is read as the
    mean, weight, bias or gate entry it holds (the means under the two ranges the precondition states). -/
theorem algebraic : Cert.algebraic_KernelIdeal_ReferenceIdeal := by
  intro m ρ m' ρ' hpre hagree
  refine ⟨fun c => Cert.Spec.outRef 1 (m ((c.tc : Thread Cert.KernelIdeal.nD Cert.KernelIdeal.τ).loc Cert.KernelIdeal.main_arg0)) (Cert.KernelIdeal.Hand.msgsK (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.Spec.dstOf (m ((c.tc : Thread Cert.KernelIdeal.nD Cert.KernelIdeal.τ).loc Cert.KernelIdeal.main_arg1))) (Cert.Spec.etOf (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩) (Cert.KernelIdeal.Hand.run_rows m ρ)
    have hR := Cert.Proof.PreRange.ranges_of_pre _ _ _ _ _ _ _ _ (hpre c)
    exact Cert.Spec.rows_eq_ref 1 _ _ _ _ _ _ _ _ _ _ _ _ _ _ _ _
      (Cert.KernelIdeal.Hand.V_agg m c hR) (Cert.KernelIdeal.Hand.V_wcat m c) (Cert.KernelIdeal.Hand.V_root m c)
      (Cert.KernelIdeal.Hand.V_wg1 m c) (Cert.KernelIdeal.Hand.V_wg2 m c) (Cert.KernelIdeal.Hand.V_bias m c) (Cert.KernelIdeal.Hand.V_bg m c)
  · refine (θ_run Cert.ReferenceIdeal.defs _ _).mono (fun r h c => ⟨(h c).1.trans ?_, (h c).2⟩) (Cert.ReferenceIdeal.Hand.run_ref m' ρ')
    obtain ⟨h0, h1, h2, h3, h4, h5, h6, h7⟩ := hagree c
    rw [h0, h1, h2, h3, h4, h5, h6, h7, msgs_same]

theorem claim : Cert.Claim := ⟨Cert.Kernel.Gen.facts, Cert.KernelIdeal.Gen.facts, Cert.ReferenceIdeal.Gen.facts, Cert.Pre_finite_inputs.Gen.facts,
  frame_p, frame_pi, Cert.Proof.RefFrame.frame_ri, trivial, algebraic⟩

end Cert.Proof

end
